-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x6 : Shape := ⟨2, ![2000000, 6]⟩
abbrev S2000000x2 : Shape := ⟨2, ![2000000, 2]⟩
abbrev S64x6 : Shape := ⟨2, ![64, 6]⟩
abbrev S64 : Shape := ⟨1, ![64]⟩
abbrev S_ : Shape := ⟨0, ![]⟩

class Facts : Prop where
  bcast_S_S2000000x6 : S_.BroadcastsInDim S2000000x6 (![] : Fin 0 → Fin S2000000x6.rank)
  reducesTo_S2000000x6_S_d0_1 : S2000000x6.ReducesTo [0, 1] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2000000x6 .f32) (main_arg1 : IVec S2000000x2 32) (main_arg2 : FVec F S64x6 .f32) (main_arg3 : FVec F S64 .f32) (main_arg4 : FVec F S64 .f32) (main_arg5 : FVec F S64 .f32) : IVec S_ 1 :=
  let main_v0 : FVec F S2000000x6 .f32 := Host.absf main_arg0
  let main_cst : FVec F S_ .f32 := constant S_ .f32 0x7F800000#32
  let main_v1 : FVec F S2000000x6 .f32 := broadcastInDim S2000000x6 ![] bcast_S_S2000000x6 main_cst
  let main_v2 : IVec S2000000x6 1 := cmpf .olt main_v0 main_v1
  let main_c : IVec S_ 1 := constantI S_ 1 1#1
  let main_v3 : IVec S_ 1 := (fun x v => Host.reduce IntOp.andi x v reducesTo_S2000000x6_S_d0_1 h_S_) main_v2 main_c
  let main_v4 : FVec F S64x6 .f32 := Host.absf main_arg2
  let main_cst_0 : FVec F S_ .f32 := constant S_ .f32 0x7F800000#32
  let main_v5 : FVec F S64x6 .f32 := broadcastInDim S64x6 ![] bcast_S_S64x6 main_cst_0
  let main_v6 : IVec S64x6 1 := cmpf .olt main_v4 main_v5
  let main_c_1 : IVec S_ 1 := constantI S_ 1 1#1
  let main_v7 : IVec S_ 1 := (fun x v => Host.reduce IntOp.andi x v reducesTo_S64x6_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S2000000x6 : Shape := ⟨2, ![2000000, 6]⟩
abbrev S2000000x2 : Shape := ⟨2, ![2000000, 2]⟩
abbrev S64x6 : Shape := ⟨2, ![64, 6]⟩
abbrev S64 : Shape := ⟨1, ![64]⟩
abbrev S6x64 : Shape := ⟨2, ![6, 64]⟩
abbrev S1x64 : Shape := ⟨2, ![1, 64]⟩
abbrev S20000x6 : Shape := ⟨2, ![20000, 6]⟩
abbrev S20000x64 : Shape := ⟨2, ![20000, 64]⟩
abbrev S_ : Shape := ⟨0, ![]⟩
abbrev S2000000x64 : Shape := ⟨2, ![2000000, 64]⟩
abbrev S512x512x64 : Shape := ⟨3, ![512, 512, 64]⟩
abbrev S2000000x1 : Shape := ⟨2, ![2000000, 1]⟩
abbrev S2000000 : Shape := ⟨1, ![2000000]⟩

abbrev nBuf : Space → Nat
  | .hbm => 45
  | .vmem => 18
  | .smem => 0
  | _ => 0

abbrev bufTy : (tb : Table) → Fin (tcTables nBuf tb) → BufTy
  | .hbm, ⟨0, _⟩ => ⟨S2000000x6, .f32⟩
  | .hbm, ⟨1, _⟩ => ⟨S2000000x2, .i32⟩
  | .hbm, ⟨2, _⟩ => ⟨S64x6, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S6x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S_, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S2000000x64, .f32⟩
  | .hbm, ⟨21, _⟩ => ⟨S_, .f32⟩
  | .hbm, ⟨22, _⟩ => ⟨S512x512x64, .f32⟩
  | .hbm, ⟨23, _⟩ => ⟨S2000000x1, .i32⟩
  | .hbm, ⟨24, _⟩ => ⟨S2000000, .i32⟩
  | .hbm, ⟨25, _⟩ => ⟨S2000000x1, .i32⟩
  | .hbm, ⟨26, _⟩ => ⟨S2000000, .i32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S2000000x1, .i32⟩
  | .hbm, ⟨43, _⟩ => ⟨S2000000x2, .i32⟩
  | .hbm, ⟨44, _⟩ => ⟨S512x512x64, .f32⟩
  | .local _ .vmem, ⟨0, _⟩ => ⟨S20000x6, .f32⟩
  | .local _ .vmem, ⟨1, _⟩ => ⟨S20000x6, .f32⟩
  | .local _ .vmem, ⟨2, _⟩ => ⟨S6x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S20000x6, .f32⟩
  | .local _ .vmem, ⟨9, _⟩ => ⟨S20000x6, .f32⟩
  | .local _ .vmem, ⟨10, _⟩ => ⟨S6x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S20000x64, .f32⟩
  | .local _ .vmem, ⟨17, _⟩ => ⟨S20000x64, .f32⟩
  | _, _ => ⟨S2000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v28 : BitVec 1 := Scalar.cmpi .eq arg0 c99_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S20000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S64x6_S6x64_1_0 : S64x6.Transposes [1, 0] S6x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S20000x6_S20000x6_0_0 : ∀ a, (![0, 0] : Fin 2 → Nat) a + S20000x6.size a ≤ S20000x6.size a
  h_S20000x6 : 0 < S20000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  shapeCasts_S6x64_S6x64 : S6x64.ShapeCasts S6x64
  broadcasts_S1x64_S20000x64 : S1x64.Broadcasts S20000x64
  reduces_S20000x64_S64 : S20000x64.Reduces [0] S64
  bcast_S_S1x64 : S_.BroadcastsInDim S1x64 (![] : Fin 0 → Fin S1x64.rank)
  inb_S20000x64_S20000x64_0_0 : ∀ a, (![0, 0] : Fin 2 → Nat) a + S20000x64.size a ≤ S20000x64.size a
  h_S20000x64 : 0 < S20000x64.numel
  bcast_S_S512x512x64 : S_.BroadcastsInDim S512x512x64 (![] : Fin 0 → Fin S512x512x64.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  dot_S20000x6_S6x64_S20000x64_1_0_0_1_n_n_wf : DotDims.WF S20000x6 S6x64 S20000x64 [1] [0] [0] [1] [] []
  scatter_S512x512x64_S2000000x2_S2000000x64_1_01_01_1_wf : ScatterDims.WF S512x512x64 S2000000x2 S2000000x64 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x6.size a ≤ S2000000x6.size a
  hwx0_0 : ∀ i : grid0.Coords, EltTy.bits .f32 = 32 ∨ (Rect.block (s := S2000000x6) S20000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x6.size a ≤ S2000000x6.size a
  hwx1_0 : ∀ i : grid1.Coords, EltTy.bits .f32 = 32 ∨ (Rect.block (s := S2000000x6) S20000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x64.size a ≤ S6x64.size a
  hwx1_1 : ∀ i : grid1.Coords, EltTy.bits .f32 = 32 ∨ (Rect.block (s := S6x64) S6x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S20000x64.size a ≤ S2000000x64.size a
  hwx1_7 : ∀ i : grid1.Coords, EltTy.bits .f32 = 32 ∨ (Rect.block (s := S2000000x64) S20000x64.size (cc1_transform_7 i) (hinb1_7 i)).WholeWords (EltTy.packing .f32)

variable [Facts₀]

def dot_S20000x6_S6x64_S20000x64_1_0_0_1_n_n : DotDims S20000x6 S6x64 S20000x64 where
  lhsContracting := [1]
  rhsContracting := [0]
  lhsNonContracting := [0]
  rhsNonContracting := [1]
  lhsBatch := []
  rhsBatch := []
  wf := dot_S20000x6_S6x64_S20000x64_1_0_0_1_n_n_wf
def scatter_S512x512x64_S2000000x2_S2000000x64_1_01_01_1 : ScatterDims S512x512x64 S2000000x2 S2000000x64 where
  updateWindowDims := [1]
  insertedWindowDims := [0, 1]
  scatterDimsToOperandDims := [0, 1]
  indexVectorDim := 1
  wf := scatter_S512x512x64_S2000000x2_S2000000x64_1_01_01_1_wf

abbrev win0_0 : Pipeline.Window sig grid0 :=
  Pipeline.Window.ofSpec (Memref.whole main_arg0) S20000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S20000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S6x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S20000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2000000x6 : Shape := ⟨2, ![2000000, 6]⟩
abbrev S2000000x2 : Shape := ⟨2, ![2000000, 2]⟩
abbrev S64x6 : Shape := ⟨2, ![64, 6]⟩
abbrev S64 : Shape := ⟨1, ![64]⟩
abbrev S6x64 : Shape := ⟨2, ![6, 64]⟩
abbrev S2000000x64 : Shape := ⟨2, ![2000000, 64]⟩
abbrev S1x64 : Shape := ⟨2, ![1, 64]⟩
abbrev S_ : Shape := ⟨0, ![]⟩
abbrev S512x512x64 : Shape := ⟨3, ![512, 512, 64]⟩
abbrev S2000000x1 : Shape := ⟨2, ![2000000, 1]⟩
abbrev S2000000 : Shape := ⟨1, ![2000000]⟩

abbrev nBuf : Space → Nat
  | .hbm => 68
  | .vmem => 0
  | .smem => 0
  | _ => 0

abbrev bufTy : (tb : Table) → Fin (tcTables nBuf tb) → BufTy
  | .hbm, ⟨0, _⟩ => ⟨S2000000x6, .f32⟩
  | .hbm, ⟨1, _⟩ => ⟨S2000000x2, .i32⟩
  | .hbm, ⟨2, _⟩ => ⟨S64x6, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S6x64, .f32⟩
  | .hbm, ⟨7, _⟩ => ⟨S2000000x64, .f32⟩
  | .hbm, ⟨8, _⟩ => ⟨S1x64, .f32⟩
  | .hbm, ⟨9, _⟩ => ⟨S2000000x64, .f32⟩
  | .hbm, ⟨10, _⟩ => ⟨S2000000x64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S2000000x64, .f32⟩
  | .hbm, ⟨18, _⟩ => ⟨S2000000x64, .f32⟩
  | .hbm, ⟨19, _⟩ => ⟨S2000000x64, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S2000000x64, .f32⟩
  | .hbm, ⟨27, _⟩ => ⟨S2000000x64, .f32⟩
  | .hbm, ⟨28, _⟩ => ⟨S1x64, .f32⟩
  | .hbm, ⟨29, _⟩ => ⟨S2000000x64, .f32⟩
  | .hbm, ⟨30, _⟩ => ⟨S2000000x64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S2000000x64, .f32⟩
  | .hbm, ⟨37, _⟩ => ⟨S2000000x64, .f32⟩
  | .hbm, ⟨38, _⟩ => ⟨S1x64, .f32⟩
  | .hbm, ⟨39, _⟩ => ⟨S2000000x64, .f32⟩
  | .hbm, ⟨40, _⟩ => ⟨S2000000x64, .f32⟩
  | .hbm, ⟨41, _⟩ => ⟨S_, .f32⟩
  | .hbm, ⟨42, _⟩ => ⟨S2000000x64, .f32⟩
  | .hbm, ⟨43, _⟩ => ⟨S2000000x64, .f32⟩
  | .hbm, ⟨44, _⟩ => ⟨S_, .f32⟩
  | .hbm, ⟨45, _⟩ => ⟨S512x512x64, .f32⟩
  | .hbm, ⟨46, _⟩ => ⟨S2000000x1, .i32⟩
  | .hbm, ⟨47, _⟩ => ⟨S2000000, .i32⟩
  | .hbm, ⟨48, _⟩ => ⟨S2000000x1, .i32⟩
  | .hbm, ⟨49, _⟩ => ⟨S2000000, .i32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S_, .i32⟩
  | .hbm, ⟨58, _⟩ => ⟨S2000000, .i32⟩
  | .hbm, ⟨59, _⟩ => ⟨S2000000, .i1⟩
  | .hbm, ⟨60, _⟩ => ⟨S_, .i32⟩
  | .hbm, ⟨61, _⟩ => ⟨S2000000, .i32⟩
  | .hbm, ⟨62, _⟩ => ⟨S2000000, .i32⟩
  | .hbm, ⟨63, _⟩ => ⟨S2000000, .i32⟩
  | .hbm, ⟨64, _⟩ => ⟨S2000000x1, .i32⟩
  | .hbm, ⟨65, _⟩ => ⟨S2000000x1, .i32⟩
  | .hbm, ⟨66, _⟩ => ⟨S2000000x2, .i32⟩
  | .hbm, ⟨67, _⟩ => ⟨S512x512x64, .f32⟩
  | _, _ => ⟨S2000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  transposes_S64x6_S6x64_1_0 : S64x6.Transposes [1, 0] S6x64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  reducesTo_S2000000x64_S64_d0 : S2000000x64.ReducesTo [0] S64
  h_S_ : 0 < S_.numel
  bcast_S_S64 : S_.BroadcastsInDim S64 (![] : Fin 0 → Fin S64.rank)
  bcast_S_S2000000x64 : S_.BroadcastsInDim S2000000x64 (![] : Fin 0 → Fin S2000000x64.rank)
  bcast_S_S512x512x64 : S_.BroadcastsInDim S512x512x64 (![] : Fin 0 → Fin S512x512x64.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  dot_S2000000x6_S6x64_S2000000x64_1_0_0_1_n_n_wf : DotDims.WF S2000000x6 S6x64 S2000000x64 [1] [0] [0] [1] [] []
  scatter_S512x512x64_S2000000x2_S2000000x64_1_01_01_1_wf : ScatterDims.WF S512x512x64 S2000000x2 S2000000x64 [1] [0, 1] [0, 1] 1

variable [Facts₀]

def dot_S2000000x6_S6x64_S2000000x64_1_0_0_1_n_n : DotDims S2000000x6 S6x64 S2000000x64 where
  lhsContracting := [1]
  rhsContracting := [0]
  lhsNonContracting := [0]
  rhsNonContracting := [1]
  lhsBatch := []
  rhsBatch := []
  wf := dot_S2000000x6_S6x64_S2000000x64_1_0_0_1_n_n_wf
def scatter_S512x512x64_S2000000x2_S2000000x64_1_01_01_1 : ScatterDims S512x512x64 S2000000x2 S2000000x64 where
  updateWindowDims := [1]
  insertedWindowDims := [0, 1]
  scatterDimsToOperandDims := [0, 1]
  indexVectorDim := 1
  wf := scatter_S512x512x64_S2000000x2_S2000000x64_1_01_01_1_wf

class Facts : Prop extends Facts₀ where

variable [Facts]
-- ==== Proof.Bits.Stats.lean ====
/- The statistics region (the program's first grid region: a linear layer's outputs summed, and their squares summed, column by
   column over all rows, one block of rows per grid point): the body's behaviour at the first, a middle and the last
   point of the grid, the two running rows point by point, the region's proof data, invariant and body obligation. -/
import proofs.«179944_j79989470921164_1_alg».proof.Proof.Gen.Kernel.Launch
import proofs.«179944_j79989470921164_1_alg».proof.Proof.Gen.Kernel.Skeleton
import proofs.«179944_j79989470921164_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the reset branch, from the grid coordinates (the scalar chain substituted). -/
abbrev isFirst (i : grid0.Coords) : Prop :=
  (Scalar.cmpi .ne (Scalar.extui (Scalar.cmpi .eq (BitVec.ofNat 32 (i 0).val) 0#32)) 0#32) = 1#1

/-- The condition of the write-out branch. -/
abbrev isLast (i : grid0.Coords) : Prop := k0_cond2 i = 1#1

/-- The reset branch is taken at the first point only. -/
theorem isFirst_iff : ∀ t : Fin cfg0.N, isFirst (grid0.coords t) ↔ t.val = 0 :=
  (by decide +kernel : ∀ t : Fin grid0.N, isFirst (grid0.coords t) ↔ t.val = 0)

/-- The write-out branch is taken at the last point only. -/
theorem isLast_iff : ∀ t : Fin cfg0.N, isLast (grid0.coords t) ↔ t.val = 99 :=
  (by decide +kernel : ∀ t : Fin grid0.N, isLast (grid0.coords t) ↔ t.val = 99)

/-- The zero offsets of a whole-buffer rectangle of rank 2. -/
theorem zeroOff : (![0, 0] : Fin 2 → Nat) = fun _ => 0 := funext fun a => by fin_cases a <;> rfl

/-! ## The body, case by case

On whole memrefs: the three inputs at their blocks, the two accumulator rows at what the point before left
(at anything where the body resets them first); the body leaves the inputs as they were and each accumulator row
at its old contents plus the column sums of `h`, resp. of `h * h`; at the last point the two output rows are
left at the same two rows. -/

set_option maxHeartbeats 1000000 in
/-- The first point: the accumulators are reset to the zero rows, then updated. -/
theorem runFirst (c : Dev nD) (i : grid0.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : isFirst i) (hc2 : ¬isLast i)
    (x0 : Vec F S20000x6 .f32) (x1 : Vec F S6x64 .f32) (x2 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 (k0_pay1 (F := F)))
            ∗ owns (c : Thread nD τ) arg7 fullShare (k0_pay5 x0 x1 x2 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%d6, %f6, -, H6⟩, ⟨%d7, %f7, -, H7⟩, Hk⟩
  obtain rfl := harg1.eq_unread hf0; obtain rfl := harg2.eq_unread hf1; obtain rfl := harg3.eq_unread hf2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H6]
  · iexists _; isplitr
    swap; · iexact H6
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  · iexists _; isplitr
    swap; · iexact H7
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]

set_option maxHeartbeats 1000000 in
/-- A middle point: the accumulators are updated. -/
theorem runMiddle (c : Dev nD) (i : grid0.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬isFirst i) (hc2 : ¬isLast i)
    (x0 : Vec F S20000x6 .f32) (x1 : Vec F S6x64 .f32) (x2 : Vec F S1x64 .f32) (s1 s2 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare s1 ∗ owns (c : Thread nD τ) arg7 fullShare s2
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 s1)
            ∗ owns (c : Thread nD τ) arg7 fullShare (k0_pay5 x0 x1 x2 s2)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg1.eq_unread hf0; obtain rfl := harg2.eq_unread hf1; obtain rfl := harg3.eq_unread hf2
  obtain rfl := harg6.eq_unread hf6; obtain rfl := harg7.eq_unread hf7
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H6]
  · iexists _; isplitr
    swap; · iexact H6
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  · iexists _; isplitr
    swap; · iexact H7
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]

set_option maxHeartbeats 1000000 in
/-- The last point: the accumulators are updated, then copied to the two output rows. -/
theorem runLast (c : Dev nD) (i : grid0.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬isFirst i) (hc2 : isLast i)
    (x0 : Vec F S20000x6 .f32) (x1 : Vec F S6x64 .f32) (x2 : Vec F S1x64 .f32) (s1 s2 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s1 ∗ owns (c : Thread nD τ) arg7 fullShare s2
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 s1)
            ∗ owns (c : Thread nD τ) arg5 fullShare (k0_pay5 x0 x1 x2 s2)
            ∗ owns (c : Thread nD τ) arg6 fullShare (k0_pay4 x0 x1 x2 s1)
            ∗ owns (c : Thread nD τ) arg7 fullShare (k0_pay5 x0 x1 x2 s2)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg6.eq_unread hf6; obtain rfl := harg7.eq_unread hf7
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  isplitl [H5]
  · iexists _; isplitr
    swap; · iexact H5
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  isplitl [H6]
  · iexists _; isplitr
    swap; · iexact H6
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  · iexists _; isplitr
    swap; · iexact H7
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]

/-! ## The region's proof data -/

section Data

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running rows after point `n`: the zero rows plus, for each point up to `n`, the column sums of
    `h` (first component) and of `h * h` (second), `h` the affine image of the point's block of rows. -/
def acc (c : Dev nD) : (n : ℕ) → n < cfg0.N → Vec F S1x64 .f32 × Vec F S1x64 .f32
  | 0, h => (k0_pay4 (blk V c 0 ⟨0, h⟩) (blk V c 1 ⟨0, h⟩) (blk V c 2 ⟨0, h⟩) k0_pay1,
      k0_pay5 (blk V c 0 ⟨0, h⟩) (blk V c 1 ⟨0, h⟩) (blk V c 2 ⟨0, h⟩) k0_pay2)
  | n + 1, h => (k0_pay4 (blk V c 0 ⟨n + 1, h⟩) (blk V c 1 ⟨n + 1, h⟩) (blk V c 2 ⟨n + 1, h⟩) (acc c n (Nat.lt_of_succ_lt h)).1,
      k0_pay5 (blk V c 0 ⟨n + 1, h⟩) (blk V c 1 ⟨n + 1, h⟩) (blk V c 2 ⟨n + 1, h⟩) (acc c n (Nat.lt_of_succ_lt h)).2)

theorem acc_zero (c : Dev nD) (h : 0 < cfg0.N) :
    acc V c 0 h = (k0_pay4 (blk V c 0 ⟨0, h⟩) (blk V c 1 ⟨0, h⟩) (blk V c 2 ⟨0, h⟩) k0_pay1,
      k0_pay5 (blk V c 0 ⟨0, h⟩) (blk V c 1 ⟨0, h⟩) (blk V c 2 ⟨0, h⟩) k0_pay2) := rfl

theorem acc_succ (c : Dev nD) (n : ℕ) (h : n + 1 < cfg0.N) :
    acc V c (n + 1) h = (k0_pay4 (blk V c 0 ⟨n + 1, h⟩) (blk V c 1 ⟨n + 1, h⟩) (blk V c 2 ⟨n + 1, h⟩) (acc V c n (Nat.lt_of_succ_lt h)).1,
      k0_pay5 (blk V c 0 ⟨n + 1, h⟩) (blk V c 1 ⟨n + 1, h⟩) (blk V c 2 ⟨n + 1, h⟩) (acc V c n (Nat.lt_of_succ_lt h)).2) := rfl

/-- The running rows at the first point of the grid. -/
theorem acc_first (c : Dev nD) (t : Fin cfg0.N) (h0 : t.val = 0) :
    acc V c t.val t.isLt = (k0_pay4 (blk V c 0 t) (blk V c 1 t) (blk V c 2 t) k0_pay1,
      k0_pay5 (blk V c 0 t) (blk V c 1 t) (blk V c 2 t) k0_pay2) := by
  obtain ⟨n, hn⟩ := t
  cases n with
  | zero => rfl
  | succ n => exact absurd h0 (Nat.succ_ne_zero n)

/-- The running rows at a later point, over those of the point before. -/
theorem acc_later (c : Dev nD) (t : Fin cfg0.N) (h0 : t.val ≠ 0) :
    acc V c t.val t.isLt = (k0_pay4 (blk V c 0 t) (blk V c 1 t) (blk V c 2 t) (acc V c (t.val - 1) (Nat.lt_of_le_of_lt (Nat.sub_le _ _) t.isLt)).1,
      k0_pay5 (blk V c 0 t) (blk V c 1 t) (blk V c 2 t) (acc V c (t.val - 1) (Nat.lt_of_le_of_lt (Nat.sub_le _ _) t.isLt)).2) := by
  obtain ⟨n, hn⟩ := t
  cases n with
  | zero => exact absurd rfl h0
  | succ n => rfl

/-- The two accumulator rows as memrefs: whole scoped buffers of the kernel's own. -/
abbrev sumM : Memref sig .tc .vmem S1x64 .f32 := Memref.whole cc0_scratch0
abbrev sqM : Memref sig .tc .vmem S1x64 .f32 := Memref.whole cc0_scratch1

/-- The core's other scoped buffers that the region does not stage (the second region's staging buffers), each whole
    at some contents: carried through every point untouched. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f))

/-- What the launch hands the region, with the two accumulator rows as memrefs owned at some contents. -/
theorem PhiA_eq (c : Dev nD) :
    (Pipeline.ΦA spec0 c : sProp 𝕄)
      = iprop(iprop((∃ d, owns (c : Thread nD τ) sumM fullShare d) ∗ (∃ d, owns (c : Thread nD τ) sqM fullShare d) ∗ others (F := F) c) ∗ (∃ r, prngReg c r)) := by
  unfold Pipeline.ΦA; rw [scopedRest0_eq]; unfold others; simp only [sumM, sqM, owns_whole]; try rfl

/-- The invariant before position `n`: before the first point what the launch hands over; afterwards the two
    accumulator rows at the running rows of the point before, the other buffers and the generator register at anything. -/
def Phi (c : Dev nD) : (n : ℕ) → n ≤ cfg0.N → sProp 𝕄
  | 0, _ => Pipeline.ΦA spec0 c
  | n + 1, hn => iprop(iprop(owns (c : Thread nD τ) sumM fullShare (acc V c n hn).1 ∗ owns (c : Thread nD τ) sqM fullShare (acc V c n hn).2 ∗ others (F := F) c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) sumM fullShare (acc V c n hn).1 ∗ owns (c : Thread nD τ) sqM fullShare (acc V c n hn).2 ∗ others (F := F) c) ∗ (∃ r, prngReg c r)) := rfl

theorem Phi_pos (c : Dev nD) (n : ℕ) (h : n ≤ cfg0.N) (hz : n ≠ 0) :
    Phi V c n h = iprop(iprop(owns (c : Thread nD τ) sumM fullShare (acc V c (n - 1) (by omega)).1 ∗ owns (c : Thread nD τ) sqM fullShare (acc V c (n - 1) (by omega)).2 ∗ others (F := F) c) ∗ (∃ r, prngReg c r)) := by
  cases n with
  | zero => exact absurd rfl hz
  | succ n => rfl

/-- The proof data of the region on core `c`: the arrays as the region finds them; after the body each input's
    buffer at its block, the two output rows at the running rows; nothing owed; full shares. -/
def dat (c : Dev nD) : Pipeline.Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (acc V c t.val t.isLt).1
    | ⟨4, _⟩ => (acc V c t.val t.isLt).2
  Φ t := Phi V c t.val (Nat.le_of_lt_succ t.isLt)
  q _ := fullShare
  owed _ := 0

theorem dat_A (c : Dev nD) (w : Fin cfg0.W) : (dat V c).A w = V c (Pipeline.arrRef spec0 w) := by
  dsimp only [dat]

theorem dat_after_in0 (c : Dev nD) (t : Fin cfg0.N) : (dat V c).after 0 t = blk V c 0 t := by dsimp only [dat]
theorem dat_after_in1 (c : Dev nD) (t : Fin cfg0.N) : (dat V c).after 1 t = blk V c 1 t := by dsimp only [dat]
theorem dat_after_in2 (c : Dev nD) (t : Fin cfg0.N) : (dat V c).after 2 t = blk V c 2 t := by dsimp only [dat]
theorem dat_after_sum (c : Dev nD) (t : Fin cfg0.N) : (dat V c).after 3 t = (acc V c t.val t.isLt).1 := by dsimp only [dat]
theorem dat_after_sumsq (c : Dev nD) (t : Fin cfg0.N) : (dat V c).after 4 t = (acc V c t.val t.isLt).2 := by dsimp only [dat]
theorem dat_q (c : Dev nD) (w : Fin cfg0.W) : (dat V c).q w = fullShare := rfl
theorem dat_owed (c : Dev nD) (t : Fin (cfg0.N + 1)) : (dat V c).owed t = 0 := rfl
theorem dat_recorded (c : Dev nD) (t : Fin (cfg0.N + 1)) : (dat V c).recorded t = Set.univ := rfl

theorem Phi_castSucc (c : Dev nD) (t : Fin cfg0.N) :
    (dat V c).Φ t.castSucc = Phi V c t.val (Nat.le_of_lt t.isLt) := by
  dsimp only [dat]; simp only [Fin.coe_castSucc]

/-- Each input's current staging buffer holds its block at every point, fetched there or not. -/
theorem before_in0 (c : Dev nD) (t : Fin cfg0.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_in1 (c : Dev nD) (t : Fin cfg0.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_in2 (c : Dev nD) (t : Fin cfg0.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)

end Data

section Body

variable (V : (c : Dev nD) → (b : Ref sig .tc) → Buf (Elt F) ((c : Thread nD τ).loc b))

/-! ## Where the output rows are idle -/

/-- Away from the last point the two output rows are idle and not written back; at the last point they are live. -/
theorem idle_sum : ∀ t : Fin cfg0.N, ¬isLast (grid0.coords t) → cfg0.idle 3 (grid0.coords t) = true := by decide +kernel
theorem idle_sumsq : ∀ t : Fin cfg0.N, ¬isLast (grid0.coords t) → cfg0.idle 4 (grid0.coords t) = true := by decide +kernel
theorem noFlush_sum : ∀ t : Fin cfg0.N, ¬isLast (grid0.coords t) → (cfg0.win 3).flush t = false := by decide +kernel
theorem noFlush_sumsq : ∀ t : Fin cfg0.N, ¬isLast (grid0.coords t) → (cfg0.win 4).flush t = false := by decide +kernel
theorem live_sum : ∀ t : Fin cfg0.N, isLast (grid0.coords t) → cfg0.idle 3 (grid0.coords t) = false := by decide +kernel
theorem live_sumsq : ∀ t : Fin cfg0.N, isLast (grid0.coords t) → cfg0.idle 4 (grid0.coords t) = false := by decide +kernel

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) ((cfg0.win 0).stage (cfg0.slots t 0)) fullShare ((dat V c).before 0 t d))
    ∗ (∃ d, owns (c : Thread nD τ) ((cfg0.win 1).stage (cfg0.slots t 1)) fullShare ((dat V c).before 1 t d))
    ∗ (∃ d, owns (c : Thread nD τ) ((cfg0.win 2).stage (cfg0.slots t 2)) fullShare ((dat V c).before 2 t d))
    ∗ (∃ d, owns (c : Thread nD τ) ((cfg0.win 3).stage (cfg0.slots t 3)) fullShare ((dat V c).before 3 t d))
    ∗ (∃ d, owns (c : Thread nD τ) ((cfg0.win 4).stage (cfg0.slots t 4)) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in0 (c : Dev nD) (t : Fin cfg0.N) :
    (dat V c).leavesExact 0 t = owns (c : Thread nD τ) ((cfg0.win 0).stage (cfg0.slots t 0)) fullShare (blk V c 0 t) := by
  rw [← dat_after_in0]
theorem leaves_in1 (c : Dev nD) (t : Fin cfg0.N) :
    (dat V c).leavesExact 1 t = owns (c : Thread nD τ) ((cfg0.win 1).stage (cfg0.slots t 1)) fullShare (blk V c 1 t) := by
  rw [← dat_after_in1]
theorem leaves_in2 (c : Dev nD) (t : Fin cfg0.N) :
    (dat V c).leavesExact 2 t = owns (c : Thread nD τ) ((cfg0.win 2).stage (cfg0.slots t 2)) fullShare (blk V c 2 t) := by
  rw [← dat_after_in2]

set_option maxHeartbeats 4800000 in
/-- The body at any point: the inputs' buffers hold their blocks; the point is the first, a middle one or the
    last, and that case's run applies; the invariant hands the body the two accumulator rows (at anything before the
    first point, else at the running rows of the point before) and takes them back at this point's running rows; the
    other scoped buffers and the generator register pass through; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2]
  rw [show (dat V c).owesAt () t.succ = (dat V c).owesAt () t.castSucc from rfl]
  rw [show (dat V c).Φ t.succ = Phi V c (t.val + 1) t.isLt from rfl, Phi_succ]
  rw [leaves_in0, leaves_in1, leaves_in2]
  have hN : t.val < 100 := lt_of_lt_of_eq t.isLt (show cfg0.N = 100 from N_0)
  by_cases h0 : t.val = 0
  · have hF : isFirst (grid0.coords t) := (isFirst_iff t).mpr h0
    have hL : ¬isLast (grid0.coords t) := fun h => by have := (isLast_iff t).mp h; omega
    rw [Dat.leavesExact_idle (dat V c) 3 t (idle_sum t hL) (noFlush_sum t hL)]
    rw [Dat.leavesExact_idle (dat V c) 4 t (idle_sumsq t hL) (noFlush_sumsq t hL)]
    rw [acc_first V c t h0]; dsimp only
    rw [Phi_castSucc V c t, Phi_zero V c _ _ h0, PhiA_eq]
    iintro ⟨⟨⟨HS1, HS2, HR⟩, Hg⟩, Ho, ⟨%d0, H0⟩, ⟨%d1, H1⟩, ⟨%d2, H2⟩, H3, H4⟩
    iapply (runFirst c (grid0.coords t) _ _ _ _ _ _ _ _ _ _ _ _ _ _ hF hL (blk V c 0 t) (blk V c 1 t) (blk V c 2 t) Set.univ _)
    isplitl [H0]; · iexact H0
    isplitl [H1]; · iexact H1
    isplitl [H2]; · iexact H2
    isplitl [HS1]; · iexact HS1
    isplitl [HS2]; · iexact HS2
    iintro ⟨H0, H1, H2, HS1, HS2⟩
    isplitl [HS1 HS2 HR Hg]
    · isplitr [Hg]
      · isplitl [HS1]; · iexact HS1
        isplitl [HS2]; · iexact HS2
        iexact HR
      iexact Hg
    isplitl [Ho]; · iexact Ho
    isplitl [H0]; · iexact H0
    isplitl [H1]; · iexact H1
    isplitl [H2]; · iexact H2
    isplitl [H3]; · iexact H3
    iexact H4
  · have hF : ¬isFirst (grid0.coords t) := fun h => h0 ((isFirst_iff t).mp h)
    rw [acc_later V c t h0]; dsimp only
    rw [Phi_castSucc V c t, Phi_pos V c _ _ h0]
    by_cases h9 : t.val = 99
    · have hL : isLast (grid0.coords t) := (isLast_iff t).mpr h9
      rw [show (dat V c).leavesExact 3 t = owns (c : Thread nD τ) ((cfg0.win 3).stage (cfg0.slots t 3)) fullShare ((dat V c).after 3 t) from by
        unfold Dat.leavesExact; rw [live_sum t hL], dat_after_sum]
      rw [show (dat V c).leavesExact 4 t = owns (c : Thread nD τ) ((cfg0.win 4).stage (cfg0.slots t 4)) fullShare ((dat V c).after 4 t) from by
        unfold Dat.leavesExact; rw [live_sumsq t hL], dat_after_sumsq]
      rw [acc_later V c t h0]; dsimp only
      iintro ⟨⟨⟨HS1, HS2, HR⟩, Hg⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ hF hL (blk V c 0 t) (blk V c 1 t) (blk V c 2 t) _ _ Set.univ _)
      isplitl [H0]; · iexact H0
      isplitl [H1]; · iexact H1
      isplitl [H2]; · iexact H2
      isplitl [H3]; · iexists _; iexact H3
      isplitl [H4]; · iexists _; iexact H4
      isplitl [HS1]; · iexact HS1
      isplitl [HS2]; · iexact HS2
      iintro ⟨H0, H1, H2, H3, H4, HS1, HS2⟩
      isplitl [HS1 HS2 HR Hg]
      · isplitr [Hg]
        · isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      iexact H4
    · have hL : ¬isLast (grid0.coords t) := fun h => h9 ((isLast_iff t).mp h)
      rw [Dat.leavesExact_idle (dat V c) 3 t (idle_sum t hL) (noFlush_sum t hL)]
      rw [Dat.leavesExact_idle (dat V c) 4 t (idle_sumsq t hL) (noFlush_sumsq t hL)]
      iintro ⟨⟨⟨HS1, HS2, HR⟩, Hg⟩, Ho, ⟨%d0, H0⟩, ⟨%d1, H1⟩, ⟨%d2, H2⟩, H3, H4⟩
      iapply (runMiddle c (grid0.coords t) _ _ _ _ _ _ _ _ _ _ _ _ _ _ hF hL (blk V c 0 t) (blk V c 1 t) (blk V c 2 t) _ _ Set.univ _)
      isplitl [H0]; · iexact H0
      isplitl [H1]; · iexact H1
      isplitl [H2]; · iexact H2
      isplitl [HS1]; · iexact HS1
      isplitl [HS2]; · iexact HS2
      iintro ⟨H0, H1, H2, HS1, HS2⟩
      isplitl [HS1 HS2 HR Hg]
      · isplitr [Hg]
        · isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem obligation (c : Dev nD) : BodyObligation (dat (F := F) V c) (defs₀ (F := F)) Variants.none () Set.univ := fun t => by
  rw [bigSep_W0, bigSep_W0]
  exact sound_body V c t

/-- What the launch hands the region is the invariant before the first point. -/
theorem phi_in (c : Dev nD) : (Pipeline.ΦA spec0 c : sProp 𝕄) ⊢ (dat V c).Φ 0 := by
  rw [show (dat V c).Φ 0 = Phi V c 0 (Nat.zero_le _) from rfl, Phi_zero V c 0 _ rfl]
  try exact Idealize.SL.BI.Entails.refl _

/-- After any point the invariant gives it back: the accumulator rows' named contents are forgotten. -/
theorem Phi_forget (c : Dev nD) (t : Fin (cfg0.N + 1)) (ht : t.val ≠ 0) : (dat V c).Φ t ⊢ (Pipeline.ΦA spec0 c : sProp 𝕄) := by
  rw [show (dat V c).Φ t = Phi V c t.val (Nat.le_of_lt_succ t.isLt) from rfl, Phi_pos V c _ _ ht, PhiA_eq]
  iintro ⟨⟨HS1, HS2, HR⟩, Hg⟩
  isplitr [Hg]
  · isplitl [HS1]; · iexists _; iexact HS1
    isplitl [HS2]; · iexists _; iexact HS2
    iexact HR
  iexact Hg

/-- The same after the last point. -/
theorem phi_out (c : Dev nD) : (dat V c).Φ (Fin.last cfg0.N) ⊢ (Pipeline.ΦA spec0 c : sProp 𝕄) :=
  Phi_forget V c _ (by rw [Fin.val_last]; have : cfg0.N = 100 := N_0; omega)

end Body

end Cert.Kernel.Stats

end
-- ==== Proof.Bits.Norm.lean ====
/-
  The normalising pass of the linear layer with batch normalisation: at each of its hundred row blocks it reads a
  block of twenty thousand rows of the input, the whole weight matrix, bias, scale, shift, mean and variance rows,
  and writes the block of the output  max (γ · ((x·Wᵀ + b) − μ) · rsqrt (σ² + ε) + β, 0).

  Stated at any buffer contents `V` the region is entered from: each window's block at a point, what the body
  leaves in the output window's buffer as a function of the seven input blocks, the body's triple, the pipeline's
  proof data and the body obligation at every point.
-/
import proofs.«179944_j79989470921164_1_alg».proof.Proof.Gen.Kernel.Launch
import proofs.«179944_j79989470921164_1_alg».proof.Proof.Gen.Kernel.Skeleton
import proofs.«179944_j79989470921164_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the region is entered from
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not, for any proof data whose
    array is the entry contents and whose body leaves the block in place. -/
theorem before_of0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current buffer holds its block at every point, fetched there or not, for any proof data whose
    array is the entry contents and whose body leaves the block in place. -/
theorem before_of1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current buffer holds its block at every point, fetched there or not, for any proof data whose
    array is the entry contents and whose body leaves the block in place. -/
theorem before_of2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current buffer holds its block at every point, fetched there or not, for any proof data whose
    array is the entry contents and whose body leaves the block in place. -/
theorem before_of3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current buffer holds its block at every point, fetched there or not, for any proof data whose
    array is the entry contents and whose body leaves the block in place. -/
theorem before_of4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current buffer holds its block at every point, fetched there or not, for any proof data whose
    array is the entry contents and whose body leaves the block in place. -/
theorem before_of5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- Input window 6's current buffer holds its block at every point, fetched there or not, for any proof data whose
    array is the entry contents and whose body leaves the block in place. -/
theorem before_of6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output window's buffer -/

/-- The output block from the seven input blocks: the rectified affine normalisation of the biased product. -/
def outBlk (x : Vec F S20000x6 .f32) (wt : Vec F S6x64 .f32) (b g bt mu va : Vec F S1x64 .f32) : Vec F S20000x64 .f32 :=
  k1_pay1 x wt b va g mu bt

theorem zero_offsets : (![0, 0] : Fin 2 → Nat) = fun _ => 0 := funext fun a => by fin_cases a <;> rfl

/-- The one store is through the whole buffer, so it covers it. -/
theorem cover_out (p0 : Vec F S20000x64 .f32) (y : S20000x64.Idx) :
    ∃ pc ∈ ([⟨Rect.unit (s := S20000x64) ![0, 0] S20000x64.size inb_S20000x64_S20000x64_0_0, p0⟩] : List (View.Piece (Elt F) S20000x64 .f32)), y ∈ pc.1.set :=
  View.cover_of_tiled [⟨Rect.unit (s := S20000x64) ![0, 0] S20000x64.size inb_S20000x64_S20000x64_0_0, p0⟩] S20000x64.size (by rfl) y

/-! ## The body's triple -/

set_option maxHeartbeats 1000000 in
/-- The body on whole buffers, the inputs' at read contents and the output's at anything, runs to the continuation
    holding the inputs' as they were and the output's at `outBlk` of the inputs'. -/
theorem sound_kernel (c : Dev nD) (E : Set ℕ) (i : grid1.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S20000x64 .f32) (harg8 : arg8.IsWhole)
    (x : Vec F S20000x6 .f32) (wt : Vec F S6x64 .f32) (b g bt mu va : Vec F S1x64 .f32) (K : PUnit → sProp 𝕄) :
    iprop(owns (c : Thread nD τ) arg1 fullShare x ∗ owns (c : Thread nD τ) arg2 fullShare wt ∗ owns (c : Thread nD τ) arg3 fullShare b ∗ owns (c : Thread nD τ) arg4 fullShare g ∗ owns (c : Thread nD τ) arg5 fullShare bt ∗ owns (c : Thread nD τ) arg6 fullShare mu ∗ owns (c : Thread nD τ) arg7 fullShare va ∗ (∃ d, owns (c : Thread nD τ) arg8 fullShare d)
        ∗ (iprop(owns (c : Thread nD τ) arg1 fullShare x ∗ owns (c : Thread nD τ) arg2 fullShare wt ∗ owns (c : Thread nD τ) arg3 fullShare b ∗ owns (c : Thread nD τ) arg4 fullShare g ∗ owns (c : Thread nD τ) arg5 fullShare bt ∗ owns (c : Thread nD τ) arg6 fullShare mu ∗ owns (c : Thread nD τ) arg7 fullShare va ∗ owns (c : Thread nD τ) arg8 fullShare (outBlk x wt b g bt mu va)) -∗ K ⟨⟩))
      ⊢ wp frame (wpE (defs₀ (F := F)) Variants.none c none) E (cc1__norm_kernel i arg1 harg1 arg2 harg2 arg3 harg3 arg4 harg4 arg5 harg5 arg6 harg6 arg7 harg7 arg8 harg8) K := by
  simp only [cc1__norm_kernel_eq_skeleton]; unfold cc1__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover_out _), View.canon_unit_zero zero_offsets]
  unfold outBlk
  simp only [View.readAt_eq_ld, View.ld_unit_zero (S := S20000x6) zero_offsets, View.ld_unit_zero (S := S6x64) zero_offsets,
    View.ld_unit_zero (S := S1x64) zero_offsets]

/-! ## The pipeline's proof data -/

/-- The proof data on core `c`: the arrays as the region finds them; after the body at point `t` each input's
    buffer at its block and the output's at `outBlk` of the input blocks; the invariant the scoped rest and the
    generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after_in (c : Dev nD) (t : Fin cfg1.N) : (dat V c).after 0 t = blk V c 0 t := by dsimp only [dat]
theorem dat_after_in1 (c : Dev nD) (t : Fin cfg1.N) : (dat V c).after 1 t = blk V c 1 t := by dsimp only [dat]
theorem dat_after_in2 (c : Dev nD) (t : Fin cfg1.N) : (dat V c).after 2 t = blk V c 2 t := by dsimp only [dat]
theorem dat_after_in3 (c : Dev nD) (t : Fin cfg1.N) : (dat V c).after 3 t = blk V c 3 t := by dsimp only [dat]
theorem dat_after_in4 (c : Dev nD) (t : Fin cfg1.N) : (dat V c).after 4 t = blk V c 4 t := by dsimp only [dat]
theorem dat_after_in5 (c : Dev nD) (t : Fin cfg1.N) : (dat V c).after 5 t = blk V c 5 t := by dsimp only [dat]
theorem dat_after_in6 (c : Dev nD) (t : Fin cfg1.N) : (dat V c).after 6 t = blk V c 6 t := by dsimp only [dat]
theorem dat_after_out (c : Dev nD) (t : Fin cfg1.N) :
    (dat V c).after 7 t = outBlk (blk V c 0 t) (blk V c 1 t) (blk V c 2 t) (blk V c 3 t) (blk V c 4 t) (blk V c 5 t) (blk V c 6 t) := by dsimp only [dat]

theorem dat_Φ (c : Dev nD) (t : Fin (cfg1.N + 1)) : (dat V c).Φ t = Pipeline.ΦA spec1 c := by dsimp only [dat]
theorem dat_q (c : Dev nD) (w : Fin cfg1.W) : (dat V c).q w = fullShare := by dsimp only [dat]
theorem dat_owed (c : Dev nD) (t) : (dat V c).owed t = 0 := by dsimp only [dat]
theorem dat_recorded (c : Dev nD) (t) : (dat V c).recorded t = Set.univ := by dsimp only [dat]

/-- Each input's current buffer holds its block at every point, fetched there or not. -/
theorem before0 (c : Dev nD) (t : Fin cfg1.N) (d) : (dat V c).before 0 t d = blk V c 0 t :=
  before_of0 V (dat V c) (dat_A V c 0) (dat_after_in V c) t d
theorem before1 (c : Dev nD) (t : Fin cfg1.N) (d) : (dat V c).before 1 t d = blk V c 1 t :=
  before_of1 V (dat V c) (dat_A V c 1) (dat_after_in1 V c) t d
theorem before2 (c : Dev nD) (t : Fin cfg1.N) (d) : (dat V c).before 2 t d = blk V c 2 t :=
  before_of2 V (dat V c) (dat_A V c 2) (dat_after_in2 V c) t d
theorem before3 (c : Dev nD) (t : Fin cfg1.N) (d) : (dat V c).before 3 t d = blk V c 3 t :=
  before_of3 V (dat V c) (dat_A V c 3) (dat_after_in3 V c) t d
theorem before4 (c : Dev nD) (t : Fin cfg1.N) (d) : (dat V c).before 4 t d = blk V c 4 t :=
  before_of4 V (dat V c) (dat_A V c 4) (dat_after_in4 V c) t d
theorem before5 (c : Dev nD) (t : Fin cfg1.N) (d) : (dat V c).before 5 t d = blk V c 5 t :=
  before_of5 V (dat V c) (dat_A V c 5) (dat_after_in5 V c) t d
theorem before6 (c : Dev nD) (t : Fin cfg1.N) (d) : (dat V c).before 6 t d = blk V c 6 t :=
  before_of6 V (dat V c) (dat_A V c 6) (dat_after_in6 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' buffers hold their blocks, so the body's triple applies; the invariant and
    the core's tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    dat_after_in, dat_after_in1, dat_after_in2, dat_after_in3, dat_after_in4, dat_after_in5, dat_after_in6, dat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (dat (F := F) V c) (defs₀ (F := F)) Variants.none () Set.univ := fun t => by
  rw [bigSep_W1, bigSep_W1]
  exact sound_body V c t

end Cert.Kernel.Norm

end
-- ==== Proof.LibClassARegion.lean ====
/-
  A kernel region whose invariant starts from and returns to the scoped rest and the generator register (`hΦin`,
  `hΦout`: between the first and the last point it may hold more, a scratch buffer's contents carried from point to
  point), with EXACT proof data, as a segment of a program of several regions — stated once, for any pipeline `p` of
  any family of proof data.

  Between two items of @main a core holds every unscoped buffer whole at a valuation, beside the generator register at
  some state and the core owing nothing. A region of this class is entered from the valuation `W c` its proof data read
  their arrays from (`hA`) and left at any valuation `W' c` that has each of the pipeline's arrays at what the
  write-backs leave (`hF`) and agrees with `W c` elsewhere (`hrest`): the arrays are split out of the unscoped buffers
  at entry and put back at exit, the register goes into the invariant and comes back, nothing is owed, the kernel has
  no semaphore of its own and no prefetched table.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the generator register at some state, the core owing nothing. -/
def rides (c : Dev nD) : sProp 𝕄₁ :=
  iprop((∃ r, prngReg c r) ∗ ∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a class-A pipeline with exact proof data. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.Bits.Whole.lean ====
/-
  The whole run of the program at any float instance: the linear layer's column statistics (a first kernel region),
  the mean and the variance from them (host operations), the normalisation (a second kernel region) and the
  scatter of the rows into the grid (host operations).

  Between two items every unscoped buffer of a core is held whole at a valuation; the valuations are folded from
  the launch memory: a host stretch applies its operations, a region leaves each of its arrays at what its
  write-backs leave and every other buffer as it was. Each region is the class record of its proof data; the run
  ends with every unscoped buffer read off the last valuation, from which both the frame (no argument array is
  written) and the result array's value are read.
-/
import proofs.«179944_j79989470921164_1_alg».proof.Proof.Bits.Stats
import proofs.«179944_j79989470921164_1_alg».proof.Proof.Bits.Norm
import proofs.«179944_j79989470921164_1_alg».proof.Proof.Gen.Kernel.Regions
import proofs.«179944_j79989470921164_1_alg».proof.Proof.LibClassARegion

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev W0 : Dev nD → Valuation τ sig (Elt F) := fun c b => m ((c : Dev nD), b)
/-- After the first host stretch (the transposed weights, the rows reshaped): the first region's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- After the statistics region: its arrays at what its write-backs leave. -/
def W2 (c : Dev nD) : Valuation τ sig (Elt F) :=
  Pipeline.withArrays spec0 c (W1 m c) fun w => (Stats.dat (E1 m) c).arrAt w cfg0.N
theorem W2_arr (c : Dev nD) (w : Fin cfg0.W) :
    W2 m c (Proc.devRef .tc (Pipeline.arrRef spec0 w)) = (Stats.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- After the second host stretch (the mean and the variance): the second region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the normalising region. -/
def W4 (c : Dev nD) : Valuation τ sig (Elt F) :=
  Pipeline.withArrays spec1 c (W3 m c) fun w => (Norm.dat (E3 m) c).arrAt w cfg1.N
theorem W4_arr (c : Dev nD) (w : Fin cfg1.W) :
    W4 m c (Proc.devRef .tc (Pipeline.arrRef spec1 w)) = (Norm.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- After the last host stretch (the scatter): the end. -/
abbrev W5 : Dev nD → Valuation τ sig (Elt F) := fun c => StableHlo.after hostOps2 (W4 m c)

/-! ## The proof data family and the regions -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Stats.dat (E1 m) c
  | ⟨1, _⟩ => fun c => Norm.dat (E3 m) c

abbrev 𝒱₀ : Variants := Variants.none
abbrev L : GSem nD τ sig → Finset Unit := fun _ => ∅
abbrev lv : GSem nD τ sig → Unit → ℕ := fun _ _ => 0

/-- No pipeline prefetches a table. -/
theorem no_tables (p : Fin 2) (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

set_option backward.isDefEq.respectTransparency.types false in
/-- The statistics region: entered from `W1`, left at `W2`. -/
def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => Stats.obligation (E1 m) c) (fun c w => Stats.dat_q (E1 m) c w) (fun c t => Stats.dat_owed (E1 m) c t)
    (fun c t => Stats.dat_recorded (E1 m) c t) (fun c => Stats.phi_in (E1 m) c) (fun c => Stats.phi_out (E1 m) c)
    (fun c => no_tables 0 c) (W1 m) (W2 m) (fun c w => Stats.dat_A (E1 m) c w) (fun c w => (W2_arr m c w).symm)
    (fun c b hb => W2_of_ne m c b fun w e => hb (Finset.mem_image.mpr ⟨w, Finset.mem_univ _, e⟩))

set_option backward.isDefEq.respectTransparency.types false in
/-- The normalising region: entered from `W3`, left at `W4`. -/
def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => Norm.obligation (E3 m) c) (fun c w => Norm.dat_q (E3 m) c w) (fun c t => Norm.dat_owed (E3 m) c t)
    (fun c t => Norm.dat_recorded (E3 m) c t) (fun c => (Norm.dat_Φ (E3 m) c 0).ge) (fun c => (Norm.dat_Φ (E3 m) c _).le)
    (fun c => no_tables 1 c) (W3 m) (W4 m) (fun c w => Norm.dat_A (E3 m) c w) (fun c w => (W4_arr m c w).symm)
    (fun c b hb => W4_of_ne m c b fun w e => hb (Finset.mem_image.mpr ⟨w, Finset.mem_univ _, e⟩))

/-! ## The items as segments, and the launch -/

/-- What rides beside the buffers through every item: the generator register at some state, the core owing nothing. -/
abbrev ride (c : Dev nD) : sProp 𝕄 := iprop((∃ r, prngReg c r) ∗ ∃ W, owes (c : Thread nD τ) (0 : CellTallies nD τ sig Unit) W)

/-- A host stretch from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

/-- The five items of the program, in order. -/
abbrev items : List (Pipeline.Seg (pcfgs (F := F)) adm (pdats m) () defs₀ 𝒱₀ L lv) :=
  [ .host (stretch hostOps0 hostOps0_sub hostOps0_fresh (W0 m)),
    .region (reg0 m),
    .host (stretch hostOps1 hostOps1_sub hostOps1_fresh (W2 m)),
    .region (reg1 m),
    .host (stretch hostOps2 hostOps2_sub hostOps2_fresh (W4 m)) ]

/-- The program is the run of its items. -/
theorem main_items (c : Dev nD) : main (F := F) c = Pipeline.Seg.run (items m) := (main_chain c).trans (by chain_rfl)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution terminates, and every final memory holds
    every unscoped buffer at the last valuation. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Whole

end
-- ==== Proof.Bits.FrameReads.lean ====
/-
  No item of the program writes an argument array: read through the valuations from the end back to the launch,
  each argument holds its launch contents (a region keeps an array it only reads; a host stretch keeps a buffer it
  does not write).
-/
import proofs.«179944_j79989470921164_1_alg».proof.Proof.Bits.Whole

/-
  No item of the run writes an argument array: a host stretch writes only its own results, a region leaves an
  input window's array at its entry contents and every buffer that is none of its arrays as it was. So each
  argument's buffer, read off the last valuation, walks back through the items to the launch memory.
-/
set_option maxRecDepth 16384

noncomputable section

namespace Cert.Kernel.FrameReads

open Idealize.ShloMosaic Idealize.ShloMosaic.TcCoe
open Cert.Kernel Cert.Kernel.Gen Cert.Kernel.Whole

variable {F : FTy → Type} [FloatOps F]
variable (m : (ℓ : Loc nD τ sig) → Buf (Elt F) ℓ)

/-- `main_arg0` is the first input window's array of both regions and a result of no host operation. -/
theorem w5_arg0 (c : Dev nD) : W5 m c main_arg0 = m ((c : Thread nD τ).loc main_arg0) :=
  calc W5 m c main_arg0
    _ = W4 m c main_arg0 := StableHlo.after_of_writes_sub hostOps2 _ hostOps2_writes (by decide)
    _ = W3 m c main_arg0 := (W4_arr m c 0).trans (((Norm.dat (E3 m) c).arrAt_in 0 rfl _).trans (Norm.dat_A (E3 m) c 0))
    _ = W2 m c main_arg0 := StableHlo.after_of_writes_sub hostOps1 _ hostOps1_writes (by decide)
    _ = W1 m c main_arg0 := (W2_arr m c 0).trans (((Stats.dat (E1 m) c).arrAt_in 0 rfl _).trans (Stats.dat_A (E1 m) c 0))
    _ = W0 m c main_arg0 := StableHlo.after_of_writes_sub hostOps0 _ hostOps0_writes (by decide)
    _ = m ((c : Thread nD τ).loc main_arg0) := rfl

/-- `main_arg1` is an array of neither region and a result of no host operation. -/
theorem w5_arg1 (c : Dev nD) : W5 m c main_arg1 = m ((c : Thread nD τ).loc main_arg1) :=
  calc W5 m c main_arg1
    _ = W4 m c main_arg1 := StableHlo.after_of_writes_sub hostOps2 _ hostOps2_writes (by decide)
    _ = W3 m c main_arg1 := W4_of_ne m c main_arg1 (by decide)
    _ = W2 m c main_arg1 := StableHlo.after_of_writes_sub hostOps1 _ hostOps1_writes (by decide)
    _ = W1 m c main_arg1 := W2_of_ne m c main_arg1 (by decide)
    _ = W0 m c main_arg1 := StableHlo.after_of_writes_sub hostOps0 _ hostOps0_writes (by decide)
    _ = m ((c : Thread nD τ).loc main_arg1) := rfl

/-- `main_arg2` is an array of neither region and a result of no host operation. -/
theorem w5_arg2 (c : Dev nD) : W5 m c main_arg2 = m ((c : Thread nD τ).loc main_arg2) :=
  calc W5 m c main_arg2
    _ = W4 m c main_arg2 := StableHlo.after_of_writes_sub hostOps2 _ hostOps2_writes (by decide)
    _ = W3 m c main_arg2 := W4_of_ne m c main_arg2 (by decide)
    _ = W2 m c main_arg2 := StableHlo.after_of_writes_sub hostOps1 _ hostOps1_writes (by decide)
    _ = W1 m c main_arg2 := W2_of_ne m c main_arg2 (by decide)
    _ = W0 m c main_arg2 := StableHlo.after_of_writes_sub hostOps0 _ hostOps0_writes (by decide)
    _ = m ((c : Thread nD τ).loc main_arg2) := rfl

/-- `main_arg3` is an array of neither region and a result of no host operation. -/
theorem w5_arg3 (c : Dev nD) : W5 m c main_arg3 = m ((c : Thread nD τ).loc main_arg3) :=
  calc W5 m c main_arg3
    _ = W4 m c main_arg3 := StableHlo.after_of_writes_sub hostOps2 _ hostOps2_writes (by decide)
    _ = W3 m c main_arg3 := W4_of_ne m c main_arg3 (by decide)
    _ = W2 m c main_arg3 := StableHlo.after_of_writes_sub hostOps1 _ hostOps1_writes (by decide)
    _ = W1 m c main_arg3 := W2_of_ne m c main_arg3 (by decide)
    _ = W0 m c main_arg3 := StableHlo.after_of_writes_sub hostOps0 _ hostOps0_writes (by decide)
    _ = m ((c : Thread nD τ).loc main_arg3) := rfl

/-- `main_arg4` is an array of neither region and a result of no host operation. -/
theorem w5_arg4 (c : Dev nD) : W5 m c main_arg4 = m ((c : Thread nD τ).loc main_arg4) :=
  calc W5 m c main_arg4
    _ = W4 m c main_arg4 := StableHlo.after_of_writes_sub hostOps2 _ hostOps2_writes (by decide)
    _ = W3 m c main_arg4 := W4_of_ne m c main_arg4 (by decide)
    _ = W2 m c main_arg4 := StableHlo.after_of_writes_sub hostOps1 _ hostOps1_writes (by decide)
    _ = W1 m c main_arg4 := W2_of_ne m c main_arg4 (by decide)
    _ = W0 m c main_arg4 := StableHlo.after_of_writes_sub hostOps0 _ hostOps0_writes (by decide)
    _ = m ((c : Thread nD τ).loc main_arg4) := rfl

/-- `main_arg5` is an array of neither region and a result of no host operation. -/
theorem w5_arg5 (c : Dev nD) : W5 m c main_arg5 = m ((c : Thread nD τ).loc main_arg5) :=
  calc W5 m c main_arg5
    _ = W4 m c main_arg5 := StableHlo.after_of_writes_sub hostOps2 _ hostOps2_writes (by decide)
    _ = W3 m c main_arg5 := W4_of_ne m c main_arg5 (by decide)
    _ = W2 m c main_arg5 := StableHlo.after_of_writes_sub hostOps1 _ hostOps1_writes (by decide)
    _ = W1 m c main_arg5 := W2_of_ne m c main_arg5 (by decide)
    _ = W0 m c main_arg5 := StableHlo.after_of_writes_sub hostOps0 _ hostOps0_writes (by decide)
    _ = m ((c : Thread nD τ).loc main_arg5) := rfl

end Cert.Kernel.FrameReads

end
-- ==== Proof.Ideal.Stats.lean ====
/- The statistics region (the program's first grid region: a linear layer's outputs summed, and their squares summed, column by
   column over all rows, one block of rows per grid point): the body's behaviour at the first, a middle and the last
   point of the grid, the two running rows point by point, the region's proof data, invariant and body obligation. -/
import proofs.«179944_j79989470921164_1_alg».proof.Proof.Gen.KernelIdeal.Launch
import proofs.«179944_j79989470921164_1_alg».proof.Proof.Gen.KernelIdeal.Skeleton
import proofs.«179944_j79989470921164_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the reset branch, from the grid coordinates (the scalar chain substituted). -/
abbrev isFirst (i : grid0.Coords) : Prop :=
  (Scalar.cmpi .ne (Scalar.extui (Scalar.cmpi .eq (BitVec.ofNat 32 (i 0).val) 0#32)) 0#32) = 1#1

/-- The condition of the write-out branch. -/
abbrev isLast (i : grid0.Coords) : Prop := k0_cond2 i = 1#1

/-- The reset branch is taken at the first point only. -/
theorem isFirst_iff : ∀ t : Fin cfg0.N, isFirst (grid0.coords t) ↔ t.val = 0 :=
  (by decide +kernel : ∀ t : Fin grid0.N, isFirst (grid0.coords t) ↔ t.val = 0)

/-- The write-out branch is taken at the last point only. -/
theorem isLast_iff : ∀ t : Fin cfg0.N, isLast (grid0.coords t) ↔ t.val = 99 :=
  (by decide +kernel : ∀ t : Fin grid0.N, isLast (grid0.coords t) ↔ t.val = 99)

/-- The zero offsets of a whole-buffer rectangle of rank 2. -/
theorem zeroOff : (![0, 0] : Fin 2 → Nat) = fun _ => 0 := funext fun a => by fin_cases a <;> rfl

/-! ## The body, case by case

On whole memrefs: the three inputs at their blocks, the two accumulator rows at what the point before left
(at anything where the body resets them first); the body leaves the inputs as they were and each accumulator row
at its old contents plus the column sums of `h`, resp. of `h * h`; at the last point the two output rows are
left at the same two rows. -/

set_option maxHeartbeats 1000000 in
/-- The first point: the accumulators are reset to the zero rows, then updated. -/
theorem runFirst (c : Dev nD) (i : grid0.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : isFirst i) (hc2 : ¬isLast i)
    (x0 : Vec F S20000x6 .f32) (x1 : Vec F S6x64 .f32) (x2 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 (k0_pay1 (F := F)))
            ∗ owns (c : Thread nD τ) arg7 fullShare (k0_pay5 x0 x1 x2 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%d6, %f6, -, H6⟩, ⟨%d7, %f7, -, H7⟩, Hk⟩
  obtain rfl := harg1.eq_unread hf0; obtain rfl := harg2.eq_unread hf1; obtain rfl := harg3.eq_unread hf2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H6]
  · iexists _; isplitr
    swap; · iexact H6
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  · iexists _; isplitr
    swap; · iexact H7
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]

set_option maxHeartbeats 1000000 in
/-- A middle point: the accumulators are updated. -/
theorem runMiddle (c : Dev nD) (i : grid0.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬isFirst i) (hc2 : ¬isLast i)
    (x0 : Vec F S20000x6 .f32) (x1 : Vec F S6x64 .f32) (x2 : Vec F S1x64 .f32) (s1 s2 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare s1 ∗ owns (c : Thread nD τ) arg7 fullShare s2
        ∗ (iprop(owns (c : Thread nD τ) arg1 fullShare x0 ∗ owns (c : Thread nD τ) arg2 fullShare x1 ∗ owns (c : Thread nD τ) arg3 fullShare x2
            ∗ owns (c : Thread nD τ) arg6 fullShare (k0_pay4 x0 x1 x2 s1)
            ∗ owns (c : Thread nD τ) arg7 fullShare (k0_pay5 x0 x1 x2 s2)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg1.eq_unread hf0; obtain rfl := harg2.eq_unread hf1; obtain rfl := harg3.eq_unread hf2
  obtain rfl := harg6.eq_unread hf6; obtain rfl := harg7.eq_unread hf7
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H6]
  · iexists _; isplitr
    swap; · iexact H6
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  · iexists _; isplitr
    swap; · iexact H7
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]

set_option maxHeartbeats 1000000 in
/-- The last point: the accumulators are updated, then copied to the two output rows. -/
theorem runLast (c : Dev nD) (i : grid0.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬isFirst i) (hc2 : isLast i)
    (x0 : Vec F S20000x6 .f32) (x1 : Vec F S6x64 .f32) (x2 : Vec F S1x64 .f32) (s1 s2 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s1 ∗ owns (c : Thread nD τ) arg7 fullShare s2
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 s1)
            ∗ owns (c : Thread nD τ) arg5 fullShare (k0_pay5 x0 x1 x2 s2)
            ∗ owns (c : Thread nD τ) arg6 fullShare (k0_pay4 x0 x1 x2 s1)
            ∗ owns (c : Thread nD τ) arg7 fullShare (k0_pay5 x0 x1 x2 s2)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg6.eq_unread hf6; obtain rfl := harg7.eq_unread hf7
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  isplitl [H5]
  · iexists _; isplitr
    swap; · iexact H5
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  isplitl [H6]
  · iexists _; isplitr
    swap; · iexact H6
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]
  · iexists _; isplitr
    swap; · iexact H7
    ipureintro
    sl_unfold_words
    refine (View.read_writes_eq_canon _ _ _ (fun y => ⟨_, List.mem_cons_self, View.mem_set_unit_zero zeroOff inb_S1x64_S1x64_0_0 y⟩)).trans ?_
    rw [View.canon_cons_unit_zero (S := S1x64) zeroOff]
    simp only [View.readAt_eq_ld, harg1.read_unread, harg2.read_unread, harg3.read_unread, harg6.read_unread, harg7.read_unread,
      View.ld_unit_zero (S := S20000x6) zeroOff, View.ld_unit_zero (S := S6x64) zeroOff, View.ld_unit_zero (S := S1x64) zeroOff,
      View.readCov_unit_zero (S := S1x64) _ zeroOff]

/-! ## The region's proof data -/

section Data

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running rows after point `n`: the zero rows plus, for each point up to `n`, the column sums of
    `h` (first component) and of `h * h` (second), `h` the affine image of the point's block of rows. -/
def acc (c : Dev nD) : (n : ℕ) → n < cfg0.N → Vec F S1x64 .f32 × Vec F S1x64 .f32
  | 0, h => (k0_pay4 (blk V c 0 ⟨0, h⟩) (blk V c 1 ⟨0, h⟩) (blk V c 2 ⟨0, h⟩) k0_pay1,
      k0_pay5 (blk V c 0 ⟨0, h⟩) (blk V c 1 ⟨0, h⟩) (blk V c 2 ⟨0, h⟩) k0_pay2)
  | n + 1, h => (k0_pay4 (blk V c 0 ⟨n + 1, h⟩) (blk V c 1 ⟨n + 1, h⟩) (blk V c 2 ⟨n + 1, h⟩) (acc c n (Nat.lt_of_succ_lt h)).1,
      k0_pay5 (blk V c 0 ⟨n + 1, h⟩) (blk V c 1 ⟨n + 1, h⟩) (blk V c 2 ⟨n + 1, h⟩) (acc c n (Nat.lt_of_succ_lt h)).2)

theorem acc_zero (c : Dev nD) (h : 0 < cfg0.N) :
    acc V c 0 h = (k0_pay4 (blk V c 0 ⟨0, h⟩) (blk V c 1 ⟨0, h⟩) (blk V c 2 ⟨0, h⟩) k0_pay1,
      k0_pay5 (blk V c 0 ⟨0, h⟩) (blk V c 1 ⟨0, h⟩) (blk V c 2 ⟨0, h⟩) k0_pay2) := rfl

theorem acc_succ (c : Dev nD) (n : ℕ) (h : n + 1 < cfg0.N) :
    acc V c (n + 1) h = (k0_pay4 (blk V c 0 ⟨n + 1, h⟩) (blk V c 1 ⟨n + 1, h⟩) (blk V c 2 ⟨n + 1, h⟩) (acc V c n (Nat.lt_of_succ_lt h)).1,
      k0_pay5 (blk V c 0 ⟨n + 1, h⟩) (blk V c 1 ⟨n + 1, h⟩) (blk V c 2 ⟨n + 1, h⟩) (acc V c n (Nat.lt_of_succ_lt h)).2) := rfl

/-- The running rows at the first point of the grid. -/
theorem acc_first (c : Dev nD) (t : Fin cfg0.N) (h0 : t.val = 0) :
    acc V c t.val t.isLt = (k0_pay4 (blk V c 0 t) (blk V c 1 t) (blk V c 2 t) k0_pay1,
      k0_pay5 (blk V c 0 t) (blk V c 1 t) (blk V c 2 t) k0_pay2) := by
  obtain ⟨n, hn⟩ := t
  cases n with
  | zero => rfl
  | succ n => exact absurd h0 (Nat.succ_ne_zero n)

/-- The running rows at a later point, over those of the point before. -/
theorem acc_later (c : Dev nD) (t : Fin cfg0.N) (h0 : t.val ≠ 0) :
    acc V c t.val t.isLt = (k0_pay4 (blk V c 0 t) (blk V c 1 t) (blk V c 2 t) (acc V c (t.val - 1) (Nat.lt_of_le_of_lt (Nat.sub_le _ _) t.isLt)).1,
      k0_pay5 (blk V c 0 t) (blk V c 1 t) (blk V c 2 t) (acc V c (t.val - 1) (Nat.lt_of_le_of_lt (Nat.sub_le _ _) t.isLt)).2) := by
  obtain ⟨n, hn⟩ := t
  cases n with
  | zero => exact absurd rfl h0
  | succ n => rfl

/-- The two accumulator rows as memrefs: whole scoped buffers of the kernel's own. -/
abbrev sumM : Memref sig .tc .vmem S1x64 .f32 := Memref.whole cc0_scratch0
abbrev sqM : Memref sig .tc .vmem S1x64 .f32 := Memref.whole cc0_scratch1

/-- The core's other scoped buffers that the region does not stage (the second region's staging buffers), each whole
    at some contents: carried through every point untouched. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f))

/-- What the launch hands the region, with the two accumulator rows as memrefs owned at some contents. -/
theorem PhiA_eq (c : Dev nD) :
    (Pipeline.ΦA spec0 c : sProp 𝕄)
      = iprop(iprop((∃ d, owns (c : Thread nD τ) sumM fullShare d) ∗ (∃ d, owns (c : Thread nD τ) sqM fullShare d) ∗ others (F := F) c) ∗ (∃ r, prngReg c r)) := by
  unfold Pipeline.ΦA; rw [scopedRest0_eq]; unfold others; simp only [sumM, sqM, owns_whole]; try rfl

/-- The invariant before position `n`: before the first point what the launch hands over; afterwards the two
    accumulator rows at the running rows of the point before, the other buffers and the generator register at anything. -/
def Phi (c : Dev nD) : (n : ℕ) → n ≤ cfg0.N → sProp 𝕄
  | 0, _ => Pipeline.ΦA spec0 c
  | n + 1, hn => iprop(iprop(owns (c : Thread nD τ) sumM fullShare (acc V c n hn).1 ∗ owns (c : Thread nD τ) sqM fullShare (acc V c n hn).2 ∗ others (F := F) c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) sumM fullShare (acc V c n hn).1 ∗ owns (c : Thread nD τ) sqM fullShare (acc V c n hn).2 ∗ others (F := F) c) ∗ (∃ r, prngReg c r)) := rfl

theorem Phi_pos (c : Dev nD) (n : ℕ) (h : n ≤ cfg0.N) (hz : n ≠ 0) :
    Phi V c n h = iprop(iprop(owns (c : Thread nD τ) sumM fullShare (acc V c (n - 1) (by omega)).1 ∗ owns (c : Thread nD τ) sqM fullShare (acc V c (n - 1) (by omega)).2 ∗ others (F := F) c) ∗ (∃ r, prngReg c r)) := by
  cases n with
  | zero => exact absurd rfl hz
  | succ n => rfl

/-- The proof data of the region on core `c`: the arrays as the region finds them; after the body each input's
    buffer at its block, the two output rows at the running rows; nothing owed; full shares. -/
def dat (c : Dev nD) : Pipeline.Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (acc V c t.val t.isLt).1
    | ⟨4, _⟩ => (acc V c t.val t.isLt).2
  Φ t := Phi V c t.val (Nat.le_of_lt_succ t.isLt)
  q _ := fullShare
  owed _ := 0

theorem dat_A (c : Dev nD) (w : Fin cfg0.W) : (dat V c).A w = V c (Pipeline.arrRef spec0 w) := by
  dsimp only [dat]

theorem dat_after_in0 (c : Dev nD) (t : Fin cfg0.N) : (dat V c).after 0 t = blk V c 0 t := by dsimp only [dat]
theorem dat_after_in1 (c : Dev nD) (t : Fin cfg0.N) : (dat V c).after 1 t = blk V c 1 t := by dsimp only [dat]
theorem dat_after_in2 (c : Dev nD) (t : Fin cfg0.N) : (dat V c).after 2 t = blk V c 2 t := by dsimp only [dat]
theorem dat_after_sum (c : Dev nD) (t : Fin cfg0.N) : (dat V c).after 3 t = (acc V c t.val t.isLt).1 := by dsimp only [dat]
theorem dat_after_sumsq (c : Dev nD) (t : Fin cfg0.N) : (dat V c).after 4 t = (acc V c t.val t.isLt).2 := by dsimp only [dat]
theorem dat_q (c : Dev nD) (w : Fin cfg0.W) : (dat V c).q w = fullShare := rfl
theorem dat_owed (c : Dev nD) (t : Fin (cfg0.N + 1)) : (dat V c).owed t = 0 := rfl
theorem dat_recorded (c : Dev nD) (t : Fin (cfg0.N + 1)) : (dat V c).recorded t = Set.univ := rfl

theorem Phi_castSucc (c : Dev nD) (t : Fin cfg0.N) :
    (dat V c).Φ t.castSucc = Phi V c t.val (Nat.le_of_lt t.isLt) := by
  dsimp only [dat]; simp only [Fin.coe_castSucc]

/-- Each input's current staging buffer holds its block at every point, fetched there or not. -/
theorem before_in0 (c : Dev nD) (t : Fin cfg0.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_in1 (c : Dev nD) (t : Fin cfg0.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_in2 (c : Dev nD) (t : Fin cfg0.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)

end Data

section Body

variable (V : (c : Dev nD) → (b : Ref sig .tc) → Buf (Elt F) ((c : Thread nD τ).loc b))

/-! ## Where the output rows are idle -/

/-- Away from the last point the two output rows are idle and not written back; at the last point they are live. -/
theorem idle_sum : ∀ t : Fin cfg0.N, ¬isLast (grid0.coords t) → cfg0.idle 3 (grid0.coords t) = true := by decide +kernel
theorem idle_sumsq : ∀ t : Fin cfg0.N, ¬isLast (grid0.coords t) → cfg0.idle 4 (grid0.coords t) = true := by decide +kernel
theorem noFlush_sum : ∀ t : Fin cfg0.N, ¬isLast (grid0.coords t) → (cfg0.win 3).flush t = false := by decide +kernel
theorem noFlush_sumsq : ∀ t : Fin cfg0.N, ¬isLast (grid0.coords t) → (cfg0.win 4).flush t = false := by decide +kernel
theorem live_sum : ∀ t : Fin cfg0.N, isLast (grid0.coords t) → cfg0.idle 3 (grid0.coords t) = false := by decide +kernel
theorem live_sumsq : ∀ t : Fin cfg0.N, isLast (grid0.coords t) → cfg0.idle 4 (grid0.coords t) = false := by decide +kernel

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) ((cfg0.win 0).stage (cfg0.slots t 0)) fullShare ((dat V c).before 0 t d))
    ∗ (∃ d, owns (c : Thread nD τ) ((cfg0.win 1).stage (cfg0.slots t 1)) fullShare ((dat V c).before 1 t d))
    ∗ (∃ d, owns (c : Thread nD τ) ((cfg0.win 2).stage (cfg0.slots t 2)) fullShare ((dat V c).before 2 t d))
    ∗ (∃ d, owns (c : Thread nD τ) ((cfg0.win 3).stage (cfg0.slots t 3)) fullShare ((dat V c).before 3 t d))
    ∗ (∃ d, owns (c : Thread nD τ) ((cfg0.win 4).stage (cfg0.slots t 4)) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in0 (c : Dev nD) (t : Fin cfg0.N) :
    (dat V c).leavesExact 0 t = owns (c : Thread nD τ) ((cfg0.win 0).stage (cfg0.slots t 0)) fullShare (blk V c 0 t) := by
  rw [← dat_after_in0]
theorem leaves_in1 (c : Dev nD) (t : Fin cfg0.N) :
    (dat V c).leavesExact 1 t = owns (c : Thread nD τ) ((cfg0.win 1).stage (cfg0.slots t 1)) fullShare (blk V c 1 t) := by
  rw [← dat_after_in1]
theorem leaves_in2 (c : Dev nD) (t : Fin cfg0.N) :
    (dat V c).leavesExact 2 t = owns (c : Thread nD τ) ((cfg0.win 2).stage (cfg0.slots t 2)) fullShare (blk V c 2 t) := by
  rw [← dat_after_in2]

set_option maxHeartbeats 4800000 in
/-- The body at any point: the inputs' buffers hold their blocks; the point is the first, a middle one or the
    last, and that case's run applies; the invariant hands the body the two accumulator rows (at anything before the
    first point, else at the running rows of the point before) and takes them back at this point's running rows; the
    other scoped buffers and the generator register pass through; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2]
  rw [show (dat V c).owesAt () t.succ = (dat V c).owesAt () t.castSucc from rfl]
  rw [show (dat V c).Φ t.succ = Phi V c (t.val + 1) t.isLt from rfl, Phi_succ]
  rw [leaves_in0, leaves_in1, leaves_in2]
  have hN : t.val < 100 := lt_of_lt_of_eq t.isLt (show cfg0.N = 100 from N_0)
  by_cases h0 : t.val = 0
  · have hF : isFirst (grid0.coords t) := (isFirst_iff t).mpr h0
    have hL : ¬isLast (grid0.coords t) := fun h => by have := (isLast_iff t).mp h; omega
    rw [Dat.leavesExact_idle (dat V c) 3 t (idle_sum t hL) (noFlush_sum t hL)]
    rw [Dat.leavesExact_idle (dat V c) 4 t (idle_sumsq t hL) (noFlush_sumsq t hL)]
    rw [acc_first V c t h0]; dsimp only
    rw [Phi_castSucc V c t, Phi_zero V c _ _ h0, PhiA_eq]
    iintro ⟨⟨⟨HS1, HS2, HR⟩, Hg⟩, Ho, ⟨%d0, H0⟩, ⟨%d1, H1⟩, ⟨%d2, H2⟩, H3, H4⟩
    iapply (runFirst c (grid0.coords t) _ _ _ _ _ _ _ _ _ _ _ _ _ _ hF hL (blk V c 0 t) (blk V c 1 t) (blk V c 2 t) Set.univ _)
    isplitl [H0]; · iexact H0
    isplitl [H1]; · iexact H1
    isplitl [H2]; · iexact H2
    isplitl [HS1]; · iexact HS1
    isplitl [HS2]; · iexact HS2
    iintro ⟨H0, H1, H2, HS1, HS2⟩
    isplitl [HS1 HS2 HR Hg]
    · isplitr [Hg]
      · isplitl [HS1]; · iexact HS1
        isplitl [HS2]; · iexact HS2
        iexact HR
      iexact Hg
    isplitl [Ho]; · iexact Ho
    isplitl [H0]; · iexact H0
    isplitl [H1]; · iexact H1
    isplitl [H2]; · iexact H2
    isplitl [H3]; · iexact H3
    iexact H4
  · have hF : ¬isFirst (grid0.coords t) := fun h => h0 ((isFirst_iff t).mp h)
    rw [acc_later V c t h0]; dsimp only
    rw [Phi_castSucc V c t, Phi_pos V c _ _ h0]
    by_cases h9 : t.val = 99
    · have hL : isLast (grid0.coords t) := (isLast_iff t).mpr h9
      rw [show (dat V c).leavesExact 3 t = owns (c : Thread nD τ) ((cfg0.win 3).stage (cfg0.slots t 3)) fullShare ((dat V c).after 3 t) from by
        unfold Dat.leavesExact; rw [live_sum t hL], dat_after_sum]
      rw [show (dat V c).leavesExact 4 t = owns (c : Thread nD τ) ((cfg0.win 4).stage (cfg0.slots t 4)) fullShare ((dat V c).after 4 t) from by
        unfold Dat.leavesExact; rw [live_sumsq t hL], dat_after_sumsq]
      rw [acc_later V c t h0]; dsimp only
      iintro ⟨⟨⟨HS1, HS2, HR⟩, Hg⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ hF hL (blk V c 0 t) (blk V c 1 t) (blk V c 2 t) _ _ Set.univ _)
      isplitl [H0]; · iexact H0
      isplitl [H1]; · iexact H1
      isplitl [H2]; · iexact H2
      isplitl [H3]; · iexists _; iexact H3
      isplitl [H4]; · iexists _; iexact H4
      isplitl [HS1]; · iexact HS1
      isplitl [HS2]; · iexact HS2
      iintro ⟨H0, H1, H2, H3, H4, HS1, HS2⟩
      isplitl [HS1 HS2 HR Hg]
      · isplitr [Hg]
        · isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      iexact H4
    · have hL : ¬isLast (grid0.coords t) := fun h => h9 ((isLast_iff t).mp h)
      rw [Dat.leavesExact_idle (dat V c) 3 t (idle_sum t hL) (noFlush_sum t hL)]
      rw [Dat.leavesExact_idle (dat V c) 4 t (idle_sumsq t hL) (noFlush_sumsq t hL)]
      iintro ⟨⟨⟨HS1, HS2, HR⟩, Hg⟩, Ho, ⟨%d0, H0⟩, ⟨%d1, H1⟩, ⟨%d2, H2⟩, H3, H4⟩
      iapply (runMiddle c (grid0.coords t) _ _ _ _ _ _ _ _ _ _ _ _ _ _ hF hL (blk V c 0 t) (blk V c 1 t) (blk V c 2 t) _ _ Set.univ _)
      isplitl [H0]; · iexact H0
      isplitl [H1]; · iexact H1
      isplitl [H2]; · iexact H2
      isplitl [HS1]; · iexact HS1
      isplitl [HS2]; · iexact HS2
      iintro ⟨H0, H1, H2, HS1, HS2⟩
      isplitl [HS1 HS2 HR Hg]
      · isplitr [Hg]
        · isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem obligation (c : Dev nD) : BodyObligation (dat (F := F) V c) (defs₀ (F := F)) Variants.none () Set.univ := fun t => by
  rw [bigSep_W0, bigSep_W0]
  exact sound_body V c t

/-- What the launch hands the region is the invariant before the first point. -/
theorem phi_in (c : Dev nD) : (Pipeline.ΦA spec0 c : sProp 𝕄) ⊢ (dat V c).Φ 0 := by
  rw [show (dat V c).Φ 0 = Phi V c 0 (Nat.zero_le _) from rfl, Phi_zero V c 0 _ rfl]
  try exact Idealize.SL.BI.Entails.refl _

/-- After any point the invariant gives it back: the accumulator rows' named contents are forgotten. -/
theorem Phi_forget (c : Dev nD) (t : Fin (cfg0.N + 1)) (ht : t.val ≠ 0) : (dat V c).Φ t ⊢ (Pipeline.ΦA spec0 c : sProp 𝕄) := by
  rw [show (dat V c).Φ t = Phi V c t.val (Nat.le_of_lt_succ t.isLt) from rfl, Phi_pos V c _ _ ht, PhiA_eq]
  iintro ⟨⟨HS1, HS2, HR⟩, Hg⟩
  isplitr [Hg]
  · isplitl [HS1]; · iexists _; iexact HS1
    isplitl [HS2]; · iexists _; iexact HS2
    iexact HR
  iexact Hg

/-- The same after the last point. -/
theorem phi_out (c : Dev nD) : (dat V c).Φ (Fin.last cfg0.N) ⊢ (Pipeline.ΦA spec0 c : sProp 𝕄) :=
  Phi_forget V c _ (by rw [Fin.val_last]; have : cfg0.N = 100 := N_0; omega)

end Body

end Cert.KernelIdeal.Stats

end
-- ==== Proof.Ideal.Norm.lean ====
/-
  The normalising pass of the linear layer with batch normalisation: at each of its hundred row blocks it reads a
  block of twenty thousand rows of the input, the whole weight matrix, bias, scale, shift, mean and variance rows,
  and writes the block of the output  max (γ · ((x·Wᵀ + b) − μ) · rsqrt (σ² + ε) + β, 0).

  Stated at any buffer contents `V` the region is entered from: each window's block at a point, what the body
  leaves in the output window's buffer as a function of the seven input blocks, the body's triple, the pipeline's
  proof data and the body obligation at every point.
-/
import proofs.«179944_j79989470921164_1_alg».proof.Proof.Gen.KernelIdeal.Launch
import proofs.«179944_j79989470921164_1_alg».proof.Proof.Gen.KernelIdeal.Skeleton
import proofs.«179944_j79989470921164_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the region is entered from
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not, for any proof data whose
    array is the entry contents and whose body leaves the block in place. -/
theorem before_of0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current buffer holds its block at every point, fetched there or not, for any proof data whose
    array is the entry contents and whose body leaves the block in place. -/
theorem before_of1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current buffer holds its block at every point, fetched there or not, for any proof data whose
    array is the entry contents and whose body leaves the block in place. -/
theorem before_of2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current buffer holds its block at every point, fetched there or not, for any proof data whose
    array is the entry contents and whose body leaves the block in place. -/
theorem before_of3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current buffer holds its block at every point, fetched there or not, for any proof data whose
    array is the entry contents and whose body leaves the block in place. -/
theorem before_of4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current buffer holds its block at every point, fetched there or not, for any proof data whose
    array is the entry contents and whose body leaves the block in place. -/
theorem before_of5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- Input window 6's current buffer holds its block at every point, fetched there or not, for any proof data whose
    array is the entry contents and whose body leaves the block in place. -/
theorem before_of6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output window's buffer -/

/-- The output block from the seven input blocks: the rectified affine normalisation of the biased product. -/
def outBlk (x : Vec F S20000x6 .f32) (wt : Vec F S6x64 .f32) (b g bt mu va : Vec F S1x64 .f32) : Vec F S20000x64 .f32 :=
  k1_pay1 x wt b va g mu bt

theorem zero_offsets : (![0, 0] : Fin 2 → Nat) = fun _ => 0 := funext fun a => by fin_cases a <;> rfl

/-- The one store is through the whole buffer, so it covers it. -/
theorem cover_out (p0 : Vec F S20000x64 .f32) (y : S20000x64.Idx) :
    ∃ pc ∈ ([⟨Rect.unit (s := S20000x64) ![0, 0] S20000x64.size inb_S20000x64_S20000x64_0_0, p0⟩] : List (View.Piece (Elt F) S20000x64 .f32)), y ∈ pc.1.set :=
  View.cover_of_tiled [⟨Rect.unit (s := S20000x64) ![0, 0] S20000x64.size inb_S20000x64_S20000x64_0_0, p0⟩] S20000x64.size (by rfl) y

/-! ## The body's triple -/

set_option maxHeartbeats 1000000 in
/-- The body on whole buffers, the inputs' at read contents and the output's at anything, runs to the continuation
    holding the inputs' as they were and the output's at `outBlk` of the inputs'. -/
theorem sound_kernel (c : Dev nD) (E : Set ℕ) (i : grid1.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S20000x64 .f32) (harg8 : arg8.IsWhole)
    (x : Vec F S20000x6 .f32) (wt : Vec F S6x64 .f32) (b g bt mu va : Vec F S1x64 .f32) (K : PUnit → sProp 𝕄) :
    iprop(owns (c : Thread nD τ) arg1 fullShare x ∗ owns (c : Thread nD τ) arg2 fullShare wt ∗ owns (c : Thread nD τ) arg3 fullShare b ∗ owns (c : Thread nD τ) arg4 fullShare g ∗ owns (c : Thread nD τ) arg5 fullShare bt ∗ owns (c : Thread nD τ) arg6 fullShare mu ∗ owns (c : Thread nD τ) arg7 fullShare va ∗ (∃ d, owns (c : Thread nD τ) arg8 fullShare d)
        ∗ (iprop(owns (c : Thread nD τ) arg1 fullShare x ∗ owns (c : Thread nD τ) arg2 fullShare wt ∗ owns (c : Thread nD τ) arg3 fullShare b ∗ owns (c : Thread nD τ) arg4 fullShare g ∗ owns (c : Thread nD τ) arg5 fullShare bt ∗ owns (c : Thread nD τ) arg6 fullShare mu ∗ owns (c : Thread nD τ) arg7 fullShare va ∗ owns (c : Thread nD τ) arg8 fullShare (outBlk x wt b g bt mu va)) -∗ K ⟨⟩))
      ⊢ wp frame (wpE (defs₀ (F := F)) Variants.none c none) E (cc1__norm_kernel i arg1 harg1 arg2 harg2 arg3 harg3 arg4 harg4 arg5 harg5 arg6 harg6 arg7 harg7 arg8 harg8) K := by
  simp only [cc1__norm_kernel_eq_skeleton]; unfold cc1__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover_out _), View.canon_unit_zero zero_offsets]
  unfold outBlk
  simp only [View.readAt_eq_ld, View.ld_unit_zero (S := S20000x6) zero_offsets, View.ld_unit_zero (S := S6x64) zero_offsets,
    View.ld_unit_zero (S := S1x64) zero_offsets]

/-! ## The pipeline's proof data -/

/-- The proof data on core `c`: the arrays as the region finds them; after the body at point `t` each input's
    buffer at its block and the output's at `outBlk` of the input blocks; the invariant the scoped rest and the
    generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after_in (c : Dev nD) (t : Fin cfg1.N) : (dat V c).after 0 t = blk V c 0 t := by dsimp only [dat]
theorem dat_after_in1 (c : Dev nD) (t : Fin cfg1.N) : (dat V c).after 1 t = blk V c 1 t := by dsimp only [dat]
theorem dat_after_in2 (c : Dev nD) (t : Fin cfg1.N) : (dat V c).after 2 t = blk V c 2 t := by dsimp only [dat]
theorem dat_after_in3 (c : Dev nD) (t : Fin cfg1.N) : (dat V c).after 3 t = blk V c 3 t := by dsimp only [dat]
theorem dat_after_in4 (c : Dev nD) (t : Fin cfg1.N) : (dat V c).after 4 t = blk V c 4 t := by dsimp only [dat]
theorem dat_after_in5 (c : Dev nD) (t : Fin cfg1.N) : (dat V c).after 5 t = blk V c 5 t := by dsimp only [dat]
theorem dat_after_in6 (c : Dev nD) (t : Fin cfg1.N) : (dat V c).after 6 t = blk V c 6 t := by dsimp only [dat]
theorem dat_after_out (c : Dev nD) (t : Fin cfg1.N) :
    (dat V c).after 7 t = outBlk (blk V c 0 t) (blk V c 1 t) (blk V c 2 t) (blk V c 3 t) (blk V c 4 t) (blk V c 5 t) (blk V c 6 t) := by dsimp only [dat]

theorem dat_Φ (c : Dev nD) (t : Fin (cfg1.N + 1)) : (dat V c).Φ t = Pipeline.ΦA spec1 c := by dsimp only [dat]
theorem dat_q (c : Dev nD) (w : Fin cfg1.W) : (dat V c).q w = fullShare := by dsimp only [dat]
theorem dat_owed (c : Dev nD) (t) : (dat V c).owed t = 0 := by dsimp only [dat]
theorem dat_recorded (c : Dev nD) (t) : (dat V c).recorded t = Set.univ := by dsimp only [dat]

/-- Each input's current buffer holds its block at every point, fetched there or not. -/
theorem before0 (c : Dev nD) (t : Fin cfg1.N) (d) : (dat V c).before 0 t d = blk V c 0 t :=
  before_of0 V (dat V c) (dat_A V c 0) (dat_after_in V c) t d
theorem before1 (c : Dev nD) (t : Fin cfg1.N) (d) : (dat V c).before 1 t d = blk V c 1 t :=
  before_of1 V (dat V c) (dat_A V c 1) (dat_after_in1 V c) t d
theorem before2 (c : Dev nD) (t : Fin cfg1.N) (d) : (dat V c).before 2 t d = blk V c 2 t :=
  before_of2 V (dat V c) (dat_A V c 2) (dat_after_in2 V c) t d
theorem before3 (c : Dev nD) (t : Fin cfg1.N) (d) : (dat V c).before 3 t d = blk V c 3 t :=
  before_of3 V (dat V c) (dat_A V c 3) (dat_after_in3 V c) t d
theorem before4 (c : Dev nD) (t : Fin cfg1.N) (d) : (dat V c).before 4 t d = blk V c 4 t :=
  before_of4 V (dat V c) (dat_A V c 4) (dat_after_in4 V c) t d
theorem before5 (c : Dev nD) (t : Fin cfg1.N) (d) : (dat V c).before 5 t d = blk V c 5 t :=
  before_of5 V (dat V c) (dat_A V c 5) (dat_after_in5 V c) t d
theorem before6 (c : Dev nD) (t : Fin cfg1.N) (d) : (dat V c).before 6 t d = blk V c 6 t :=
  before_of6 V (dat V c) (dat_A V c 6) (dat_after_in6 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' buffers hold their blocks, so the body's triple applies; the invariant and
    the core's tallies pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    dat_after_in, dat_after_in1, dat_after_in2, dat_after_in3, dat_after_in4, dat_after_in5, dat_after_in6, dat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem obligation (c : Dev nD) : BodyObligation (dat (F := F) V c) (defs₀ (F := F)) Variants.none () Set.univ := fun t => by
  rw [bigSep_W1, bigSep_W1]
  exact sound_body V c t

end Cert.KernelIdeal.Norm

end
-- ==== Proof.Ideal.Whole.lean ====
/-
  The whole run of the program at any float instance: the linear layer's column statistics (a first kernel region),
  the mean and the variance from them (host operations), the normalisation (a second kernel region) and the
  scatter of the rows into the grid (host operations).

  Between two items every unscoped buffer of a core is held whole at a valuation; the valuations are folded from
  the launch memory: a host stretch applies its operations, a region leaves each of its arrays at what its
  write-backs leave and every other buffer as it was. Each region is the class record of its proof data; the run
  ends with every unscoped buffer read off the last valuation, from which both the frame (no argument array is
  written) and the result array's value are read.
-/
import proofs.«179944_j79989470921164_1_alg».proof.Proof.Ideal.Stats
import proofs.«179944_j79989470921164_1_alg».proof.Proof.Ideal.Norm
import proofs.«179944_j79989470921164_1_alg».proof.Proof.Gen.KernelIdeal.Regions
import proofs.«179944_j79989470921164_1_alg».proof.Proof.LibClassARegion

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev W0 : Dev nD → Valuation τ sig (Elt F) := fun c b => m ((c : Dev nD), b)
/-- After the first host stretch (the transposed weights, the rows reshaped): the first region's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- After the statistics region: its arrays at what its write-backs leave. -/
def W2 (c : Dev nD) : Valuation τ sig (Elt F) :=
  Pipeline.withArrays spec0 c (W1 m c) fun w => (Stats.dat (E1 m) c).arrAt w cfg0.N
theorem W2_arr (c : Dev nD) (w : Fin cfg0.W) :
    W2 m c (Proc.devRef .tc (Pipeline.arrRef spec0 w)) = (Stats.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- After the second host stretch (the mean and the variance): the second region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the normalising region. -/
def W4 (c : Dev nD) : Valuation τ sig (Elt F) :=
  Pipeline.withArrays spec1 c (W3 m c) fun w => (Norm.dat (E3 m) c).arrAt w cfg1.N
theorem W4_arr (c : Dev nD) (w : Fin cfg1.W) :
    W4 m c (Proc.devRef .tc (Pipeline.arrRef spec1 w)) = (Norm.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- After the last host stretch (the scatter): the end. -/
abbrev W5 : Dev nD → Valuation τ sig (Elt F) := fun c => StableHlo.after hostOps2 (W4 m c)

/-! ## The proof data family and the regions -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Stats.dat (E1 m) c
  | ⟨1, _⟩ => fun c => Norm.dat (E3 m) c

abbrev 𝒱₀ : Variants := Variants.none
abbrev L : GSem nD τ sig → Finset Unit := fun _ => ∅
abbrev lv : GSem nD τ sig → Unit → ℕ := fun _ _ => 0

/-- No pipeline prefetches a table. -/
theorem no_tables (p : Fin 2) (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

set_option backward.isDefEq.respectTransparency.types false in
/-- The statistics region: entered from `W1`, left at `W2`. -/
def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => Stats.obligation (E1 m) c) (fun c w => Stats.dat_q (E1 m) c w) (fun c t => Stats.dat_owed (E1 m) c t)
    (fun c t => Stats.dat_recorded (E1 m) c t) (fun c => Stats.phi_in (E1 m) c) (fun c => Stats.phi_out (E1 m) c)
    (fun c => no_tables 0 c) (W1 m) (W2 m) (fun c w => Stats.dat_A (E1 m) c w) (fun c w => (W2_arr m c w).symm)
    (fun c b hb => W2_of_ne m c b fun w e => hb (Finset.mem_image.mpr ⟨w, Finset.mem_univ _, e⟩))

set_option backward.isDefEq.respectTransparency.types false in
/-- The normalising region: entered from `W3`, left at `W4`. -/
def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => Norm.obligation (E3 m) c) (fun c w => Norm.dat_q (E3 m) c w) (fun c t => Norm.dat_owed (E3 m) c t)
    (fun c t => Norm.dat_recorded (E3 m) c t) (fun c => (Norm.dat_Φ (E3 m) c 0).ge) (fun c => (Norm.dat_Φ (E3 m) c _).le)
    (fun c => no_tables 1 c) (W3 m) (W4 m) (fun c w => Norm.dat_A (E3 m) c w) (fun c w => (W4_arr m c w).symm)
    (fun c b hb => W4_of_ne m c b fun w e => hb (Finset.mem_image.mpr ⟨w, Finset.mem_univ _, e⟩))

/-! ## The items as segments, and the launch -/

/-- What rides beside the buffers through every item: the generator register at some state, the core owing nothing. -/
abbrev ride (c : Dev nD) : sProp 𝕄 := iprop((∃ r, prngReg c r) ∗ ∃ W, owes (c : Thread nD τ) (0 : CellTallies nD τ sig Unit) W)

/-- A host stretch from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

/-- The five items of the program, in order. -/
abbrev items : List (Pipeline.Seg (pcfgs (F := F)) adm (pdats m) () defs₀ 𝒱₀ L lv) :=
  [ .host (stretch hostOps0 hostOps0_sub hostOps0_fresh (W0 m)),
    .region (reg0 m),
    .host (stretch hostOps1 hostOps1_sub hostOps1_fresh (W2 m)),
    .region (reg1 m),
    .host (stretch hostOps2 hostOps2_sub hostOps2_fresh (W4 m)) ]

/-- The program is the run of its items. -/
theorem main_items (c : Dev nD) : main (F := F) c = Pipeline.Seg.run (items m) := (main_chain c).trans (by chain_rfl)

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution terminates, and every final memory holds
    every unscoped buffer at the last valuation. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Whole

end
-- ==== Proof.Ideal.FrameReads.lean ====
/-
  No item of the program writes an argument array: read through the valuations from the end back to the launch,
  each argument holds its launch contents (a region keeps an array it only reads; a host stretch keeps a buffer it
  does not write).
-/
import proofs.«179944_j79989470921164_1_alg».proof.Proof.Ideal.Whole

/-
  No item of the run writes an argument array: a host stretch writes only its own results, a region leaves an
  input window's array at its entry contents and every buffer that is none of its arrays as it was. So each
  argument's buffer, read off the last valuation, walks back through the items to the launch memory.
-/
set_option maxRecDepth 16384

noncomputable section

namespace Cert.KernelIdeal.FrameReads

open Idealize.ShloMosaic Idealize.ShloMosaic.TcCoe
open Cert.KernelIdeal Cert.KernelIdeal.Gen Cert.KernelIdeal.Whole

variable {F : FTy → Type} [FloatOps F]
variable (m : (ℓ : Loc nD τ sig) → Buf (Elt F) ℓ)

/-- `main_arg0` is the first input window's array of both regions and a result of no host operation. -/
theorem w5_arg0 (c : Dev nD) : W5 m c main_arg0 = m ((c : Thread nD τ).loc main_arg0) :=
  calc W5 m c main_arg0
    _ = W4 m c main_arg0 := StableHlo.after_of_writes_sub hostOps2 _ hostOps2_writes (by decide)
    _ = W3 m c main_arg0 := (W4_arr m c 0).trans (((Norm.dat (E3 m) c).arrAt_in 0 rfl _).trans (Norm.dat_A (E3 m) c 0))
    _ = W2 m c main_arg0 := StableHlo.after_of_writes_sub hostOps1 _ hostOps1_writes (by decide)
    _ = W1 m c main_arg0 := (W2_arr m c 0).trans (((Stats.dat (E1 m) c).arrAt_in 0 rfl _).trans (Stats.dat_A (E1 m) c 0))
    _ = W0 m c main_arg0 := StableHlo.after_of_writes_sub hostOps0 _ hostOps0_writes (by decide)
    _ = m ((c : Thread nD τ).loc main_arg0) := rfl

/-- `main_arg1` is an array of neither region and a result of no host operation. -/
theorem w5_arg1 (c : Dev nD) : W5 m c main_arg1 = m ((c : Thread nD τ).loc main_arg1) :=
  calc W5 m c main_arg1
    _ = W4 m c main_arg1 := StableHlo.after_of_writes_sub hostOps2 _ hostOps2_writes (by decide)
    _ = W3 m c main_arg1 := W4_of_ne m c main_arg1 (by decide)
    _ = W2 m c main_arg1 := StableHlo.after_of_writes_sub hostOps1 _ hostOps1_writes (by decide)
    _ = W1 m c main_arg1 := W2_of_ne m c main_arg1 (by decide)
    _ = W0 m c main_arg1 := StableHlo.after_of_writes_sub hostOps0 _ hostOps0_writes (by decide)
    _ = m ((c : Thread nD τ).loc main_arg1) := rfl

/-- `main_arg2` is an array of neither region and a result of no host operation. -/
theorem w5_arg2 (c : Dev nD) : W5 m c main_arg2 = m ((c : Thread nD τ).loc main_arg2) :=
  calc W5 m c main_arg2
    _ = W4 m c main_arg2 := StableHlo.after_of_writes_sub hostOps2 _ hostOps2_writes (by decide)
    _ = W3 m c main_arg2 := W4_of_ne m c main_arg2 (by decide)
    _ = W2 m c main_arg2 := StableHlo.after_of_writes_sub hostOps1 _ hostOps1_writes (by decide)
    _ = W1 m c main_arg2 := W2_of_ne m c main_arg2 (by decide)
    _ = W0 m c main_arg2 := StableHlo.after_of_writes_sub hostOps0 _ hostOps0_writes (by decide)
    _ = m ((c : Thread nD τ).loc main_arg2) := rfl

/-- `main_arg3` is an array of neither region and a result of no host operation. -/
theorem w5_arg3 (c : Dev nD) : W5 m c main_arg3 = m ((c : Thread nD τ).loc main_arg3) :=
  calc W5 m c main_arg3
    _ = W4 m c main_arg3 := StableHlo.after_of_writes_sub hostOps2 _ hostOps2_writes (by decide)
    _ = W3 m c main_arg3 := W4_of_ne m c main_arg3 (by decide)
    _ = W2 m c main_arg3 := StableHlo.after_of_writes_sub hostOps1 _ hostOps1_writes (by decide)
    _ = W1 m c main_arg3 := W2_of_ne m c main_arg3 (by decide)
    _ = W0 m c main_arg3 := StableHlo.after_of_writes_sub hostOps0 _ hostOps0_writes (by decide)
    _ = m ((c : Thread nD τ).loc main_arg3) := rfl

/-- `main_arg4` is an array of neither region and a result of no host operation. -/
theorem w5_arg4 (c : Dev nD) : W5 m c main_arg4 = m ((c : Thread nD τ).loc main_arg4) :=
  calc W5 m c main_arg4
    _ = W4 m c main_arg4 := StableHlo.after_of_writes_sub hostOps2 _ hostOps2_writes (by decide)
    _ = W3 m c main_arg4 := W4_of_ne m c main_arg4 (by decide)
    _ = W2 m c main_arg4 := StableHlo.after_of_writes_sub hostOps1 _ hostOps1_writes (by decide)
    _ = W1 m c main_arg4 := W2_of_ne m c main_arg4 (by decide)
    _ = W0 m c main_arg4 := StableHlo.after_of_writes_sub hostOps0 _ hostOps0_writes (by decide)
    _ = m ((c : Thread nD τ).loc main_arg4) := rfl

/-- `main_arg5` is an array of neither region and a result of no host operation. -/
theorem w5_arg5 (c : Dev nD) : W5 m c main_arg5 = m ((c : Thread nD τ).loc main_arg5) :=
  calc W5 m c main_arg5
    _ = W4 m c main_arg5 := StableHlo.after_of_writes_sub hostOps2 _ hostOps2_writes (by decide)
    _ = W3 m c main_arg5 := W4_of_ne m c main_arg5 (by decide)
    _ = W2 m c main_arg5 := StableHlo.after_of_writes_sub hostOps1 _ hostOps1_writes (by decide)
    _ = W1 m c main_arg5 := W2_of_ne m c main_arg5 (by decide)
    _ = W0 m c main_arg5 := StableHlo.after_of_writes_sub hostOps0 _ hostOps0_writes (by decide)
    _ = m ((c : Thread nD τ).loc main_arg5) := rfl

end Cert.KernelIdeal.FrameReads

end
-- ==== Proof.Spec.lean ====
/-
  Batch normalisation of a linear layer, as one function of the argument arrays over the extended reals.

  For rows `p < 2000000` and features `q < 64`: the linear layer `h p q = Σ_k x p k · w q k + b q`; the column mean
  `μ q = (Σ_p h p q) / n`; the variance, written in the two ways the two programs compute it — the mean of the squares
  minus the square of the mean, and the mean of the squared deviations —; and the normalised, scaled, shifted and
  clamped result `max (γ q · (h p q − μ q) · rsqrt (σ² q + ε) + β q) 0`. The count `n`, `ε` and the zero are kept as
  the float words both programs print.
-/
import Idealize.ShloMosaic.PureOps.Ideal
import Idealize.ShloMosaic.Lib.ValueIdx

noncomputable section

namespace Cert.BatchNorm

open Idealize.ShloMosaic Idealize.ShloMosaic.ValueIdx
open scoped BigOperators

/-- The points' coordinates, the weights, a feature row, the features of every point. -/
abbrev SX : Shape := ⟨2, ![2000000, 6]⟩
abbrev SW : Shape := ⟨2, ![64, 6]⟩
abbrev SV : Shape := ⟨1, ![64]⟩

/-- The number of rows, as the float both programs divide by. -/
def count : EReal := Ideal.ofBits .f32 0x49F42400#32
/-- The variance's guard. -/
def eps : EReal := Ideal.ofBits .f32 0x3727C5AC#32
/-- The clamp's floor. -/
def floor0 : EReal := Ideal.ofBits .f32 0x00000000#32

/-- The linear layer at row `p`, feature `q`. -/
def lin (x : SX.Idx → EReal) (w : SW.Idx → EReal) (b : SV.Idx → EReal) (p : Fin 2000000) (q : Fin 64) : EReal :=
  (∑ k : Fin 6, x (ix2 p k) * w (ix2 q k)) + b (ix1 q)

/-- A feature's mean over the rows. -/
def mean (h : Fin 2000000 → Fin 64 → EReal) (q : Fin 64) : EReal :=
  Ideal.div (∑ p : Fin 2000000, h p q) count

/-- The variance as the mean of the squares minus the square of the mean. -/
def varOfSquares (h : Fin 2000000 → Fin 64 → EReal) (q : Fin 64) : EReal :=
  Ideal.div (∑ p : Fin 2000000, h p q * h p q) count - mean h q * mean h q

/-- The variance as the mean of the squared deviations from the mean. -/
def varOfDeviations (h : Fin 2000000 → Fin 64 → EReal) (q : Fin 64) : EReal :=
  Ideal.div (∑ p : Fin 2000000, (h p q - mean h q) * (h p q - mean h q)) count

/-- The normalised feature, scaled by `g`, shifted by `bt` and clamped below at zero, for a variance `v`. -/
def normalized (g bt : SV.Idx → EReal) (h : Fin 2000000 → Fin 64 → EReal) (v : Fin 64 → EReal)
    (p : Fin 2000000) (q : Fin 64) : EReal :=
  max ((g (ix1 q) * (h p q - mean h q)) * Ideal.rsqrt (v q + eps) + bt (ix1 q)) floor0

end Cert.BatchNorm

end
-- ==== Proof.RefSide.lean ====
/-
  The reference at an index: its linear layer, column mean, variance (the mean of the squared deviations) and the
  rectified normalised feature at row `p`, feature `q` are the specification's, read off the reference's operations
  one at a time.
-/
import proofs.«179944_j79989470921164_1_alg».proof.Proof.Gen.ReferenceIdeal.Run
import proofs.«179944_j79989470921164_1_alg».proof.Proof.Gen.ReferenceIdeal.Read
import proofs.«179944_j79989470921164_1_alg».proof.Proof.Spec
import Idealize.ShloMosaic.Lib.ValueIdx
import Idealize.ShloMosaic.PureOps.Ideal.Laws

/-
  The reference program's feature array, read at one element, is the batch-normalised linear layer of the
  specification: its linear layer, its column means, its variance as the mean of the squared deviations, and the
  scaled, shifted and clamped result.
-/

noncomputable section

namespace Cert.RefSide

open Idealize.ShloMosaic Idealize.ShloMosaic.ValueIdx Cert.ReferenceIdeal Cert.ReferenceIdeal.Read
open scoped BigOperators

/-! ## The composed index maps, on indices given by their coordinates -/

theorem lidx_v1 (p : Fin 2000000) (q : Fin 64) (k : Fin 6) : lidx_main_v1 (ix2 p q) k = ix2 p k :=
  funext fun a => Fin.ext (by match a with | ⟨0, _⟩ => rfl | ⟨1, _⟩ => rfl)

theorem ridx_v1 (p : Fin 2000000) (q : Fin 64) (k : Fin 6) : idx_main_v0 (ridx_main_v1 (ix2 p q) k) = ix2 q k :=
  funext fun a => Fin.ext (by match a with | ⟨0, _⟩ => rfl | ⟨1, _⟩ => rfl)

theorem idx_v2_v3 (p : Fin 2000000) (q : Fin 64) : idx_main_v2 (idx_main_v3 (ix2 p q)) = ix1 q :=
  funext fun a => Fin.ext (by match a with | ⟨0, _⟩ => rfl)

theorem idx_v5 (q : Fin 64) (k : Fin 2000000) : idx_main_v5 (ix1 q) k = ix2 k q :=
  funext fun a => Fin.ext (by match a with | ⟨0, _⟩ => rfl | ⟨1, _⟩ => rfl)

/-- The linear layer. -/
theorem h_apply (x0 : (⟨S2000000x6, .f32⟩ : BufTy).Contents (Elt Ideal)) (x2 : (⟨S64x6, .f32⟩ : BufTy).Contents (Elt Ideal))
    (x3 : (⟨S64, .f32⟩ : BufTy).Contents (Elt Ideal)) (p : Fin 2000000) (q : Fin 64) :
    val_main_v4 (F := Ideal) x0 x2 x3 (ix2 p q) = Cert.BatchNorm.lin x0 x2 x3 p q := by
  rw [val_main_v4_apply, val_main_v1_apply, val_main_v3_apply, val_main_v2_apply, idx_v2_v3]
  simp only [val_main_v0_apply, lidx_v1, ridx_v1, Ideal.addf_def]
  rfl

theorem idx_v8_v9 (p : Fin 2000000) (q : Fin 64) : idx_main_v8 (idx_main_v9 (ix2 p q)) = ix1 q :=
  funext fun a => Fin.ext (by match a with | ⟨0, _⟩ => rfl)

theorem idx_v15_v16 (p : Fin 2000000) (q : Fin 64) : idx_main_v15 (idx_main_v16 (ix2 p q)) = ix1 q :=
  funext fun a => Fin.ext (by match a with | ⟨0, _⟩ => rfl)

theorem idx_v18_v19 (p : Fin 2000000) (q : Fin 64) : idx_main_v18 (idx_main_v19 (ix2 p q)) = ix1 q :=
  funext fun a => Fin.ext (by match a with | ⟨0, _⟩ => rfl)

theorem idx_v24_v25 (p : Fin 2000000) (q : Fin 64) : idx_main_v24 (idx_main_v25 (ix2 p q)) = ix1 q :=
  funext fun a => Fin.ext (by match a with | ⟨0, _⟩ => rfl)

theorem idx_v27_v28 (p : Fin 2000000) (q : Fin 64) : idx_main_v27 (idx_main_v28 (ix2 p q)) = ix1 q :=
  funext fun a => Fin.ext (by match a with | ⟨0, _⟩ => rfl)

theorem idx_v12 (q : Fin 64) (k : Fin 2000000) : idx_main_v12 (ix1 q) k = ix2 k q :=
  funext fun a => Fin.ext (by match a with | ⟨0, _⟩ => rfl | ⟨1, _⟩ => rfl)

section
variable (x0 : (⟨S2000000x6, .f32⟩ : BufTy).Contents (Elt Ideal)) (x2 : (⟨S64x6, .f32⟩ : BufTy).Contents (Elt Ideal))
  (x3 x4 x5 : (⟨S64, .f32⟩ : BufTy).Contents (Elt Ideal))

/-- The column mean: the sum starts from the zero word, which is the real zero. -/
theorem mean_apply (q : Fin 64) :
    val_main_v7 (F := Ideal) x0 x2 x3 (ix1 q) = Cert.BatchNorm.mean (Cert.BatchNorm.lin x0 x2 x3) q := by
  rw [val_main_v7_apply, val_main_v5_apply, val_main_v6_apply, val_main_cst_apply, val_main_cst_0_apply]
  simp only [Ideal.hostDivf_def, Ideal.ofBits_def, Ideal.ofBits_zero_f32, zero_add]
  unfold Cert.BatchNorm.mean Cert.BatchNorm.count
  simp only [idx_v5, h_apply]

/-- The deviation from the mean, as the variance reads it … -/
theorem dev_apply (p : Fin 2000000) (q : Fin 64) :
    val_main_v10 (F := Ideal) x0 x2 x3 (ix2 p q)
      = Cert.BatchNorm.lin x0 x2 x3 p q - Cert.BatchNorm.mean (Cert.BatchNorm.lin x0 x2 x3) q := by
  rw [val_main_v10_apply, val_main_v9_apply, val_main_v8_apply, idx_v8_v9, mean_apply, h_apply, Ideal.subf_def]

/-- … and as the result reads it. -/
theorem dev_apply' (p : Fin 2000000) (q : Fin 64) :
    val_main_v17 (F := Ideal) x0 x2 x3 (ix2 p q)
      = Cert.BatchNorm.lin x0 x2 x3 p q - Cert.BatchNorm.mean (Cert.BatchNorm.lin x0 x2 x3) q := by
  rw [val_main_v17_apply, val_main_v16_apply, val_main_v15_apply, idx_v15_v16, mean_apply, h_apply, Ideal.subf_def]

/-- The variance: the mean of the squared deviations. -/
theorem var_apply (q : Fin 64) :
    val_main_v14 (F := Ideal) x0 x2 x3 (ix1 q)
      = Cert.BatchNorm.varOfDeviations (Cert.BatchNorm.lin x0 x2 x3) q := by
  rw [val_main_v14_apply, val_main_v12_apply, val_main_v13_apply, val_main_cst_1_apply, val_main_cst_2_apply]
  simp only [Ideal.hostDivf_def, Ideal.ofBits_def, Ideal.ofBits_zero_f32, zero_add]
  unfold Cert.BatchNorm.varOfDeviations Cert.BatchNorm.count
  simp only [idx_v12, val_main_v11_apply, dev_apply, Ideal.mulf_def]

/-- The normalised, scaled, shifted and clamped feature. -/
theorem features_apply [Cert.ReferenceIdeal.Facts] (p : Fin 2000000) (q : Fin 64) :
    val_main_v30 (F := Ideal) x0 x2 x3 x4 x5 (ix2 p q)
      = Cert.BatchNorm.normalized x4 x5 (Cert.BatchNorm.lin x0 x2 x3)
          (Cert.BatchNorm.varOfDeviations (Cert.BatchNorm.lin x0 x2 x3)) p q := by
  rw [val_main_v30_apply, val_main_v29_apply, val_main_v26_apply, val_main_v20_apply,
    val_main_v19_apply, val_main_v18_apply, idx_v18_v19,
    val_main_v25_apply, val_main_v24_apply, idx_v24_v25, val_main_v23_apply, val_main_v22_apply,
    val_main_v21_apply, val_main_cst_3_apply, var_apply,
    val_main_v28_apply, val_main_v27_apply, idx_v27_v28,
    val_main_call0_v0_apply, val_main_call0_cst_apply, dev_apply']
  simp only [Ideal.maximumf_def, Ideal.addf_def, Ideal.mulf_def, Ideal.hostUnary_rsqrt_def, Ideal.ofBits_def]
  rfl

end

end Cert.RefSide

end
-- ==== Proof.Ideal.HostReads.lean ====
/-
  The host operations of the kernel program read as values: the transposed weights and the reshaped rows before the
  first region; the mean and the variance (mean of squares minus squared mean) between the regions, with what the
  first region and that stretch leave untouched; and the last stretch as one function of the index array and the
  rows it scatters, which is the reference's scatter of the same operands.
-/
import proofs.«179944_j79989470921164_1_alg».proof.Proof.Ideal.Whole
import proofs.«179944_j79989470921164_1_alg».proof.Proof.Ideal.FrameReads
import proofs.«179944_j79989470921164_1_alg».proof.Proof.Spec
import proofs.«179944_j79989470921164_1_alg».proof.Proof.RefSide
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-
  What the host stretches of the run leave in the buffers the regions and the result read.

  The first stretch transposes the weights and gives the three feature rows a leading unit axis; the second divides
  the two column sums by the number of rows and takes the mean of the squares minus the square of the mean; the last
  wraps the two index columns' negative entries round, joins them again and adds the normalised rows into a zero grid
  at the cells they name. Each result is read off the fold of the stretch's operations over the valuation before it;
  a buffer a stretch does not write, and an input array of a region, is carried across unchanged.
-/
set_option maxRecDepth 16384

noncomputable section

namespace Cert.KernelIdeal.HostReads

open Idealize.ShloMosaic Idealize.ShloMosaic.TcCoe Idealize.ShloMosaic.ValueIdx
open Idealize.ShloMosaic.StableHlo (after_cons after_nil)
open Cert.KernelIdeal Cert.KernelIdeal.Gen Cert.KernelIdeal.Whole

section AnyInstance

variable {F : FTy → Type} [FloatOps F]
variable (m : (ℓ : Loc nD τ sig) → Buf (Elt F) ℓ)

/-! ## The last stretch: the scatter -/

/-- An index column with its negative entries wrapped round by the grid's extent. -/
def wrapCol (col : (⟨S2000000, .i32⟩ : BufTy).Contents (Elt F)) : (⟨S2000000, .i32⟩ : BufTy).Contents (Elt F) :=
  select (cmpi .slt col (broadcastInDim S2000000 ![] bcast_S_S2000000 (constantI S_ 32 0#32)))
    (addi col (broadcastInDim S2000000 ![] bcast_S_S2000000 (constantI S_ 32 512#32))) col

/-- The rows added into the zero grid at the cells their two wrapped index columns name. -/
def scatterRows (idx : (⟨S2000000x2, .i32⟩ : BufTy).Contents (Elt F)) (rows : Vec F S2000000x64 .f32) : Vec F S512x512x64 .f32 :=
  Host.scatterAdd scatter_S512x512x64_S2000000x2_S2000000x64_1_01_01_1
    (broadcastInDim S512x512x64 ![] bcast_S_S512x512x64 (constant (F := F) S_ .f32 0x00000000#32))
    (concatenate S2000000x2 1
      [⟨S2000000x1, broadcastInDim S2000000x1 ![0] bcast_S2000000_S2000000x1_0
          (wrapCol (F := F) (shapeCast S2000000 (extractStridedSlice S2000000x1 ![0, 0] idx slices_S2000000x2_S2000000x1_0_0) shapeCasts_S2000000x1_S2000000))⟩,
       ⟨S2000000x1, broadcastInDim S2000000x1 ![0] bcast_S2000000_S2000000x1_0
          (wrapCol (F := F) (shapeCast S2000000 (extractStridedSlice S2000000x1 ![0, 1] idx slices_S2000000x2_S2000000x1_0_1) shapeCasts_S2000000x1_S2000000))⟩]
      concatenates_S2000000x1_S2000000x1_S2000000x2_d1)
    rows

/-- The index array reaches the last stretch as launched. -/
theorem w4_arg1 (c : Dev nD) : W4 m c main_arg1 = m ((c : Thread nD τ).loc main_arg1) :=
  calc W4 m c main_arg1
    _ = W3 m c main_arg1 := W4_of_ne m c main_arg1 (by decide)
    _ = W2 m c main_arg1 := StableHlo.after_of_writes_sub hostOps1 _ hostOps1_writes (by decide)
    _ = W1 m c main_arg1 := W2_of_ne m c main_arg1 (by decide)
    _ = W0 m c main_arg1 := StableHlo.after_of_writes_sub hostOps0 _ hostOps0_writes (by decide)
    _ = m ((c : Thread nD τ).loc main_arg1) := rfl

set_option maxHeartbeats 1000000 in
/-- The result array: the normalising region's rows scattered into the zero grid. -/
theorem w5_result (c : Dev nD) :
    (W5 m c main_v30 : Vec F S512x512x64 .f32) = scatterRows (m ((c : Thread nD τ).loc main_arg1)) (W4 m c main_v11) := by
  rw [← w4_arg1 m c]
  show StableHlo.after hostOps2 (W4 m c) (Proc.devRef .tc main_v30) = _
  dsimp only [hostOps2]
  after_results
  rfl

/-! ## Across the statistics region and the second stretch -/

theorem w3_keeps_arg0 (c : Dev nD) : W3 m c main_arg0 = W1 m c main_arg0 :=
  calc W3 m c main_arg0
    _ = W2 m c main_arg0 := StableHlo.after_of_writes_sub hostOps1 _ hostOps1_writes (by decide)
    _ = W1 m c main_arg0 := (W2_arr m c 0).trans (((Stats.dat (E1 m) c).arrAt_in 0 rfl _).trans (Stats.dat_A (E1 m) c 0))

theorem w3_keeps_v0 (c : Dev nD) : W3 m c main_v0 = W1 m c main_v0 :=
  calc W3 m c main_v0
    _ = W2 m c main_v0 := StableHlo.after_of_writes_sub hostOps1 _ hostOps1_writes (by decide)
    _ = W1 m c main_v0 := (W2_arr m c 1).trans (((Stats.dat (E1 m) c).arrAt_in 1 rfl _).trans (Stats.dat_A (E1 m) c 1))

theorem w3_keeps_v1 (c : Dev nD) : W3 m c main_v1 = W1 m c main_v1 :=
  calc W3 m c main_v1
    _ = W2 m c main_v1 := StableHlo.after_of_writes_sub hostOps1 _ hostOps1_writes (by decide)
    _ = W1 m c main_v1 := (W2_arr m c 2).trans (((Stats.dat (E1 m) c).arrAt_in 2 rfl _).trans (Stats.dat_A (E1 m) c 2))

theorem w3_keeps_v2 (c : Dev nD) : W3 m c main_v2 = W1 m c main_v2 :=
  calc W3 m c main_v2
    _ = W2 m c main_v2 := StableHlo.after_of_writes_sub hostOps1 _ hostOps1_writes (by decide)
    _ = W1 m c main_v2 := W2_of_ne m c main_v2 (by decide)

theorem w3_keeps_v3 (c : Dev nD) : W3 m c main_v3 = W1 m c main_v3 :=
  calc W3 m c main_v3
    _ = W2 m c main_v3 := StableHlo.after_of_writes_sub hostOps1 _ hostOps1_writes (by decide)
    _ = W1 m c main_v3 := W2_of_ne m c main_v3 (by decide)

/-- The mean: the column sums over the number of rows. -/
theorem w3_mean (c : Dev nD) :
    (W3 m c main_v6 : Vec F S1x64 .f32)
      = Host.divf (W2 m c main_v4_0 : Vec F S1x64 .f32) (broadcastInDim S1x64 ![] bcast_S_S1x64 (constant (F := F) S_ .f32 0x49F42400#32)) := by
  show StableHlo.after hostOps1 (W2 m c) (Proc.devRef .tc main_v6) = _
  dsimp only [hostOps1]
  after_results

/-- The variance: the sums of squares over the number of rows, minus the square of the mean. -/
theorem w3_var (c : Dev nD) :
    (W3 m c main_v10 : Vec F S1x64 .f32)
      = subf (Host.divf (W2 m c main_v4_1 : Vec F S1x64 .f32) (broadcastInDim S1x64 ![] bcast_S_S1x64 (constant (F := F) S_ .f32 0x49F42400#32)))
          (mulf (W3 m c main_v6 : Vec F S1x64 .f32) (W3 m c main_v6 : Vec F S1x64 .f32)) := by
  rw [w3_mean]
  show StableHlo.after hostOps1 (W2 m c) (Proc.devRef .tc main_v10) = _
  dsimp only [hostOps1]
  after_results

/-! ## The first stretch -/

theorem w1_weights (c : Dev nD) :
    (W1 m c main_v0 : Vec F S6x64 .f32) = transpose S6x64 [1, 0] (m ((c : Thread nD τ).loc main_arg2) : Vec F S64x6 .f32) transposes_S64x6_S6x64_1_0 := by
  show StableHlo.after hostOps0 (W0 m c) (Proc.devRef .tc main_v0) = _
  dsimp only [hostOps0]
  after_results

theorem w1_weights_apply (c : Dev nD) (k : Fin 6) (j : Fin 64) :
    (W1 m c main_v0 : Vec F S6x64 .f32) (ix2 k j) = (m ((c : Thread nD τ).loc main_arg2) : Vec F S64x6 .f32) (ix2 j k) := by
  rw [w1_weights]
  exact transpose_ix2_apply _ _ k j

theorem w1_bias (c : Dev nD) :
    (W1 m c main_v1 : Vec F S1x64 .f32) = shapeCast S1x64 (m ((c : Thread nD τ).loc main_arg3) : Vec F S64 .f32) shapeCasts_S64_S1x64 := by
  show StableHlo.after hostOps0 (W0 m c) (Proc.devRef .tc main_v1) = _
  dsimp only [hostOps0]
  after_results
  rfl

theorem w1_bias_apply (c : Dev nD) (j : Fin 64) :
    (W1 m c main_v1 : Vec F S1x64 .f32) (ix2 (0 : Fin 1) j) = (m ((c : Thread nD τ).loc main_arg3) : Vec F S64 .f32) (ix1 j) := by
  rw [w1_bias]
  exact shapeCast_a_1a_apply _ _ 0 j

theorem w1_gamma (c : Dev nD) :
    (W1 m c main_v2 : Vec F S1x64 .f32) = shapeCast S1x64 (m ((c : Thread nD τ).loc main_arg4) : Vec F S64 .f32) shapeCasts_S64_S1x64 := by
  show StableHlo.after hostOps0 (W0 m c) (Proc.devRef .tc main_v2) = _
  dsimp only [hostOps0]
  after_results
  rfl

theorem w1_gamma_apply (c : Dev nD) (j : Fin 64) :
    (W1 m c main_v2 : Vec F S1x64 .f32) (ix2 (0 : Fin 1) j) = (m ((c : Thread nD τ).loc main_arg4) : Vec F S64 .f32) (ix1 j) := by
  rw [w1_gamma]
  exact shapeCast_a_1a_apply _ _ 0 j

theorem w1_beta (c : Dev nD) :
    (W1 m c main_v3 : Vec F S1x64 .f32) = shapeCast S1x64 (m ((c : Thread nD τ).loc main_arg5) : Vec F S64 .f32) shapeCasts_S64_S1x64 := by
  show StableHlo.after hostOps0 (W0 m c) (Proc.devRef .tc main_v3) = _
  dsimp only [hostOps0]
  after_results
  rfl

theorem w1_beta_apply (c : Dev nD) (j : Fin 64) :
    (W1 m c main_v3 : Vec F S1x64 .f32) (ix2 (0 : Fin 1) j) = (m ((c : Thread nD τ).loc main_arg5) : Vec F S64 .f32) (ix1 j) := by
  rw [w1_beta]
  exact shapeCast_a_1a_apply _ _ 0 j

/-- The rows' array is no result of the first stretch. -/
theorem w1_rows (c : Dev nD) : W1 m c main_arg0 = m ((c : Thread nD τ).loc main_arg0) :=
  (StableHlo.after_of_writes_sub hostOps0 _ hostOps0_writes (by decide)).trans rfl

end AnyInstance

/-! ## The statistics at the ideal values, read at a feature -/

section AtIdeal

variable (m : (ℓ : Loc nD τ sig) → Buf (Elt Ideal) ℓ)

/-- The column sums and the sums of squares the statistics region leaves, and the mean and the variance the second
    stretch makes of them, as feature rows over the extended reals. -/
abbrev sum2 (c : Dev nD) : Vec Ideal S1x64 .f32 := W2 m c main_v4_0
abbrev sumsq2 (c : Dev nD) : Vec Ideal S1x64 .f32 := W2 m c main_v4_1
abbrev mu3 (c : Dev nD) : Vec Ideal S1x64 .f32 := W3 m c main_v6
abbrev va3 (c : Dev nD) : Vec Ideal S1x64 .f32 := W3 m c main_v10

theorem w3_mean_apply (c : Dev nD) (j : Fin 64) :
    mu3 m c (ix2 (0 : Fin 1) j) = Ideal.div (sum2 m c (ix2 (0 : Fin 1) j)) Cert.BatchNorm.count := by
  show (W3 m c main_v6 : Vec Ideal S1x64 .f32) (ix2 (0 : Fin 1) j) = _
  rw [w3_mean]
  rfl

theorem w3_var_apply (c : Dev nD) (j : Fin 64) :
    va3 m c (ix2 (0 : Fin 1) j)
      = Ideal.div (sumsq2 m c (ix2 (0 : Fin 1) j)) Cert.BatchNorm.count
        - mu3 m c (ix2 (0 : Fin 1) j) * mu3 m c (ix2 (0 : Fin 1) j) := by
  show (W3 m c main_v10 : Vec Ideal S1x64 .f32) (ix2 (0 : Fin 1) j) = _
  rw [w3_var]
  rfl

/-- The scatter tail is the reference's: the two programs print the same operations on the index array. -/
theorem tail_eq (idx : (⟨S2000000x2, .i32⟩ : BufTy).Contents (Elt Ideal)) (rows : Vec Ideal S2000000x64 .f32) :
    scatterRows (F := Ideal) idx rows
      = Host.scatterAdd (F := Ideal) (φ := .f32) Cert.ReferenceIdeal.scatter_S512x512x64_S2000000x2_S2000000x64_1_01_01_1
          (Cert.ReferenceIdeal.Read.val_main_v31 (F := Ideal)) (Cert.ReferenceIdeal.Read.val_main_v48 (F := Ideal) idx) rows := by
  unfold scatterRows wrapCol
  rfl

end AtIdeal

end Cert.KernelIdeal.HostReads

end
-- ==== Proof.Ideal.StatsValue.lean ====
/-
  What the statistics region leaves in its two output arrays: each is one block, written back at the last point only,
  so it ends at the running row after the last point. And the region's input blocks read at an index: block `t` of
  the rows is rows `20000·t … 20000·t + 19999`; the weights' and the bias's one block is the array.
-/
import proofs.«179944_j79989470921164_1_alg».proof.Proof.Ideal.Stats
import Idealize.ShloMosaic.Lib.Pipeline.Value
import Idealize.ShloMosaic.Lib.ValueIdx

/-!
  The statistics region's arrays, read. The two outputs (the column sums and the column sums of squares,
  each a 1×64 row) are single-block windows whose block index never moves; they are written back at the
  last of the 100 grid points only, so after the run each array holds what the body left in its staging
  buffer at point 99 — the running pair after all 100 row blocks. The inputs: point `t` reads rows
  `20000·t … 20000·t + 19999` of the row array, and the whole weight and bias arrays at every point.
-/

set_option maxRecDepth 16384

noncomputable section

namespace Cert.KernelIdeal.StatsValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

variable {F : FTy → Type} [FloatOps F]
variable (V : (c : Dev nD) → (b : Ref sig .tc) → Buf (Elt F) ((c : Thread nD τ).loc b))

/-- The last grid point exists: the grid has 100 points. -/
theorem lt99 : 99 < cfg0.N := by rw [show cfg0.N = 100 from N_0]; omega

/-- The last grid point. -/
abbrev t99 : Fin cfg0.N := ⟨99, lt99⟩

/-- The running sum after the last point, as contents of the first output array. -/
abbrev sumRow (c : Dev nD) : Buf (Elt F) ((c : Thread nD τ).loc main_v4_0) := (Stats.acc V c 99 lt99).1

/-- The running sum of squares after the last point, as contents of the second output array. -/
abbrev sumsqRow (c : Dev nD) : Buf (Elt F) ((c : Thread nD τ).loc main_v4_1) := (Stats.acc V c 99 lt99).2

/-- The one write-back of the sums, at point 99, writes the running sum: block (0, 0) of the 1×64 array
    read through zero offsets is the array. -/
theorem flushed_sum (c : Dev nD) (t : Fin cfg0.N) (hf : (cfg0.win 3).flush t = true) :
    (Stats.dat V c).flushed 3 t = ((cfg0.win 3).blk t).view.read (Elt F) (sumRow V c) := by
  have hN : cfg0.N = 100 := N_0
  have h99 : t.val = 99 := by have := (flush0_3 t).mp hf; have := t.isLt; omega
  obtain rfl : t = t99 := Fin.ext h99
  show (cfg0.win 3).cut (grid0.coords t99) ((Stats.dat V c).after 3 t99) = _
  rw [Stats.dat_after_sum]
  have hz' : (fun a => win0_3.index t99 a * main_v4_0.ty.shape.size a) = fun _ => 0 := funext fun a => by fin_cases a <;> decide
  exact (Memref.read_access_unit_zero (Elt F) main_v4_0 hz' (fun a => by rw [congrFun hz' a]; simp) (sumRow V c)).symm

/-- Row `r`, column `k` of the row block read at point `t` is row `20000·t + r`, column `k` of the row array:
    the block index is `(t, 0)`, the block 20000×6. -/
theorem blk_rows (c : Dev nD) (t : Fin cfg0.N) (r : Fin 20000) (k : Fin 6) :
    (Stats.blk V c 0 t : Vec F S20000x6 .f32) (ix2 r k)
      = (V c main_arg0 : Vec F S2000000x6 .f32) (ix2 ⟨20000 * t.val + r.val, by
          have h : t.val < 100 := lt_of_lt_of_eq t.isLt N_0; have := r.isLt; omega⟩ k) := by
  have hi : ∀ t : Fin grid0.N, win0_0.index t (0 : Fin 2) = t.val ∧ win0_0.index t (1 : Fin 2) = 0 := by decide +kernel
  unfold Stats.blk
  rw [View.read_apply]
  show V c main_arg0 _ = V c main_arg0 _
  congr 1
  funext a
  apply Fin.ext
  match a with
  | ⟨0, _⟩ => show win0_0.index t 0 * 20000 + 1 * r.val = 20000 * t.val + r.val; rw [(hi t).1]; omega
  | ⟨1, _⟩ => show win0_0.index t 1 * 6 + 1 * k.val = k.val; rw [(hi t).2]; omega

/-- The one write-back of the sums of squares, at point 99, likewise. -/
theorem flushed_sumsq (c : Dev nD) (t : Fin cfg0.N) (hf : (cfg0.win 4).flush t = true) :
    (Stats.dat V c).flushed 4 t = ((cfg0.win 4).blk t).view.read (Elt F) (sumsqRow V c) := by
  have hN : cfg0.N = 100 := N_0
  have h99 : t.val = 99 := by have := (flush0_4 t).mp hf; have := t.isLt; omega
  obtain rfl : t = t99 := Fin.ext h99
  show (cfg0.win 4).cut (grid0.coords t99) ((Stats.dat V c).after 4 t99) = _
  rw [Stats.dat_after_sumsq]
  have hz' : (fun a => win0_4.index t99 a * main_v4_1.ty.shape.size a) = fun _ => 0 := funext fun a => by fin_cases a <;> decide
  exact (Memref.read_access_unit_zero (Elt F) main_v4_1 hz' (fun a => by rw [congrFun hz' a]; simp) (sumsqRow V c)).symm

/-- The first output array ends holding the running sum after point 99: that point's block covers it. -/
theorem sum_array (c : Dev nD) :
    ((Stats.dat V c).arrAt 3 cfg0.N : Vec F S1x64 .f32) = (Stats.acc V c 99 (by decide)).1 :=
  (Stats.dat V c).arrAt_eq_of_cover 3 (sumRow V c) (flushed_sum V c) fun i =>
    ⟨t99, (flush0_3 t99).mpr rfl, by
      show i ∈ ((View.whole main_v4_0).slice (win0_3.rect t99)).set
      rw [View.set_slice_whole, Rect.mem_set_unit]
      intro a
      have h0 : (i 0 : Nat) < 1 := (i 0).isLt
      have h1 : (i 1 : Nat) < 64 := (i 1).isLt
      match a with
      | ⟨0, _⟩ =>
        show win0_3.index t99 0 * win0_3.size 0 ≤ (i 0 : Nat)
          ∧ (i 0 : Nat) < win0_3.index t99 0 * win0_3.size 0 + win0_3.xsize (grid0.coords t99) 0
        rw [show win0_3.index t99 0 * win0_3.size 0 = 0 from by decide +kernel,
          show win0_3.xsize (grid0.coords t99) 0 = 1 from by decide +kernel]
        omega
      | ⟨1, _⟩ =>
        show win0_3.index t99 1 * win0_3.size 1 ≤ (i 1 : Nat)
          ∧ (i 1 : Nat) < win0_3.index t99 1 * win0_3.size 1 + win0_3.xsize (grid0.coords t99) 1
        rw [show win0_3.index t99 1 * win0_3.size 1 = 0 from by decide +kernel,
          show win0_3.xsize (grid0.coords t99) 1 = 64 from by decide +kernel]
        omega⟩

/-- The second output array ends holding the running sum of squares after point 99. -/
theorem sumsq_array (c : Dev nD) :
    ((Stats.dat V c).arrAt 4 cfg0.N : Vec F S1x64 .f32) = (Stats.acc V c 99 (by decide)).2 :=
  (Stats.dat V c).arrAt_eq_of_cover 4 (sumsqRow V c) (flushed_sumsq V c) fun i =>
    ⟨t99, (flush0_4 t99).mpr rfl, by
      show i ∈ ((View.whole main_v4_1).slice (win0_4.rect t99)).set
      rw [View.set_slice_whole, Rect.mem_set_unit]
      intro a
      have h0 : (i 0 : Nat) < 1 := (i 0).isLt
      have h1 : (i 1 : Nat) < 64 := (i 1).isLt
      match a with
      | ⟨0, _⟩ =>
        show win0_4.index t99 0 * win0_4.size 0 ≤ (i 0 : Nat)
          ∧ (i 0 : Nat) < win0_4.index t99 0 * win0_4.size 0 + win0_4.xsize (grid0.coords t99) 0
        rw [show win0_4.index t99 0 * win0_4.size 0 = 0 from by decide +kernel,
          show win0_4.xsize (grid0.coords t99) 0 = 1 from by decide +kernel]
        omega
      | ⟨1, _⟩ =>
        show win0_4.index t99 1 * win0_4.size 1 ≤ (i 1 : Nat)
          ∧ (i 1 : Nat) < win0_4.index t99 1 * win0_4.size 1 + win0_4.xsize (grid0.coords t99) 1
        rw [show win0_4.index t99 1 * win0_4.size 1 = 0 from by decide +kernel,
          show win0_4.xsize (grid0.coords t99) 1 = 64 from by decide +kernel]
        omega⟩

/-- The weight block read at any point is the whole 6×64 weight array: block index (0, 0), block = array. -/
theorem blk_weights (c : Dev nD) (t : Fin cfg0.N) : (Stats.blk V c 1 t : Vec F S6x64 .f32) = V c main_v0 := by
  have hi : ∀ t : Fin grid0.N, win0_1.index t (0 : Fin 2) = 0 ∧ win0_1.index t (1 : Fin 2) = 0 := by decide +kernel
  have hz' : (fun a => win0_1.index t a * main_v0.ty.shape.size a) = fun _ => 0 :=
    funext fun a => by
      match a with
      | ⟨0, _⟩ => show win0_1.index t 0 * _ = 0; rw [(hi t).1]; omega
      | ⟨1, _⟩ => show win0_1.index t 1 * _ = 0; rw [(hi t).2]; omega
  exact Memref.read_access_unit_zero (Elt F) main_v0 hz' (fun a => by rw [congrFun hz' a]; simp) (V c main_v0)

/-- The bias block read at any point is the whole 1×64 bias array. -/
theorem blk_bias (c : Dev nD) (t : Fin cfg0.N) : (Stats.blk V c 2 t : Vec F S1x64 .f32) = V c main_v1 := by
  have hi : ∀ t : Fin grid0.N, win0_2.index t (0 : Fin 2) = 0 ∧ win0_2.index t (1 : Fin 2) = 0 := by decide +kernel
  have hz' : (fun a => win0_2.index t a * main_v1.ty.shape.size a) = fun _ => 0 :=
    funext fun a => by
      match a with
      | ⟨0, _⟩ => show win0_2.index t 0 * _ = 0; rw [(hi t).1]; omega
      | ⟨1, _⟩ => show win0_2.index t 1 * _ = 0; rw [(hi t).2]; omega
  exact Memref.read_access_unit_zero (Elt F) main_v1 hz' (fun a => by rw [congrFun hz' a]; simp) (V c main_v1)

end Cert.KernelIdeal.StatsValue

end
-- ==== Proof.Ideal.Payloads.lean ====
/-
  The values the two kernel bodies store, read at an index over the ideal values: the linear layer of a block of rows,
  the two accumulators' reset values and their updates by a block's column sums, and the normalised block.
-/
import proofs.«179944_j79989470921164_1_alg».proof.Proof.Gen.KernelIdeal.Skeleton
import proofs.«179944_j79989470921164_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen
open scoped BigOperators

/-! ## The contraction of a row block with the weights -/

theorem lhs_dot_0 (i : S20000x64.Idx) (q : dot_S20000x6_S6x64_S20000x64_1_0_0_1_n_n.contr.Idx) :
    (dot_S20000x6_S6x64_S20000x64_1_0_0_1_n_n.lhsIdx i q 0).val = (i 0).val := by
  unfold DotDims.lhsIdx
  rw [dif_neg (show ¬(0 : Fin S20000x6.rank) ∈ dot_S20000x6_S6x64_S20000x64_1_0_0_1_n_n.lhsBatch by decide), dif_pos (show (0 : Fin S20000x6.rank) ∈ dot_S20000x6_S6x64_S20000x64_1_0_0_1_n_n.lhsNonContracting by decide)]
  rfl
theorem lhs_dot_1 (i : S20000x64.Idx) (q : dot_S20000x6_S6x64_S20000x64_1_0_0_1_n_n.contr.Idx) :
    (dot_S20000x6_S6x64_S20000x64_1_0_0_1_n_n.lhsIdx i q 1).val = (q ⟨0, by decide⟩).val :=
  dot_S20000x6_S6x64_S20000x64_1_0_0_1_n_n.lhsIdx_val_of_single rfl i q
theorem rhs_dot_0 (i : S20000x64.Idx) (q : dot_S20000x6_S6x64_S20000x64_1_0_0_1_n_n.contr.Idx) :
    (dot_S20000x6_S6x64_S20000x64_1_0_0_1_n_n.rhsIdx i q 0).val = (q ⟨0, by decide⟩).val :=
  dot_S20000x6_S6x64_S20000x64_1_0_0_1_n_n.rhsIdx_val_of_single rfl i q
theorem rhs_dot_1 (i : S20000x64.Idx) (q : dot_S20000x6_S6x64_S20000x64_1_0_0_1_n_n.contr.Idx) :
    (dot_S20000x6_S6x64_S20000x64_1_0_0_1_n_n.rhsIdx i q 1).val = (i 1).val := by
  unfold DotDims.rhsIdx
  rw [dif_neg (show ¬(1 : Fin S6x64.rank) ∈ dot_S20000x6_S6x64_S20000x64_1_0_0_1_n_n.rhsBatch by decide), dif_pos (show (1 : Fin S6x64.rank) ∈ dot_S20000x6_S6x64_S20000x64_1_0_0_1_n_n.rhsNonContracting by decide)]
  rfl

/-- The product into the zero accumulator, at row `r` and feature `j`: the sum over the six coordinates. -/
theorem dot_apply (x : FVec Ideal S20000x6 .bf16) (wt : FVec Ideal S6x64 .bf16) (r : Fin 20000) (j : Fin 64) :
    matmul dot_S20000x6_S6x64_S20000x64_1_0_0_1_n_n none x wt (constant (F := Ideal) S20000x64 .f32 0x00000000#32) (ix2 r j)
      = ∑ k : Fin 6, x (ix2 r k) * wt (ix2 k j) := by
  simp only [matmul]
  rw [Ideal.matmul_constant_zero_apply, ← Equiv.sum_comp (contrEquiv1 dot_S20000x6_S6x64_S20000x64_1_0_0_1_n_n 6 rfl rfl).symm]
  refine Finset.sum_congr rfl fun k _ => ?_
  have hk := contrEquiv1_symm_val dot_S20000x6_S6x64_S20000x64_1_0_0_1_n_n 6 rfl rfl k
  have el : dot_S20000x6_S6x64_S20000x64_1_0_0_1_n_n.lhsIdx (ix2 r j) ((contrEquiv1 dot_S20000x6_S6x64_S20000x64_1_0_0_1_n_n 6 rfl rfl).symm k) = ix2 r k := funext fun a => Fin.ext (by
    match a with
    | ⟨0, _⟩ => exact lhs_dot_0 _ _
    | ⟨1, _⟩ => exact (lhs_dot_1 _ _).trans hk)
  have er : dot_S20000x6_S6x64_S20000x64_1_0_0_1_n_n.rhsIdx (ix2 r j) ((contrEquiv1 dot_S20000x6_S6x64_S20000x64_1_0_0_1_n_n 6 rfl rfl).symm k) = ix2 k j := funext fun a => Fin.ext (by
    match a with
    | ⟨0, _⟩ => exact (rhs_dot_0 _ _).trans hk
    | ⟨1, _⟩ => exact rhs_dot_1 _ _)
  rw [el, er]

/-! ## A feature row spread over the rows of a block -/

/-- A feature row, cast to its own shape and spread over the block's rows, reads the row at the feature. -/
theorem row_apply (v : FVec Ideal S1x64 .f32) (r : Fin 20000) (j : Fin 64) :
    broadcastTo S20000x64 (shapeCast S1x64 v shapeCasts_S1x64_S1x64) broadcasts_S1x64_S20000x64 (ix2 r j)
      = v (ix2 (0 : Fin 1) j) :=
  (broadcastTo_1b_ab_apply _ broadcasts_S1x64_S20000x64 r j).trans
    (congrFun (shapeCast_self v shapeCasts_S1x64_S1x64) _)

/-- The same without the cast. -/
theorem row_apply' (v : FVec Ideal S1x64 .f32) (r : Fin 20000) (j : Fin 64) :
    broadcastTo S20000x64 v broadcasts_S1x64_S20000x64 (ix2 r j) = v (ix2 (0 : Fin 1) j) :=
  broadcastTo_1b_ab_apply _ broadcasts_S1x64_S20000x64 r j

/-! ## The sum down a block's column -/

theorem lift_rows (j : Fin 64) (k : Fin 20000) : reduces_S20000x64_S64.lift (ix1 j) k = ix2 k j :=
  funext fun c => Fin.ext (by
    show reduces_S20000x64_S64.liftVal (ix1 j) k.val c = (ix2 k j c).val
    unfold Shape.Reduces.liftVal
    match c with
    | ⟨0, _⟩ => rfl
    | ⟨1, _⟩ => rfl)

/-- The sum over the block's rows at feature `j`. -/
theorem colsum_apply (src : FVec Ideal S20000x64 .f32) (j : Fin 64) :
    multiReduction (F := Ideal) .add [0] S64 src 0x00000000#32 reduces_S20000x64_S64 (.inl rfl) rfl (ix1 j)
      = ∑ r : Fin 20000, src (ix2 r j) := by
  refine (Ideal.multiReduction_add_single src _ reduces_S20000x64_S64 _ _ (ix1 j)).trans ?_
  show (∑ k : Fin 20000, src (reduces_S20000x64_S64.lift (ix1 j) k)) = _
  exact Finset.sum_congr rfl fun k _ => congrArg src (lift_rows j k)

/-! ## The payloads at an index -/

/-- The linear layer of a block at row `r`, feature `j`. -/
theorem pay3_apply (x : Vec Ideal S20000x6 .f32) (wt : Vec Ideal S6x64 .f32) (b : Vec Ideal S1x64 .f32)
    (r : Fin 20000) (j : Fin 64) :
    k0_pay3 (F := Ideal) x wt b (ix2 r j)
      = (∑ k : Fin 6, x (ix2 r k) * wt (ix2 k j)) + b (ix2 (0 : Fin 1) j) := by
  unfold k0_pay3
  refine (addf_apply _ _ _).trans ?_
  refine congrArg₂ (· + ·) ?_ (row_apply b r j)
  refine (dot_apply _ _ r j).trans ?_
  refine Finset.sum_congr rfl fun k _ => ?_
  refine congrArg₂ (· * ·) rfl ?_
  exact congrFun (shapeCast_self wt shapeCasts_S6x64_S6x64) _

/-- The first accumulator's reset value is zero. -/
theorem pay1_apply (j : Fin 64) : k0_pay1 (F := Ideal) (ix2 (0 : Fin 1) j) = 0 := by
  unfold k0_pay1
  refine (congrFun (shapeCast_self _ shapeCasts_S1x64_S1x64) _).trans ?_
  exact Ideal.ofBits_zero_f32

/-- The second accumulator's reset value is zero. -/
theorem pay2_apply (j : Fin 64) : k0_pay2 (F := Ideal) (ix2 (0 : Fin 1) j) = 0 := by
  unfold k0_pay2
  refine (congrFun (shapeCast_self _ shapeCasts_S1x64_S1x64) _).trans ?_
  exact Ideal.ofBits_zero_f32

/-- The first accumulator after a block: what it held plus the block's column sums. -/
theorem pay4_apply (x : Vec Ideal S20000x6 .f32) (wt : Vec Ideal S6x64 .f32) (b : Vec Ideal S1x64 .f32)
    (s : Vec Ideal S1x64 .f32) (j : Fin 64) :
    k0_pay4 (F := Ideal) x wt b s (ix2 (0 : Fin 1) j)
      = s (ix2 (0 : Fin 1) j) + ∑ r : Fin 20000, k0_pay3 (F := Ideal) x wt b (ix2 r j) := by
  unfold k0_pay4
  dsimp only
  refine (congrFun (shapeCast_self _ shapeCasts_S1x64_S1x64) _).trans ?_
  refine (addf_apply _ _ _).trans ?_
  refine congrArg₂ (· + ·) rfl ?_
  refine (shapeCast_a_1a_apply _ shapeCasts_S64_S1x64 (0 : Fin 1) j).trans ?_
  exact colsum_apply _ j

/-- The second accumulator after a block: what it held plus the block's column sums of squares. -/
theorem pay5_apply (x : Vec Ideal S20000x6 .f32) (wt : Vec Ideal S6x64 .f32) (b : Vec Ideal S1x64 .f32)
    (s : Vec Ideal S1x64 .f32) (j : Fin 64) :
    k0_pay5 (F := Ideal) x wt b s (ix2 (0 : Fin 1) j)
      = s (ix2 (0 : Fin 1) j) + ∑ r : Fin 20000,
          k0_pay3 (F := Ideal) x wt b (ix2 r j) * k0_pay3 (F := Ideal) x wt b (ix2 r j) := by
  unfold k0_pay5
  dsimp only
  refine (congrFun (shapeCast_self _ shapeCasts_S1x64_S1x64) _).trans ?_
  refine (addf_apply _ _ _).trans ?_
  refine congrArg₂ (· + ·) rfl ?_
  refine (shapeCast_a_1a_apply _ shapeCasts_S64_S1x64 (0 : Fin 1) j).trans ?_
  refine (colsum_apply _ j).trans ?_
  exact Finset.sum_congr rfl fun r _ => mulf_apply _ _ _

/-- The normalised, scaled, shifted and clamped block at row `r`, feature `j`. -/
theorem pay_norm_apply (x : Vec Ideal S20000x6 .f32) (wt : Vec Ideal S6x64 .f32)
    (b va g mu bt : Vec Ideal S1x64 .f32) (r : Fin 20000) (j : Fin 64) :
    k1_pay1 (F := Ideal) x wt b va g mu bt (ix2 r j)
      = max ((g (ix2 (0 : Fin 1) j)
              * (((∑ k : Fin 6, x (ix2 r k) * wt (ix2 k j)) + b (ix2 (0 : Fin 1) j)) - mu (ix2 (0 : Fin 1) j)))
            * Ideal.rsqrt (va (ix2 (0 : Fin 1) j) + Cert.BatchNorm.eps) + bt (ix2 (0 : Fin 1) j))
          Cert.BatchNorm.floor0 := by
  unfold k1_pay1
  refine (maximumf_apply _ _ _).trans ?_
  refine congrArg₂ max ?_ rfl
  refine (addf_apply _ _ _).trans ?_
  refine congrArg₂ (· + ·) ?_ (row_apply bt r j)
  refine (mulf_apply _ _ _).trans ?_
  refine congrArg₂ (· * ·) ?_ ?_
  · refine (mulf_apply _ _ _).trans ?_
    refine congrArg₂ (· * ·) (row_apply g r j) ?_
    refine (subf_apply _ _ _).trans ?_
    refine congrArg₂ (· - ·) ?_ (row_apply mu r j)
    refine (addf_apply _ _ _).trans ?_
    refine congrArg₂ (· + ·) ?_ (row_apply b r j)
    refine (dot_apply _ _ r j).trans ?_
    refine Finset.sum_congr rfl fun k _ => ?_
    refine congrArg₂ (· * ·) rfl ?_
    exact congrFun (shapeCast_self wt shapeCasts_S6x64_S6x64) _
  · refine (row_apply' _ r j).trans ?_
    show Ideal.rsqrt ((shapeCast S1x64 va shapeCasts_S1x64_S1x64) (ix2 (0 : Fin 1) j) + Cert.BatchNorm.eps) = _
    rw [shapeCast_self va shapeCasts_S1x64_S1x64]

end Cert.KernelIdeal.Payloads

end
-- ==== Proof.Algebra.lean ====
/-
  The arithmetic of batch normalisation over the extended reals: the row count as a real number, the linear layer
  of real arguments is real, the two ways of writing the variance agree on real data, and a sum over the rows may be
  taken block by block.
-/
import proofs.«179944_j79989470921164_1_alg».proof.Proof.Spec
import Mathlib.Data.EReal.Basic
import Mathlib.Data.EReal.Operations
import Mathlib.Algebra.BigOperators.Fin
import Mathlib.Algebra.BigOperators.Ring.Finset
import Mathlib.Algebra.Order.BigOperators.Group.Finset
import Mathlib.Logic.Equiv.Fin.Basic
import Mathlib.Tactic.Ring
import Mathlib.Tactic.FieldSimp
import Mathlib.Tactic.NormNum

noncomputable section

namespace Cert.BatchNorm

open Idealize.ShloMosaic Idealize.ShloMosaic.ValueIdx
open scoped BigOperators

/-- The float word of the row count denotes the real `2000000 = (2^23 + 7611392) · 2^(147 − 127 − 23)`. -/
theorem count_eq : count = ((2000000 : ℝ) : EReal) := by
  simp [count, Ideal.ofBits, Ideal.ieee, -EReal.coe_mul]; norm_num

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The linear layer of real arguments is real. -/
theorem lin_finite (x : SX.Idx → EReal) (w : SW.Idx → EReal) (b : SV.Idx → EReal)
    (hx : ∀ i, ∃ r : ℝ, x i = (r : EReal)) (hw : ∀ i, ∃ r : ℝ, w i = (r : EReal))
    (hb : ∀ i, ∃ r : ℝ, b i = (r : EReal)) (p : Fin 2000000) (q : Fin 64) :
    ∃ r : ℝ, lin x w b p q = (r : EReal) := by
  choose rx hrx using hx
  choose rw' hrw using hw
  choose rb hrb using hb
  refine ⟨(∑ k : Fin 6, rx (ix2 p k) * rw' (ix2 q k)) + rb (ix1 q), ?_⟩
  unfold lin
  simp only [hrx, hrw, hrb]
  rw [EReal.coe_add, coe_sum]
  simp only [EReal.coe_mul]

/-- The variance identity on the reals: over `n` terms with mean `μ = (Σ r) / n`,
    `(Σ (r − μ)²) / n = (Σ r²) / n − μ²`. -/
theorem real_var_two_ways {ι : Type} [Fintype ι] (r : ι → ℝ) (n : ℝ) (hcard : (Fintype.card ι : ℝ) = n)
    (hn : n ≠ 0) :
    (∑ p, r p * r p) * (1 / n) - (∑ p, r p) * (1 / n) * ((∑ p, r p) * (1 / n))
      = (∑ p, (r p - (∑ p, r p) * (1 / n)) * (r p - (∑ p, r p) * (1 / n))) * (1 / n) := by
  set S : ℝ := ∑ p, r p with hS
  set Q : ℝ := ∑ p, r p * r p with hQ
  have hexp : ∀ p, (r p - S * (1 / n)) * (r p - S * (1 / n))
      = r p * r p - (2 * (S * (1 / n))) * r p + (S * (1 / n)) * (S * (1 / n)) := by
    intro p; ring
  have hsum : (∑ p, (r p - S * (1 / n)) * (r p - S * (1 / n)))
      = Q - (2 * (S * (1 / n))) * S + n * ((S * (1 / n)) * (S * (1 / n))) := by
    simp only [hexp]
    rw [Finset.sum_add_distrib, Finset.sum_sub_distrib, ← Finset.mul_sum, Finset.sum_const, Finset.card_univ,
      nsmul_eq_mul, hcard]
  rw [hsum]
  field_simp
  ring

/-- On real data the mean of the squares minus the square of the mean is the mean of the squared deviations. -/
theorem var_two_ways (h : Fin 2000000 → Fin 64 → EReal) (hfin : ∀ p q, ∃ r : ℝ, h p q = (r : EReal))
    (q : Fin 64) : varOfSquares h q = varOfDeviations h q := by
  choose r hr using hfin
  have hn : (2000000 : ℝ) ≠ 0 := by norm_num
  have hmean : mean h q = (((∑ p, r p q) * (1 / 2000000 : ℝ) : ℝ) : EReal) := by
    unfold mean
    rw [count_eq, Ideal.div_coe hn]
    simp only [hr]
    rw [← coe_sum, ← EReal.coe_mul]
  unfold varOfSquares varOfDeviations
  rw [hmean, count_eq, Ideal.div_coe hn, Ideal.div_coe hn]
  simp only [hr]
  simp only [← EReal.coe_mul, ← EReal.coe_sub, ← coe_sum]
  rw [EReal.coe_eq_coe_iff]
  exact real_var_two_ways (fun p => r p q) 2000000 (by simp) hn

/-- The rows, as 100 blocks of 20000 consecutive rows. -/
def blockEquiv : Fin 100 × Fin 20000 ≃ Fin 2000000 :=
  finProdFinEquiv.trans (finCongr (by norm_num))

theorem blockEquiv_val (t : Fin 100) (r : Fin 20000) : (blockEquiv (t, r)).val = 20000 * t.val + r.val := by
  simp [blockEquiv, finProdFinEquiv, add_comm]

/-- A sum over the rows taken block by block is the sum over all the rows. -/
theorem sum_rows_by_blocks {M : Type} [AddCommMonoid M] (f : Fin 2000000 → M) :
    (∑ t : Fin 100, ∑ r : Fin 20000,
      f ⟨20000 * t.val + r.val, by have := t.isLt; have := r.isLt; omega⟩) = ∑ p : Fin 2000000, f p := by
  rw [← Equiv.sum_comp blockEquiv f, Fintype.sum_prod_type]
  refine Finset.sum_congr rfl fun t _ => Finset.sum_congr rfl fun r _ => ?_
  congr 1
  exact Fin.ext (blockEquiv_val t r).symm

/-- A running sum is the sum of its terms. -/
theorem fold_blocks {M : Type} [AddCommMonoid M] (g : ℕ → M) (a : ℕ → M) (h0 : a 0 = g 0)
    (hs : ∀ k, a (k + 1) = a k + g (k + 1)) (n : ℕ) : a n = ∑ t ∈ Finset.range (n + 1), g t := by
  induction n with
  | zero => simp [h0]
  | succ k ih => rw [hs, ih, Finset.sum_range_succ _ (k + 1)]

/-- A sum over the first hundred naturals is a sum over `Fin 100`. -/
theorem sum_range_100 {M : Type} [AddCommMonoid M] (g : ℕ → M) :
    ∑ t ∈ Finset.range 100, g t = ∑ t : Fin 100, g t.val :=
  (Fin.sum_univ_eq_sum_range g 100).symm

end Cert.BatchNorm

end
-- ==== Proof.Ideal.StatsClosed.lean ====
/-
  The statistics region's running rows, closed: after the last of the hundred blocks of rows the two rows held are the
  column sums, over all the rows, of the linear layer and of its square.
-/
import proofs.«179944_j79989470921164_1_alg».proof.Proof.Ideal.Stats
import proofs.«179944_j79989470921164_1_alg».proof.Proof.Ideal.Payloads
import proofs.«179944_j79989470921164_1_alg».proof.Proof.Algebra
import proofs.«179944_j79989470921164_1_alg».proof.Proof.Ideal.StatsValue

set_option maxRecDepth 16384

noncomputable section

namespace Cert.KernelIdeal.StatsClosed

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-! ## Names of the literal types -/

/-- The block of rows, the weights and the bias row read at point `t`. -/
abbrev xblk (c : Dev nD) (t : Fin cfg0.N) : Vec Ideal S20000x6 .f32 := Stats.blk V c 0 t
abbrev wblk (c : Dev nD) (t : Fin cfg0.N) : Vec Ideal S6x64 .f32 := Stats.blk V c 1 t
abbrev bblk (c : Dev nD) (t : Fin cfg0.N) : Vec Ideal S1x64 .f32 := Stats.blk V c 2 t
/-- The array of rows, the weights and the bias row. -/
abbrev xarr (c : Dev nD) : Vec Ideal S2000000x6 .f32 := V c main_arg0
abbrev warr (c : Dev nD) : Vec Ideal S6x64 .f32 := V c main_v0
abbrev barr (c : Dev nD) : Vec Ideal S1x64 .f32 := V c main_v1

/-- The linear layer at row `p`, feature `j`. -/
abbrev lin (c : Dev nD) (j : Fin 64) (p : Fin 2000000) : EReal :=
  (∑ k : Fin 6, xarr V c (ix2 p k) * warr V c (ix2 k j)) + barr V c (ix2 (0 : Fin 1) j)

/-- The linear layer of the block read at point `t`, at the block's row `r`. -/
abbrev linBlk (c : Dev nD) (j : Fin 64) (t : Fin cfg0.N) (r : Fin 20000) : EReal :=
  k0_pay3 (F := Ideal) (xblk V c t) (wblk V c t) (bblk V c t) (ix2 r j)

/-- A block's column sum, and its column sum of squares, at a natural number (zero past the grid). -/
def gSum (c : Dev nD) (j : Fin 64) (n : ℕ) : EReal :=
  if h : n < cfg0.N then ∑ r : Fin 20000, linBlk V c j ⟨n, h⟩ r else 0
def gSq (c : Dev nD) (j : Fin 64) (n : ℕ) : EReal :=
  if h : n < cfg0.N then ∑ r : Fin 20000, linBlk V c j ⟨n, h⟩ r * linBlk V c j ⟨n, h⟩ r else 0

theorem gSum_of_lt (c : Dev nD) (j : Fin 64) (n : ℕ) (h : n < cfg0.N) :
    gSum V c j n = ∑ r : Fin 20000, linBlk V c j ⟨n, h⟩ r := dif_pos h
theorem gSq_of_lt (c : Dev nD) (j : Fin 64) (n : ℕ) (h : n < cfg0.N) :
    gSq V c j n = ∑ r : Fin 20000, linBlk V c j ⟨n, h⟩ r * linBlk V c j ⟨n, h⟩ r := dif_pos h

/-! ## The running rows are partial sums over the blocks -/

theorem acc_zero (c : Dev nD) (h : 0 < cfg0.N) :
    Stats.acc (F := Ideal) V c 0 h
      = (k0_pay4 (xblk V c ⟨0, h⟩) (wblk V c ⟨0, h⟩) (bblk V c ⟨0, h⟩) (k0_pay1 (F := Ideal)),
         k0_pay5 (xblk V c ⟨0, h⟩) (wblk V c ⟨0, h⟩) (bblk V c ⟨0, h⟩) (k0_pay2 (F := Ideal))) := rfl

theorem acc_succ (c : Dev nD) (n : ℕ) (h : n + 1 < cfg0.N) :
    Stats.acc (F := Ideal) V c (n + 1) h
      = (k0_pay4 (xblk V c ⟨n + 1, h⟩) (wblk V c ⟨n + 1, h⟩) (bblk V c ⟨n + 1, h⟩)
            (Stats.acc (F := Ideal) V c n (Nat.lt_of_succ_lt h)).1,
         k0_pay5 (xblk V c ⟨n + 1, h⟩) (wblk V c ⟨n + 1, h⟩) (bblk V c ⟨n + 1, h⟩)
            (Stats.acc (F := Ideal) V c n (Nat.lt_of_succ_lt h)).2) := rfl

/-- The first running row after point `n` is the sum of the first `n + 1` blocks' column sums. -/
theorem run_sum (c : Dev nD) (j : Fin 64) (n : ℕ) (hn : n < cfg0.N) :
    (Stats.acc (F := Ideal) V c n hn).1 (ix2 (0 : Fin 1) j) = ∑ t ∈ Finset.range (n + 1), gSum V c j t := by
  induction n with
  | zero =>
    rw [acc_zero, Finset.sum_range_one, gSum_of_lt V c j 0 hn]
    refine (Payloads.pay4_apply (xblk V c ⟨0, hn⟩) (wblk V c ⟨0, hn⟩) (bblk V c ⟨0, hn⟩) (k0_pay1 (F := Ideal)) j).trans ?_
    rw [Payloads.pay1_apply, zero_add]
  | succ n ih =>
    rw [acc_succ, Finset.sum_range_succ _ (n + 1), ← ih (Nat.lt_of_succ_lt hn), gSum_of_lt V c j (n + 1) hn]
    exact Payloads.pay4_apply (xblk V c ⟨n + 1, hn⟩) (wblk V c ⟨n + 1, hn⟩) (bblk V c ⟨n + 1, hn⟩)
      (Stats.acc (F := Ideal) V c n (Nat.lt_of_succ_lt hn)).1 j

/-- The second running row after point `n` is the sum of the first `n + 1` blocks' column sums of squares. -/
theorem run_sq (c : Dev nD) (j : Fin 64) (n : ℕ) (hn : n < cfg0.N) :
    (Stats.acc (F := Ideal) V c n hn).2 (ix2 (0 : Fin 1) j) = ∑ t ∈ Finset.range (n + 1), gSq V c j t := by
  induction n with
  | zero =>
    rw [acc_zero, Finset.sum_range_one, gSq_of_lt V c j 0 hn]
    refine (Payloads.pay5_apply (xblk V c ⟨0, hn⟩) (wblk V c ⟨0, hn⟩) (bblk V c ⟨0, hn⟩) (k0_pay2 (F := Ideal)) j).trans ?_
    rw [Payloads.pay2_apply, zero_add]
  | succ n ih =>
    rw [acc_succ, Finset.sum_range_succ _ (n + 1), ← ih (Nat.lt_of_succ_lt hn), gSq_of_lt V c j (n + 1) hn]
    exact Payloads.pay5_apply (xblk V c ⟨n + 1, hn⟩) (wblk V c ⟨n + 1, hn⟩) (bblk V c ⟨n + 1, hn⟩)
      (Stats.acc (F := Ideal) V c n (Nat.lt_of_succ_lt hn)).2 j

/-! ## A block's rows are the array's rows -/

/-- The linear layer of the block read at point `t`, at its row `r`, is the linear layer at row `20000 t + r`. -/
theorem linBlk_eq (c : Dev nD) (j : Fin 64) (t : Fin cfg0.N) (r : Fin 20000) :
    linBlk V c j t r = lin V c j ⟨20000 * t.val + r.val, by
      have h : t.val < 100 := lt_of_lt_of_eq t.isLt N_0; have := r.isLt; omega⟩ := by
  refine (Payloads.pay3_apply (xblk V c t) (wblk V c t) (bblk V c t) r j).trans ?_
  exact congrArg₂ (· + ·)
    (Finset.sum_congr rfl fun k _ => congrArg₂ (· * ·) (StatsValue.blk_rows V c t r k) (congrFun (StatsValue.blk_weights V c t) (ix2 k j)))
    (congrFun (StatsValue.blk_bias V c t) (ix2 (0 : Fin 1) j))

/-! ## The closed forms -/

/-- After the last block the first row holds the column sums of the linear layer over all the rows. -/
theorem sum_closed (c : Dev nD) (j : Fin 64) (h99 : 99 < cfg0.N) :
    (Stats.acc (F := Ideal) V c 99 h99).1 (ix2 (0 : Fin 1) j)
      = ∑ p : Fin 2000000,
          ((∑ k : Fin 6, xarr V c (ix2 p k) * warr V c (ix2 k j)) + barr V c (ix2 (0 : Fin 1) j)) := by
  rw [run_sum V c j 99 h99, Cert.BatchNorm.sum_range_100, ← Cert.BatchNorm.sum_rows_by_blocks (lin V c j)]
  refine Finset.sum_congr rfl fun t _ => ?_
  have ht : t.val < cfg0.N := lt_of_lt_of_eq t.isLt N_0.symm
  rw [gSum_of_lt V c j t.val ht]
  exact Finset.sum_congr rfl fun r _ => linBlk_eq V c j ⟨t.val, ht⟩ r

/-- After the last block the second row holds the column sums of the squared linear layer over all the rows. -/
theorem sumsq_closed (c : Dev nD) (j : Fin 64) (h99 : 99 < cfg0.N) :
    (Stats.acc (F := Ideal) V c 99 h99).2 (ix2 (0 : Fin 1) j)
      = ∑ p : Fin 2000000,
          (((∑ k : Fin 6, xarr V c (ix2 p k) * warr V c (ix2 k j)) + barr V c (ix2 (0 : Fin 1) j))
            * ((∑ k : Fin 6, xarr V c (ix2 p k) * warr V c (ix2 k j)) + barr V c (ix2 (0 : Fin 1) j))) := by
  rw [run_sq V c j 99 h99, Cert.BatchNorm.sum_range_100,
    ← Cert.BatchNorm.sum_rows_by_blocks (fun p => lin V c j p * lin V c j p)]
  refine Finset.sum_congr rfl fun t _ => ?_
  have ht : t.val < cfg0.N := lt_of_lt_of_eq t.isLt N_0.symm
  rw [gSq_of_lt V c j t.val ht]
  exact Finset.sum_congr rfl fun r _ =>
    congrArg₂ (· * ·) (linBlk_eq V c j ⟨t.val, ht⟩ r) (linBlk_eq V c j ⟨t.val, ht⟩ r)

/-- The closed forms over any three arrays of the literal types that the region-entry contents equal. -/
theorem sum_closed_of (c : Dev nD) (j : Fin 64) (h99 : 99 < cfg0.N)
    (x : Vec Ideal S2000000x6 .f32) (w : Vec Ideal S6x64 .f32) (b : Vec Ideal S1x64 .f32)
    (hx : xarr V c = x) (hw : warr V c = w) (hb : barr V c = b) :
    (Stats.acc (F := Ideal) V c 99 h99).1 (ix2 (0 : Fin 1) j)
      = ∑ p : Fin 2000000, ((∑ k : Fin 6, x (ix2 p k) * w (ix2 k j)) + b (ix2 (0 : Fin 1) j)) := by
  subst hx hw hb
  exact sum_closed V c j h99

theorem sumsq_closed_of (c : Dev nD) (j : Fin 64) (h99 : 99 < cfg0.N)
    (x : Vec Ideal S2000000x6 .f32) (w : Vec Ideal S6x64 .f32) (b : Vec Ideal S1x64 .f32)
    (hx : xarr V c = x) (hw : warr V c = w) (hb : barr V c = b) :
    (Stats.acc (F := Ideal) V c 99 h99).2 (ix2 (0 : Fin 1) j)
      = ∑ p : Fin 2000000, (((∑ k : Fin 6, x (ix2 p k) * w (ix2 k j)) + b (ix2 (0 : Fin 1) j))
          * ((∑ k : Fin 6, x (ix2 p k) * w (ix2 k j)) + b (ix2 (0 : Fin 1) j))) := by
  subst hx hw hb
  exact sumsq_closed V c j h99

end Cert.KernelIdeal.StatsClosed

end
-- ==== Proof.Ideal.NormValue.lean ====
/-
  What the normalising pass leaves in its output array after all hundred row blocks, read at an index: row
  `20000·t + r`, feature `q` is entry `(r, q)` of the rectified affine normalisation of the biased product of rows
  `20000·t … 20000·t + 19999` of the input with the weight matrix — each point writes its own block of rows, no
  two points' blocks meet, and each whole-array window's block is its array.
-/
import proofs.«179944_j79989470921164_1_alg».proof.Proof.Ideal.Norm
import Idealize.ShloMosaic.Lib.Pipeline.Value
import Idealize.ShloMosaic.Lib.ValueIdx

set_option maxRecDepth 16384

noncomputable section

namespace Cert.KernelIdeal.NormValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## The index maps, decided over the grid -/

/-- The input's and the output's block of rows at point `t` is the `t`-th; every other window's block is its whole array. -/
theorem index_facts : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Distinct points write distinct blocks of rows. -/
theorem index_out_inj : ∀ t t' : Fin cfg1.N, win1_7.index t = win1_7.index t' → t = t' :=
  (by decide +kernel : ∀ t t' : Fin grid1.N, win1_7.index t = win1_7.index t' → t = t')

/-- So two points' output blocks share no index of the array. -/
theorem disjoint_out : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (index_out_inj t t' h)

/-- The input's block at point `t` is rows `20000·t … 20000·t + 19999` of the input array. -/
theorem blk_rows (c : Dev nD) (t : Fin cfg1.N) :
    (Norm.blk V c 0 t : Vec F S20000x6 .f32) = fun y => (V c main_arg0 : S2000000x6.Idx → Elt F .f32)
      (ValueIdx.ix2 ⟨20000 * t.val + (y 0).val, by have h0 : t.val < 100 := t.isLt; have h1 : (y 0).val < 20000 := (y 0).isLt; omega⟩ (y 1)) := by
  obtain ⟨e0, e1, -⟩ := index_facts t
  funext y
  unfold Norm.blk
  rw [View.read_apply]
  show V c main_arg0 _ = V c main_arg0 _
  congr 1
  funext a
  apply Fin.ext
  match a with
  | ⟨0, _⟩ => show win1_0.index t (0 : Fin 2) * 20000 + 1 * (y 0).val = 20000 * t.val + (y 0).val; rw [e0]; omega
  | ⟨1, _⟩ => show win1_0.index t (1 : Fin 2) * 6 + 1 * (y 1).val = (y 1).val; rw [e1]; omega

/-- The weight matrix's block is the whole matrix, at every point. -/
theorem blk_weight (c : Dev nD) (t : Fin cfg1.N) : (Norm.blk V c 1 t : Vec F S6x64 .f32) = (V c main_v0 : S6x64.Idx → Elt F .f32) := by
  obtain ⟨e00, e01, e70, e71, e10, e11, e20, e21, e30, e31, e40, e41, e50, e51, e60, e61⟩ := index_facts t
  funext y
  unfold Norm.blk
  rw [View.read_apply]
  show V c main_v0 _ = V c main_v0 _
  congr 1
  funext a
  apply Fin.ext
  match a with
  | ⟨0, _⟩ => show win1_1.index t (0 : Fin 2) * 6 + 1 * (y 0).val = (y 0).val; rw [e10]; omega
  | ⟨1, _⟩ => show win1_1.index t (1 : Fin 2) * 64 + 1 * (y 1).val = (y 1).val; rw [e11]; omega

/-- The bias row's block is the whole row, at every point. -/
theorem blk_bias (c : Dev nD) (t : Fin cfg1.N) : (Norm.blk V c 2 t : Vec F S1x64 .f32) = (V c main_v1 : S1x64.Idx → Elt F .f32) := by
  obtain ⟨e00, e01, e70, e71, e10, e11, e20, e21, e30, e31, e40, e41, e50, e51, e60, e61⟩ := index_facts t
  funext y
  unfold Norm.blk
  rw [View.read_apply]
  show V c main_v1 _ = V c main_v1 _
  congr 1
  funext a
  apply Fin.ext
  match a with
  | ⟨0, _⟩ => show win1_2.index t (0 : Fin 2) * 1 + 1 * (y 0).val = (y 0).val; rw [e20]; omega
  | ⟨1, _⟩ => show win1_2.index t (1 : Fin 2) * 64 + 1 * (y 1).val = (y 1).val; rw [e21]; omega

/-- The scale row's block is the whole row, at every point. -/
theorem blk_scale (c : Dev nD) (t : Fin cfg1.N) : (Norm.blk V c 3 t : Vec F S1x64 .f32) = (V c main_v2 : S1x64.Idx → Elt F .f32) := by
  obtain ⟨e00, e01, e70, e71, e10, e11, e20, e21, e30, e31, e40, e41, e50, e51, e60, e61⟩ := index_facts t
  funext y
  unfold Norm.blk
  rw [View.read_apply]
  show V c main_v2 _ = V c main_v2 _
  congr 1
  funext a
  apply Fin.ext
  match a with
  | ⟨0, _⟩ => show win1_3.index t (0 : Fin 2) * 1 + 1 * (y 0).val = (y 0).val; rw [e30]; omega
  | ⟨1, _⟩ => show win1_3.index t (1 : Fin 2) * 64 + 1 * (y 1).val = (y 1).val; rw [e31]; omega

/-- The shift row's block is the whole row, at every point. -/
theorem blk_shift (c : Dev nD) (t : Fin cfg1.N) : (Norm.blk V c 4 t : Vec F S1x64 .f32) = (V c main_v3 : S1x64.Idx → Elt F .f32) := by
  obtain ⟨e00, e01, e70, e71, e10, e11, e20, e21, e30, e31, e40, e41, e50, e51, e60, e61⟩ := index_facts t
  funext y
  unfold Norm.blk
  rw [View.read_apply]
  show V c main_v3 _ = V c main_v3 _
  congr 1
  funext a
  apply Fin.ext
  match a with
  | ⟨0, _⟩ => show win1_4.index t (0 : Fin 2) * 1 + 1 * (y 0).val = (y 0).val; rw [e40]; omega
  | ⟨1, _⟩ => show win1_4.index t (1 : Fin 2) * 64 + 1 * (y 1).val = (y 1).val; rw [e41]; omega

/-- The mean row's block is the whole row, at every point. -/
theorem blk_mean (c : Dev nD) (t : Fin cfg1.N) : (Norm.blk V c 5 t : Vec F S1x64 .f32) = (V c main_v6 : S1x64.Idx → Elt F .f32) := by
  obtain ⟨e00, e01, e70, e71, e10, e11, e20, e21, e30, e31, e40, e41, e50, e51, e60, e61⟩ := index_facts t
  funext y
  unfold Norm.blk
  rw [View.read_apply]
  show V c main_v6 _ = V c main_v6 _
  congr 1
  funext a
  apply Fin.ext
  match a with
  | ⟨0, _⟩ => show win1_5.index t (0 : Fin 2) * 1 + 1 * (y 0).val = (y 0).val; rw [e50]; omega
  | ⟨1, _⟩ => show win1_5.index t (1 : Fin 2) * 64 + 1 * (y 1).val = (y 1).val; rw [e51]; omega

/-- The variance row's block is the whole row, at every point. -/
theorem blk_var (c : Dev nD) (t : Fin cfg1.N) : (Norm.blk V c 6 t : Vec F S1x64 .f32) = (V c main_v10 : S1x64.Idx → Elt F .f32) := by
  obtain ⟨e00, e01, e70, e71, e10, e11, e20, e21, e30, e31, e40, e41, e50, e51, e60, e61⟩ := index_facts t
  funext y
  unfold Norm.blk
  rw [View.read_apply]
  show V c main_v10 _ = V c main_v10 _
  congr 1
  funext a
  apply Fin.ext
  match a with
  | ⟨0, _⟩ => show win1_6.index t (0 : Fin 2) * 1 + 1 * (y 0).val = (y 0).val; rw [e60]; omega
  | ⟨1, _⟩ => show win1_6.index t (1 : Fin 2) * 64 + 1 * (y 1).val = (y 1).val; rw [e61]; omega

/-- THE OUTPUT ARRAY after the run, at row `20000·t + r` and feature `q`. -/
theorem array_apply (c : Dev nD) (t : Fin 100) (r : Fin 20000) (q : Fin 64) :
    ((Norm.dat V c).arrAt 7 cfg1.N : S2000000x64.Idx → Elt F .f32) (ValueIdx.ix2 ⟨20000 * t.val + r.val, by have := t.isLt; have := r.isLt; omega⟩ q)
      = Norm.outBlk (fun y => (V c main_arg0 : S2000000x6.Idx → Elt F .f32) (ValueIdx.ix2 ⟨20000 * t.val + (y 0).val, by have := t.isLt; have h1 : (y 0).val < 20000 := (y 0).isLt; omega⟩ (y 1)))
          (V c main_v0) (V c main_v1) (V c main_v2) (V c main_v3) (V c main_v6) (V c main_v10) (ValueIdx.ix2 r q) := by
  let t' : Fin cfg1.N := ⟨t.val, t.isLt⟩
  obtain ⟨-, -, e70, e71, -⟩ := index_facts t'
  have hi : (ValueIdx.ix2 (⟨20000 * t.val + r.val, by have := t.isLt; have := r.isLt; omega⟩ : Fin 2000000) q : S2000000x64.Idx)
      = ((cfg1.win 7).blk t').view.emb (ValueIdx.ix2 r q : S20000x64.Idx) := by
    funext a
    apply Fin.ext
    match a with
    | ⟨0, _⟩ => show 20000 * t.val + r.val = win1_7.index t' (0 : Fin 2) * 20000 + 1 * r.val; rw [e70]; show _ = t.val * 20000 + 1 * r.val; omega
    | ⟨1, _⟩ => show q.val = win1_7.index t' (1 : Fin 2) * 64 + 1 * q.val; rw [e71]; omega
  rw [hi, (Norm.dat V c).arrAt_emb_eq_flushed 7 disjoint_out t' (flush1_7 t') (ValueIdx.ix2 r q)]
  rw [cast_eq]
  show (cfg1.win 7).cut (grid1.coords t') ((Norm.dat V c).after 7 t') (ValueIdx.ix2 r q) = _
  rw [Norm.dat_after_out, blk_rows, blk_weight, blk_bias, blk_scale, blk_shift, blk_mean, blk_var]
  rfl

end Cert.KernelIdeal.NormValue

end
-- ==== Proof.Ideal.Features.lean ====
/-
  The array the normalising region leaves, read at row `p`, feature `q`, is the specification's normalised feature
  with the variance as the mean of the squares minus the square of the mean: the column sums the first region leaves
  are sums of the linear layer over all rows, the host operations between the regions make the mean and that variance
  of them, and the second region's block at the row's point normalises the row's linear layer by them.
-/
import proofs.«179944_j79989470921164_1_alg».proof.Proof.Ideal.Whole
import proofs.«179944_j79989470921164_1_alg».proof.Proof.Ideal.StatsValue
import proofs.«179944_j79989470921164_1_alg».proof.Proof.Ideal.StatsClosed
import proofs.«179944_j79989470921164_1_alg».proof.Proof.Ideal.NormValue
import proofs.«179944_j79989470921164_1_alg».proof.Proof.Ideal.Payloads
import proofs.«179944_j79989470921164_1_alg».proof.Proof.Ideal.HostReads
import proofs.«179944_j79989470921164_1_alg».proof.Proof.Spec
import Idealize.ShloMosaic.Lib.ValueIdx

/-!
  The junction of the kernel side: what the array of normalised features holds after the second region, as the
  specification's function of the launch arrays.

  The first region leaves the column sums and the column sums of squares of the linear layer
  `h p q = Σₖ x p k · w q k + b q` (its weights are the transposed launch weights, its bias row the launch bias);
  the host divides both by the number of rows and subtracts the square of the mean, which are the specification's
  mean and its variance as the mean of the squares minus the square of the mean; the second region writes, at row
  `p = 20000·t + r` and feature `q`, `max (γ q · (h p q − μ q) · rsqrt (σ² q + ε) + β q) 0`. Everything is an
  equation between extended reals; nothing here needs the inputs to be finite.
-/

set_option maxRecDepth 16384

noncomputable section

open scoped BigOperators

namespace Cert.KernelIdeal.Features

open Idealize.ShloMosaic Idealize.ShloMosaic.TcCoe Idealize.SL.Sem
open Cert.KernelIdeal Cert.KernelIdeal.Gen Cert.KernelIdeal.Whole Idealize.ShloMosaic.ValueIdx

variable (m : (ℓ : Loc nD τ sig) → Buf (Elt Ideal) ℓ)

/-! ## The arrays, each at its literal type -/

/-- The launch arrays: the rows, the weights, the bias, the scale and the shift. -/
abbrev xA (c : Dev nD) : Vec Ideal S2000000x6 .f32 := m ((c : Thread nD τ).loc main_arg0)
abbrev wA (c : Dev nD) : Vec Ideal S64x6 .f32 := m ((c : Thread nD τ).loc main_arg2)
abbrev bA (c : Dev nD) : Vec Ideal S64 .f32 := m ((c : Thread nD τ).loc main_arg3)
abbrev gA (c : Dev nD) : Vec Ideal S64 .f32 := m ((c : Thread nD τ).loc main_arg4)
abbrev btA (c : Dev nD) : Vec Ideal S64 .f32 := m ((c : Thread nD τ).loc main_arg5)

/-- What the first region reads: the rows, the transposed weights and the bias row. -/
abbrev x1 (c : Dev nD) : Vec Ideal S2000000x6 .f32 := E1 m c main_arg0
abbrev w1 (c : Dev nD) : Vec Ideal S6x64 .f32 := E1 m c main_v0
abbrev b1 (c : Dev nD) : Vec Ideal S1x64 .f32 := E1 m c main_v1

/-- What the second region reads. -/
abbrev x3 (c : Dev nD) : Vec Ideal S2000000x6 .f32 := E3 m c main_arg0
abbrev w3 (c : Dev nD) : Vec Ideal S6x64 .f32 := E3 m c main_v0
abbrev b3 (c : Dev nD) : Vec Ideal S1x64 .f32 := E3 m c main_v1
abbrev g3 (c : Dev nD) : Vec Ideal S1x64 .f32 := E3 m c main_v2
abbrev bt3 (c : Dev nD) : Vec Ideal S1x64 .f32 := E3 m c main_v3
abbrev mu3 (c : Dev nD) : Vec Ideal S1x64 .f32 := E3 m c main_v6
abbrev va3 (c : Dev nD) : Vec Ideal S1x64 .f32 := E3 m c main_v10

/-- The two statistics arrays after the first region. -/
abbrev s2 (c : Dev nD) : Vec Ideal S1x64 .f32 := W2 m c main_v4_0
abbrev q2 (c : Dev nD) : Vec Ideal S1x64 .f32 := W2 m c main_v4_1

/-- The linear layer of the launch arrays on device `c`. -/
abbrev hlin (c : Dev nD) : Fin 2000000 → Fin 64 → EReal :=
  Cert.BatchNorm.lin (xA m c) (wA m c) (bA m c)

/-! ## The statistics -/

/-- The biased product of row `p` of the first region's rows with its weights is the linear layer at `p`. -/
theorem lin_entry (c : Dev nD) (p : Fin 2000000) (q : Fin 64) :
    ((∑ k : Fin 6, x1 m c (ix2 p k) * w1 m c (ix2 k q)) + b1 m c (ix2 (0 : Fin 1) q)) = hlin m c p q := by
  unfold hlin Cert.BatchNorm.lin
  refine congrArg₂ (fun a b : EReal => a + b) (Finset.sum_congr rfl fun k _ => congrArg₂ (fun a b : EReal => a * b) ?_ ?_) ?_
  · exact congrFun (HostReads.w1_rows m c) (ix2 p k)
  · exact HostReads.w1_weights_apply m c k q
  · exact HostReads.w1_bias_apply m c q

/-- The first statistics array holds the column sums of the linear layer. -/
theorem colsum (c : Dev nD) (q : Fin 64) :
    s2 m c (ix2 (0 : Fin 1) q) = ∑ p : Fin 2000000, hlin m c p q := by
  have e1 : s2 m c = (Stats.acc (E1 m) c 99 (by decide)).1 :=
    (W2_arr m c 3).trans (StatsValue.sum_array (E1 m) c)
  refine (congrFun e1 _).trans ?_
  refine (StatsClosed.sum_closed (E1 m) c q _).trans ?_
  exact congrArg (fun f : Fin 2000000 → EReal => ∑ p, f p) (funext fun p => lin_entry m c p q)

/-- The second statistics array holds the column sums of its squares. -/
theorem colsumsq (c : Dev nD) (q : Fin 64) :
    q2 m c (ix2 (0 : Fin 1) q) = ∑ p : Fin 2000000, hlin m c p q * hlin m c p q := by
  have e1 : q2 m c = (Stats.acc (E1 m) c 99 (by decide)).2 :=
    (W2_arr m c 4).trans (StatsValue.sumsq_array (E1 m) c)
  refine (congrFun e1 _).trans ?_
  refine (StatsClosed.sumsq_closed (E1 m) c q _).trans ?_
  exact congrArg (fun f : Fin 2000000 → EReal => ∑ p, f p)
    (funext fun p => congrArg₂ (fun a b : EReal => a * b) (lin_entry m c p q) (lin_entry m c p q))

/-- The mean row the second region reads is the specification's mean. -/
theorem mean_entry (c : Dev nD) (q : Fin 64) :
    mu3 m c (ix2 (0 : Fin 1) q) = Cert.BatchNorm.mean (hlin m c) q := by
  unfold Cert.BatchNorm.mean
  exact (HostReads.w3_mean_apply m c q).trans (congrArg (fun s : EReal => Ideal.div s Cert.BatchNorm.count) (colsum m c q))

/-- The variance row the second region reads is the mean of the squares minus the square of the mean. -/
theorem var_entry (c : Dev nD) (q : Fin 64) :
    va3 m c (ix2 (0 : Fin 1) q) = Cert.BatchNorm.varOfSquares (hlin m c) q := by
  unfold Cert.BatchNorm.varOfSquares
  refine (HostReads.w3_var_apply m c q).trans ?_
  exact congrArg₂ (fun a b : EReal => a - b) (congrArg (fun s : EReal => Ideal.div s Cert.BatchNorm.count) (colsumsq m c q))
    (congrArg₂ (fun a b : EReal => a * b) (mean_entry m c q) (mean_entry m c q))

/-! ## The normalised features -/

/-- The biased product of a row of the second region's rows with its weights is the linear layer too. -/
theorem lin_entry3 (c : Dev nD) (p : Fin 2000000) (q : Fin 64) :
    ((∑ k : Fin 6, x3 m c (ix2 p k) * w3 m c (ix2 k q)) + b3 m c (ix2 (0 : Fin 1) q)) = hlin m c p q := by
  refine Eq.trans ?_ (lin_entry m c p q)
  refine congrArg₂ (fun a b : EReal => a + b) (Finset.sum_congr rfl fun k _ => congrArg₂ (fun a b : EReal => a * b) ?_ ?_) ?_
  · exact congrFun (HostReads.w3_keeps_arg0 m c) _
  · exact congrFun (HostReads.w3_keeps_v0 m c) _
  · exact congrFun (HostReads.w3_keeps_v1 m c) _

theorem gamma_entry (c : Dev nD) (q : Fin 64) : g3 m c (ix2 (0 : Fin 1) q) = gA m c (ix1 q) :=
  (congrFun (HostReads.w3_keeps_v2 m c) _).trans (HostReads.w1_gamma_apply m c q)

theorem beta_entry (c : Dev nD) (q : Fin 64) : bt3 m c (ix2 (0 : Fin 1) q) = btA m c (ix1 q) :=
  (congrFun (HostReads.w3_keeps_v3 m c) _).trans (HostReads.w1_beta_apply m c q)

/-- The normalised features the scatter reads, at row `p` and feature `q`. -/
theorem features_apply (c : Dev nD) (p : Fin 2000000) (q : Fin 64) :
    (W4 m c main_v11 : Vec Ideal S2000000x64 .f32) (ix2 p q)
      = Cert.BatchNorm.normalized (m ((c : Thread nD τ).loc main_arg4)) (m ((c : Thread nD τ).loc main_arg5))
          (Cert.BatchNorm.lin (m ((c : Thread nD τ).loc main_arg0)) (m ((c : Thread nD τ).loc main_arg2)) (m ((c : Thread nD τ).loc main_arg3)))
          (Cert.BatchNorm.varOfSquares (Cert.BatchNorm.lin (m ((c : Thread nD τ).loc main_arg0)) (m ((c : Thread nD τ).loc main_arg2)) (m ((c : Thread nD τ).loc main_arg3)))) p q := by
  obtain ⟨t, r, rfl⟩ : ∃ (t : Fin 100) (r : Fin 20000),
      p = ⟨20000 * t.val + r.val, by have := t.isLt; have := r.isLt; omega⟩ :=
    ⟨⟨p.val / 20000, by have := p.isLt; omega⟩, ⟨p.val % 20000, by omega⟩, Fin.ext (by show p.val = 20000 * (p.val / 20000) + p.val % 20000; omega)⟩
  have e4 : (W4 m c main_v11 : Vec Ideal S2000000x64 .f32) = (Norm.dat (E3 m) c).arrAt 7 cfg1.N := W4_arr m c 7
  refine (congrFun e4 _).trans ?_
  refine (NormValue.array_apply (E3 m) c t r q).trans ?_
  unfold Norm.outBlk
  refine (Payloads.pay_norm_apply _ (w3 m c) (b3 m c) (va3 m c) (g3 m c) (mu3 m c) (bt3 m c) r q).trans ?_
  unfold Cert.BatchNorm.normalized
  exact congrArg₂ (fun a b : EReal => max a b)
    (congrArg₂ (fun a b : EReal => a + b)
      (congrArg₂ (fun a b : EReal => a * b)
        (congrArg₂ (fun a b : EReal => a * b) (gamma_entry m c q)
          (congrArg₂ (fun a b : EReal => a - b) (lin_entry3 m c _ q) (mean_entry m c q)))
        (congrArg Ideal.rsqrt (congrArg (fun a : EReal => a + Cert.BatchNorm.eps) (var_entry m c q))))
      (beta_entry m c q))
    rfl

end Cert.KernelIdeal.Features

end
-- ==== Proof.Finite.lean ====
/-
  The precondition read: it says of every float input that each entry's absolute value is below +∞, so every
  entry of the rows, of the weights and of the bias is a real number.
-/
import proofs.«179944_j79989470921164_1_alg».proof.Defs
import proofs.«179944_j79989470921164_1_alg».proof.Proof.Gen.Pre_finite_inputs
import Idealize.ShloMosaic.Lib.ReduceAll
import Idealize.ShloMosaic.Lib.ValueIdx

/-!
  The precondition read back. The predicate compares the absolute value of every float input
  against +∞ (the word 0x7F800000), folds each array of comparisons by `and`, and conjoins the
  five results. At the ideal instance a float is an extended real and the absolute value is
  `max x (-x)`; an extended real with `max x (-x) < ⊤` is neither `⊤` nor `⊥`, so it is a real.
  Hence: under the precondition every entry of the inputs is a real number.
-/

noncomputable section

namespace Cert.Finite

open Idealize.ShloMosaic Idealize.SL.Sem Cert.Pre_finite_inputs

/-- The rank-0 shape has exactly one index. -/
instance : Subsingleton S_.Idx := ⟨fun a b => funext fun d => d.elim0⟩

/-- An extended real whose absolute value lies below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the predicate: `|x| < +∞` came out true, so `x` is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  have ht : Ideal.ofBits .f32 0x7F800000#32 = ⊤ := by simp [Ideal.ofBits, Ideal.ieee]
  rw [ht] at h'
  simp only [Ideal.cmp] at h'
  by_contra hn
  rw [decide_eq_false hn] at h'
  exact absurd h' (by decide)

/-- Under the precondition every entry of the first, third and fourth inputs is a real number. -/
theorem reals_of_pre [hP : Cert.Pre_finite_inputs.Facts]
    (x0 : FVec Ideal S2000000x6 .f32) (x1 : IVec S2000000x2 32) (x2 : FVec Ideal S64x6 .f32)
    (x3 x4 x5 : FVec Ideal S64 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal))
      ∧ (∀ i, ∃ r : ℝ, x3 i = (r : EReal)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨e0, e2⟩, e3⟩, _⟩, _⟩ := h0
  refine ⟨fun i => ?_, fun i => ?_, fun i => ?_⟩
  · exact real_of_cmp (x0 i) (Host.reduce_andi_all _ _ _ _ _ e0 i)
  · exact real_of_cmp (x2 i) (Host.reduce_andi_all _ _ _ _ _ e2 i)
  · exact real_of_cmp (x3 i) (Host.reduce_andi_all _ _ _ _ _ e3 i)

/-- The same over a memory of the idealized kernel: on every device the arrays `x`, `W` and `b`
    hold real numbers. -/
theorem reals_of_pre_kernelIdeal [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  reals_of_pre _ _ _ _ _ _ (h c)

end Cert.Finite

end
-- ==== Proof.Ideal.Result.lean ====
/-
  The idealized kernel program's result is the reference's composed term.

  Both programs scatter rows into the same zero grid by the same normalised indices; the rows are the normalised
  features, read at an index on both sides as the specification's `normalized`, with the variance in its two forms:
  they agree because every entry of the linear layer is a real number under the precondition.
-/
import proofs.«179944_j79989470921164_1_alg».proof.Defs
import proofs.«179944_j79989470921164_1_alg».proof.Proof.Ideal.Whole
import proofs.«179944_j79989470921164_1_alg».proof.Proof.Ideal.HostReads
import proofs.«179944_j79989470921164_1_alg».proof.Proof.Ideal.Features
import proofs.«179944_j79989470921164_1_alg».proof.Proof.RefSide
import proofs.«179944_j79989470921164_1_alg».proof.Proof.Algebra
import proofs.«179944_j79989470921164_1_alg».proof.Proof.Finite

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Whole

/-- The rows the kernel program scatters are the rows the reference scatters. -/
theorem rows_eq (m : (ℓ : Loc nD τ sig) → Buf (Elt Ideal) ℓ) (hpre : Cert.Pre_KernelIdeal m) (c : Dev nD) :
    (W4 m c main_v11 : Vec Ideal S2000000x64 .f32)
      = Cert.ReferenceIdeal.Read.val_main_v30 (F := Ideal) (m ((c : Thread nD τ).loc main_arg0)) (m ((c : Thread nD τ).loc main_arg2))
          (m ((c : Thread nD τ).loc main_arg3)) (m ((c : Thread nD τ).loc main_arg4)) (m ((c : Thread nD τ).loc main_arg5)) := by
  obtain ⟨hx, hw, hb⟩ := Cert.Finite.reals_of_pre_kernelIdeal m hpre c
  funext i
  obtain ⟨p, q, rfl⟩ : ∃ (p : Fin 2000000) (q : Fin 64), i = ix2 p q := ⟨i 0, i 1, eq_ix2 i⟩
  refine (Features.features_apply m c p q).trans ?_
  refine Eq.trans ?_ (Cert.RefSide.features_apply _ _ _ _ _ p q).symm
  unfold Cert.BatchNorm.normalized
  rw [Cert.BatchNorm.var_two_ways _ (Cert.BatchNorm.lin_finite _ _ _ hx hw hb) q]

/-- The result array at the end of the kernel program's run. -/
theorem result_eq (m : (ℓ : Loc nD τ sig) → Buf (Elt Ideal) ℓ) (hpre : Cert.Pre_KernelIdeal m) (c : Dev nD) :
    W5 m c main_v30
      = Cert.ReferenceIdeal.Read.val_main_v49 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (HostReads.w5_result m c).trans ?_
  rw [HostReads.tail_eq, rows_eq m hpre c]
  rfl

end Cert.KernelIdeal.Result

end
-- ==== Proof.lean ====
/-
  The certificate of a linear layer with batch normalisation and a scatter of the rows into a grid, computed by two
  kernel regions (the column statistics accumulated over a hundred row blocks; the normalisation, block by block)
  with host operations around them, against its plain reference.

  The frames: each kernel program's run ends with every unscoped buffer at a valuation folded from the launch memory,
  in which no item writes an argument array; the reference's is its run with the result dropped. The idealization
  rewrote no operation. The value: at the extended reals both programs scatter the same rows — the kernel's variance
  is the mean of the squares minus the square of the mean, the reference's the mean of the squared deviations, and
  the two agree when every entry of the linear layer is a real number, which the finiteness of the inputs gives.
-/
import proofs.«179944_j79989470921164_1_alg».proof.Defs
import proofs.«179944_j79989470921164_1_alg».proof.Proof.Gen.Kernel
import proofs.«179944_j79989470921164_1_alg».proof.Proof.Gen.KernelIdeal
import proofs.«179944_j79989470921164_1_alg».proof.Proof.Gen.ReferenceIdeal
import proofs.«179944_j79989470921164_1_alg».proof.Proof.Gen.Pre_finite_inputs
import proofs.«179944_j79989470921164_1_alg».proof.Proof.Gen.ReferenceIdeal.Run
import proofs.«179944_j79989470921164_1_alg».proof.Proof.Bits.Whole
import proofs.«179944_j79989470921164_1_alg».proof.Proof.Bits.FrameReads
import proofs.«179944_j79989470921164_1_alg».proof.Proof.Ideal.Whole
import proofs.«179944_j79989470921164_1_alg».proof.Proof.Ideal.FrameReads
import proofs.«179944_j79989470921164_1_alg».proof.Proof.Ideal.Result
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_printed : Cert.frame_Kernel := fun m ρ _ =>
  (θ_run (Cert.Kernel.defs (F := Bits)) _ _).mono (fun r h c =>
    ⟨(h c _ (Cert.Kernel.Whole.mem_unscoped Cert.Kernel.main_arg0 (by decide))).trans (Cert.Kernel.FrameReads.w5_arg0 m c),
     (h c _ (Cert.Kernel.Whole.mem_unscoped Cert.Kernel.main_arg1 (by decide))).trans (Cert.Kernel.FrameReads.w5_arg1 m c),
     (h c _ (Cert.Kernel.Whole.mem_unscoped Cert.Kernel.main_arg2 (by decide))).trans (Cert.Kernel.FrameReads.w5_arg2 m c),
     (h c _ (Cert.Kernel.Whole.mem_unscoped Cert.Kernel.main_arg3 (by decide))).trans (Cert.Kernel.FrameReads.w5_arg3 m c),
     (h c _ (Cert.Kernel.Whole.mem_unscoped Cert.Kernel.main_arg4 (by decide))).trans (Cert.Kernel.FrameReads.w5_arg4 m c),
     (h c _ (Cert.Kernel.Whole.mem_unscoped Cert.Kernel.main_arg5 (by decide))).trans (Cert.Kernel.FrameReads.w5_arg5 m c)⟩)
    (Cert.Kernel.Whole.run (F := Bits) m ρ)

/-- The same of the idealized kernel program. -/
theorem frame_idealized : Cert.frame_KernelIdeal := fun m ρ _ =>
  (θ_run (Cert.KernelIdeal.defs (F := Ideal)) _ _).mono (fun r h c =>
    ⟨(h c _ (Cert.KernelIdeal.Whole.mem_unscoped Cert.KernelIdeal.main_arg0 (by decide))).trans (Cert.KernelIdeal.FrameReads.w5_arg0 m c),
     (h c _ (Cert.KernelIdeal.Whole.mem_unscoped Cert.KernelIdeal.main_arg1 (by decide))).trans (Cert.KernelIdeal.FrameReads.w5_arg1 m c),
     (h c _ (Cert.KernelIdeal.Whole.mem_unscoped Cert.KernelIdeal.main_arg2 (by decide))).trans (Cert.KernelIdeal.FrameReads.w5_arg2 m c),
     (h c _ (Cert.KernelIdeal.Whole.mem_unscoped Cert.KernelIdeal.main_arg3 (by decide))).trans (Cert.KernelIdeal.FrameReads.w5_arg3 m c),
     (h c _ (Cert.KernelIdeal.Whole.mem_unscoped Cert.KernelIdeal.main_arg4 (by decide))).trans (Cert.KernelIdeal.FrameReads.w5_arg4 m c),
     (h c _ (Cert.KernelIdeal.Whole.mem_unscoped Cert.KernelIdeal.main_arg5 (by decide))).trans (Cert.KernelIdeal.FrameReads.w5_arg5 m c)⟩)
    (Cert.KernelIdeal.Whole.run (F := Ideal) m ρ)

/-- The reference's frame is its run with the result dropped. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- Both idealized programs end with the same grid: the kernel program's last valuation at the result, which is the
    reference's composed term of arguments that agree. -/
theorem algebraic : Cert.algebraic_KernelIdeal_ReferenceIdeal := by
  intro m ρ m' ρ' hpre hagree
  refine ⟨fun c => Cert.KernelIdeal.Whole.W5 m c Cert.KernelIdeal.main_v30, ?_, ?_⟩
  · exact (θ_run (Cert.KernelIdeal.defs (F := Ideal)) _ _).mono (fun r h c =>
      ⟨h c _ (Cert.KernelIdeal.Whole.mem_unscoped Cert.KernelIdeal.main_v30 (by decide)),
       (h c _ (Cert.KernelIdeal.Whole.mem_unscoped Cert.KernelIdeal.main_arg0 (by decide))).trans (Cert.KernelIdeal.FrameReads.w5_arg0 m c),
       (h c _ (Cert.KernelIdeal.Whole.mem_unscoped Cert.KernelIdeal.main_arg1 (by decide))).trans (Cert.KernelIdeal.FrameReads.w5_arg1 m c),
       (h c _ (Cert.KernelIdeal.Whole.mem_unscoped Cert.KernelIdeal.main_arg2 (by decide))).trans (Cert.KernelIdeal.FrameReads.w5_arg2 m c),
       (h c _ (Cert.KernelIdeal.Whole.mem_unscoped Cert.KernelIdeal.main_arg3 (by decide))).trans (Cert.KernelIdeal.FrameReads.w5_arg3 m c),
       (h c _ (Cert.KernelIdeal.Whole.mem_unscoped Cert.KernelIdeal.main_arg4 (by decide))).trans (Cert.KernelIdeal.FrameReads.w5_arg4 m c),
       (h c _ (Cert.KernelIdeal.Whole.mem_unscoped Cert.KernelIdeal.main_arg5 (by decide))).trans (Cert.KernelIdeal.FrameReads.w5_arg5 m c)⟩)
      (Cert.KernelIdeal.Whole.run (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v49_eq, (hagree c).1, (hagree c).2.1, (hagree c).2.2.1, (hagree c).2.2.2.1,
      (hagree c).2.2.2.2.1, (hagree c).2.2.2.2.2]
    exact (Cert.KernelIdeal.Result.result_eq m hpre c).symm

theorem claim : Cert.Claim := ⟨Cert.Kernel.Gen.facts, Cert.KernelIdeal.Gen.facts, Cert.ReferenceIdeal.Gen.facts, Cert.Pre_finite_inputs.Gen.facts,
  frame_printed, frame_idealized, frame_reference, preserves, algebraic⟩

end Cert.Proof

end
